-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x512x512 : Shape := ⟨4, ![8, 16, 512, 512]⟩
abbrev S8x512x512 : Shape := ⟨3, ![8, 512, 512]⟩
abbrev S8 : Shape := ⟨1, ![8]⟩
abbrev S_ : Shape := ⟨0, ![]⟩

class Facts : Prop where
  bcast_S_S8x16x512x512 : S_.BroadcastsInDim S8x16x512x512 (![] : Fin 0 → Fin S8x16x512x512.rank)
  reducesTo_S8x16x512x512_S_d0_1_2_3 : S8x16x512x512.ReducesTo [0, 1, 2, 3] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_

variable [Facts]

def fn {F : FTy → Type} [FloatOps F] (main_arg0 : FVec F S8x16x512x512 .f32) (main_arg1 : IVec S8x512x512 32) (main_arg2 : IVec S8 32) : IVec S_ 1 :=
  let main_v0 : FVec F S8x16x512x512 .f32 := Host.absf main_arg0
  let main_cst : FVec F S_ .f32 := constant S_ .f32 0x7F800000#32
  let main_v1 : FVec F S8x16x512x512 .f32 := broadcastInDim S8x16x512x512 ![] bcast_S_S8x16x512x512 main_cst
  let main_v2 : IVec S8x16x512x512 1 := cmpf .olt main_v0 main_v1
  let main_c : IVec S_ 1 := constantI S_ 1 1#1
  let main_v3 : IVec S_ 1 := (fun x v => Host.reduce IntOp.andi x v reducesTo_S8x16x512x512_S_d0_1_2_3 h_S_) main_v2 main_c
  let main_c_0 : IVec S_ 32 := constantI S_ 32 0#32
  let main_v4 : IVec S8x512x512 32 := broadcastInDim S8x512x512 ![] bcast_S_S8x512x512 main_c_0
  let main_v5 : IVec S8x512x512 1 := cmpi .sge main_arg1 main_v4
  let main_c_1 : IVec S_ 32 := constantI S_ 32 16#32
  let main_v6 : IVec S8x512x512 32 := broadcastInDim S8x512x512 ![] bcast_S_S8x512x512 main_c_1
  let main_v7 : IVec S8x512x512 1 := cmpi .slt main_arg1 main_v6
  let main_v8 : IVec S8x512x512 1 := andi main_v5 main_v7
  let main_c_2 : IVec S_ 1 := constantI S_ 1 1#1
  let main_v9 : IVec S_ 1 := (fun x v => Host.reduce IntOp.andi x v reducesTo_S8x512x512_S_d0_1_2 h_S_) main_v8 main_c_2
  let main_v10 : IVec S_ 1 := andi main_v3 main_v9
  main_v10
-- ==== Kernel.lean ====
abbrev S8x16x512x512 : Shape := ⟨4, ![8, 16, 512, 512]⟩
abbrev S8x512x512 : Shape := ⟨3, ![8, 512, 512]⟩
abbrev S8 : Shape := ⟨1, ![8]⟩
abbrev S8x1x16 : Shape := ⟨3, ![8, 1, 16]⟩
abbrev S8x1x1 : Shape := ⟨3, ![8, 1, 1]⟩
abbrev S1x16x128x512 : Shape := ⟨4, ![1, 16, 128, 512]⟩
abbrev S1x128x512 : Shape := ⟨3, ![1, 128, 512]⟩
abbrev S1x1x16 : Shape := ⟨3, ![1, 1, 16]⟩
abbrev S1x1x1 : Shape := ⟨3, ![1, 1, 1]⟩
abbrev S16x128x512 : Shape := ⟨3, ![16, 128, 512]⟩
abbrev S128x512 : Shape := ⟨2, ![128, 512]⟩
abbrev S1 : Shape := ⟨1, ![1]⟩
abbrev S128 : Shape := ⟨1, ![128]⟩
abbrev S128x1 : Shape := ⟨2, ![128, 1]⟩
abbrev S1x1 : Shape := ⟨2, ![1, 1]⟩
abbrev S16x512 : Shape := ⟨2, ![16, 512]⟩
abbrev S16 : Shape := ⟨1, ![16]⟩
abbrev S16x1 : Shape := ⟨2, ![16, 1]⟩
abbrev S1x16 : Shape := ⟨2, ![1, 16]⟩
abbrev S8x16 : Shape := ⟨2, ![8, 16]⟩
abbrev S_ : Shape := ⟨0, ![]⟩
abbrev S8x1 : Shape := ⟨2, ![8, 1]⟩

abbrev nBuf : Space → Nat
  | .hbm => 61
  | .vmem => 14
  | .smem => 1
  | _ => 0

abbrev bufTy : (tb : Table) → Fin (tcTables nBuf tb) → BufTy
  | .hbm, ⟨0, _⟩ => ⟨S8x16x512x512, .f32⟩
  | .hbm, ⟨1, _⟩ => ⟨S8x512x512, .i32⟩
  | .hbm, ⟨2, _⟩ => ⟨S8x1x16, .f32⟩
  | .hbm, ⟨3, _⟩ => ⟨S8x1x16, .f32⟩
  | .hbm, ⟨4, _⟩ => ⟨S8x1x16, .f32⟩
  | .hbm, ⟨5, _⟩ => ⟨S8x1x1, .f32⟩
  | .hbm, ⟨6, _⟩ => ⟨S8x1x1, .f32⟩
  | .hbm, ⟨7, _⟩ => ⟨S8x16, .f32⟩
  | .hbm, ⟨8, _⟩ => ⟨S8x16, .f32⟩
  | .hbm, ⟨9, _⟩ => ⟨S8x16, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8x16, .f32⟩
  | .hbm, ⟨21, _⟩ => ⟨S8x16, .f32⟩
  | .hbm, ⟨22, _⟩ => ⟨S_, .f32⟩
  | .hbm, ⟨23, _⟩ => ⟨S8x16, .f32⟩
  | .hbm, ⟨24, _⟩ => ⟨S8x16, .f32⟩
  | .hbm, ⟨25, _⟩ => ⟨S8x16, .f32⟩
  | .hbm, ⟨26, _⟩ => ⟨S_, .f32⟩
  | .hbm, ⟨27, _⟩ => ⟨S8x16, .f32⟩
  | .hbm, ⟨28, _⟩ => ⟨S8x16, .f32⟩
  | .hbm, ⟨29, _⟩ => ⟨S8x16, .f32⟩
  | .hbm, ⟨30, _⟩ => ⟨S_, .f32⟩
  | .hbm, ⟨31, _⟩ => ⟨S8x16, .f32⟩
  | .hbm, ⟨32, _⟩ => ⟨S8x16, .f32⟩
  | .hbm, ⟨33, _⟩ => ⟨S16, .i32⟩
  | .hbm, ⟨34, _⟩ => ⟨S1x16, .i32⟩
  | .hbm, ⟨35, _⟩ => ⟨S_, .i32⟩
  | .hbm, ⟨36, _⟩ => ⟨S1x16, .i32⟩
  | .hbm, ⟨37, _⟩ => ⟨S1x16, .i1⟩
  | .hbm, ⟨38, _⟩ => ⟨S8x1, .i32⟩
  | .hbm, ⟨39, _⟩ => ⟨S8x16, .i32⟩
  | .hbm, ⟨40, _⟩ => ⟨S8x16, .i32⟩
  | .hbm, ⟨41, _⟩ => ⟨S8x16, .i1⟩
  | .hbm, ⟨42, _⟩ => ⟨S8x16, .i1⟩
  | .hbm, ⟨43, _⟩ => ⟨S8x16, .i1⟩
  | .hbm, ⟨44, _⟩ => ⟨S_, .f32⟩
  | .hbm, ⟨45, _⟩ => ⟨S_, .f32⟩
  | .hbm, ⟨46, _⟩ => ⟨S8x16, .f32⟩
  | .hbm, ⟨47, _⟩ => ⟨S8x16, .f32⟩
  | .hbm, ⟨48, _⟩ => ⟨S_, .f32⟩
  | .hbm, ⟨49, _⟩ => ⟨S8, .f32⟩
  | .hbm, ⟨50, _⟩ => ⟨S8, .f32⟩
  | .hbm, ⟨51, _⟩ => ⟨S8, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .local _ .vmem, ⟨0, _⟩ => ⟨S1x16x128x512, .f32⟩
  | .local _ .vmem, ⟨1, _⟩ => ⟨S1x16x128x512, .f32⟩
  | .local _ .vmem, ⟨2, _⟩ => ⟨S1x128x512, .i32⟩
  | .local _ .vmem, ⟨3, _⟩ => ⟨S1x128x512, .i32⟩
  | .local _ .vmem, ⟨4, _⟩ => ⟨S1x1x16, .f32⟩
  | .local _ .vmem, ⟨5, _⟩ => ⟨S1x1x16, .f32⟩
  | .local _ .vmem, ⟨6, _⟩ => ⟨S1x1x16, .f32⟩
  | .local _ .vmem, ⟨7, _⟩ => ⟨S1x1x16, .f32⟩
  | .local _ .vmem, ⟨8, _⟩ => ⟨S1x1x16, .f32⟩
  | .local _ .vmem, ⟨9, _⟩ => ⟨S1x1x16, .f32⟩
  | .local _ .vmem, ⟨10, _⟩ => ⟨S1x1x1, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | .local _ .smem, ⟨0, _⟩ => ⟨S8, .i32⟩
  | _, _ => ⟨S8x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_call0_v0 : Ref sig .tc := ⟨.hbm, 45, rfl⟩
abbrev main_call0_v1 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_cst_11 : Ref sig .tc := ⟨.hbm, 58, rfl⟩
abbrev main_v37 : Ref sig .tc := ⟨.hbm, 59, rfl⟩
abbrev main_v38 : Ref sig .tc := ⟨.hbm, 60, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v33 : Index := Scalar.indexCast arg0
  ![v33.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  inb_S1x1x16_S1x1x16_0_0_0 : ∀ a, (![0, 0, 0] : Fin 3 → Nat) a + S1x1x16.size a ≤ S1x1x16.size a
  h_S1x1x16 : 0 < S1x1x16.numel
  inb_S1x1x1_S1x1x1_0_0_0 : ∀ a, (![0, 0, 0] : Fin 3 → Nat) a + S1x1x1.size a ≤ S1x1x1.size a
  h_S1x1x1 : 0 < S1x1x1.numel
  inb_S1x16x128x512_S1x16x128x512_0_0_0_0 : ∀ a, (![0, 0, 0, 0] : Fin 4 → Nat) a + S1x16x128x512.size a ≤ S1x16x128x512.size a
  h_S1x16x128x512 : 0 < S1x16x128x512.numel
  shapeCasts_S1x16x128x512_S16x128x512 : S1x16x128x512.ShapeCasts S16x128x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  reduces_S16x128x512_S128x512 : S16x128x512.Reduces [0] S128x512
  shapeCasts_S128x512_S1x128x512 : S128x512.ShapeCasts S1x128x512
  broadcasts_S1x128x512_S16x128x512 : S1x128x512.Broadcasts S16x128x512
  iota_S16x128x512_d0_w32 : S16x128x512.Iotas .tc 32 [0]
  natLt_1_32 : 1 < 32
  numel1_S1 : S1.numel = 1
  reduces_S128x512_S128 : S128x512.Reduces [1] S128
  shapeCasts_S128_S128x1 : S128.ShapeCasts S128x1
  reduces_S128x1_S1 : S128x1.Reduces [0] S1
  shapeCasts_S1_S1x1 : S1.ShapeCasts S1x1
  reduces_S16x128x512_S16x512 : S16x128x512.Reduces [1] S16x512
  reduces_S16x512_S16 : S16x512.Reduces [1] S16
  shapeCasts_S16_S16x1 : S16.ShapeCasts S16x1
  shapeCasts_S1x1x16_S1x1x16 : S1x1x16.ShapeCasts S1x1x16
  transposes_S16x1_p1_0_S1x16 : S16x1.Transposes [1, 0] S1x16
  shapeCasts_S1x16_S1x1x16 : S1x16.ShapeCasts S1x1x16
  shapeCasts_S1x1x1_S1x1x1 : S1x1x1.ShapeCasts S1x1x1
  shapeCasts_S1x1_S1x1x1 : S1x1.ShapeCasts S1x1x1
  shapeCasts_S8x1x16_S8x16 : S8x1x16.ShapeCasts S8x16
  shapeCasts_S8x1x1_S8 : S8x1x1.ShapeCasts S8
  reducesTo_S8_S_d0 : S8.ReducesTo [0] S_
  h_S_ : 0 < S_.numel
  bcast_S_S8x16 : S_.BroadcastsInDim S8x16 (![] : Fin 0 → Fin S8x16.rank)
  bcast_S16_S1x16_1 : S16.BroadcastsInDim S1x16 (![1] : Fin 1 → Fin S1x16.rank)
  bcast_S_S1x16 : S_.BroadcastsInDim S1x16 (![] : Fin 0 → Fin S1x16.rank)
  bcast_S8_S8x1_0 : S8.BroadcastsInDim S8x1 (![0] : Fin 1 → Fin S8x1.rank)
  bcast_S1x16_S8x16_0_1 : S1x16.BroadcastsInDim S8x16 (![0, 1] : Fin 2 → Fin S8x16.rank)
  bcast_S8x1_S8x16_0_1 : S8x1.BroadcastsInDim S8x16 (![0, 1] : Fin 2 → Fin S8x16.rank)
  reducesTo_S8x16_S8_d1 : S8x16.ReducesTo [1] S8
  hrank0 : 0 < grid0.rank
  k0_off1_inb : ∀ i : grid0.Coords, ∀ a, (k0_off1 i) a + S1.size a ≤ S8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x512.size a ≤ S8x16x512x512.size a
  hwx0_0 : ∀ i : grid0.Coords, EltTy.bits .f32 = 32 ∨ (Rect.block (s := S8x16x512x512) S1x16x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S8x512x512.size a
  hwx0_1 : ∀ i : grid0.Coords, EltTy.bits .i32 = 32 ∨ (Rect.block (s := S8x512x512) S1x128x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x16.size a ≤ S8x1x16.size a
  hwx0_2 : ∀ i : grid0.Coords, EltTy.bits .f32 = 32 ∨ (Rect.block (s := S8x1x16) S1x1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x16.size a ≤ S8x1x16.size a
  hwx0_3 : ∀ i : grid0.Coords, EltTy.bits .f32 = 32 ∨ (Rect.block (s := S8x1x16) S1x1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x16.size a ≤ S8x1x16.size a
  hwx0_4 : ∀ i : grid0.Coords, EltTy.bits .f32 = 32 ∨ (Rect.block (s := S8x1x16) S1x1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S8x1x1.size a
  hwx0_5 : ∀ i : grid0.Coords, EltTy.bits .f32 = 32 ∨ (Rect.block (s := S8x1x1) S1x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S8x1x1.size a
  hwx0_6 : ∀ i : grid0.Coords, EltTy.bits .f32 = 32 ∨ (Rect.block (s := S8x1x1) S1x1x1.size (cc0_transform_6 i) (hinb0_6 i)).WholeWords (EltTy.packing .f32)

variable [Facts₀]

abbrev spec0_0 : Pipeline.WinSpec sig grid0.rank :=
  Pipeline.WinSpec.ofSpec (Memref.whole main_arg0) S1x16x128x512.size reads0_0 false false 2 stage0_0 sem0_0 nbuf0_0 hstage0_0

abbrev spec0_1 : Pipeline.WinSpec sig grid0.rank :=
  Pipeline.WinSpec.ofSpec (Memref.whole main_arg1) S1x128x512.size reads0_1 false false 2 stage0_1 sem0_1 nbuf0_1 hstage0_1

abbrev spec0_2 : Pipeline.WinSpec sig grid0.rank :=
  Pipeline.WinSpec.ofSpec (Memref.whole main_v0_0) S1x1x16.size reads0_2 true false 2 stage0_2 sem0_2 nbuf0_2 hstage0_2

abbrev spec0_3 : Pipeline.WinSpec sig grid0.rank :=
  Pipeline.WinSpec.ofSpec (Memref.whole main_v0_1) S1x1x16.size reads0_3 true false 2 stage0_3 sem0_3 nbuf0_3 hstage0_3

abbrev spec0_4 : Pipeline.WinSpec sig grid0.rank :=
  Pipeline.WinSpec.ofSpec (Memref.whole main_v0_2) S1x1x16.size reads0_4 true false 2 stage0_4 sem0_4 nbuf0_4 hstage0_4

abbrev spec0_5 : Pipeline.WinSpec sig grid0.rank :=
  Pipeline.WinSpec.ofSpec (Memref.whole main_v0_3) S1x1x1.size reads0_5 true false 2 stage0_5 sem0_5 nbuf0_5 hstage0_5

abbrev spec0_6 : Pipeline.WinSpec sig grid0.rank :=
  Pipeline.WinSpec.ofSpec (Memref.whole main_v0_4) S1x1x1.size reads0_6 true false 2 stage0_6 sem0_6 nbuf0_6 hstage0_6

abbrev spec0 : Fin 7 → Pipeline.WinSpec sig grid0.rank := fun | 0 => spec0_0 | 1 => spec0_1 | 2 => spec0_2 | 3 => spec0_3 | 4 => spec0_4 | 5 => spec0_5 | 6 => spec0_6 | ⟨_ + 7, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | ⟨_ + 7, h⟩ => absurd h (Nat.not_lt.2 (Nat.le_add_left _ _))
abbrev ix0 (pf : pre0.Contents (Elt F)) : (w : Fin 7) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | ⟨_ + 7, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | ⟨_ + 7, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | ⟨_ + 7, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | ⟨_ + 7, h⟩ => absurd h (Nat.not_lt.2 (Nat.le_add_left _ _))

class Facts : Prop extends Facts₀ where
  harr0 : ∀ w, (spec0 w).arr.IsWhole

variable [Facts]
-- ==== ReferenceIdeal.lean ====
abbrev S8x16x512x512 : Shape := ⟨4, ![8, 16, 512, 512]⟩
abbrev S8x512x512 : Shape := ⟨3, ![8, 512, 512]⟩
abbrev S8 : Shape := ⟨1, ![8]⟩
abbrev S_ : Shape := ⟨0, ![]⟩
abbrev S8x1x512x512 : Shape := ⟨4, ![8, 1, 512, 512]⟩
abbrev S8x1x512x512x1 : Shape := ⟨5, ![8, 1, 512, 512, 1]⟩
abbrev S1 : Shape := ⟨1, ![1]⟩
abbrev S1x1x1x1x1 : Shape := ⟨5, ![1, 1, 1, 1, 1]⟩
abbrev S8x1x1 : Shape := ⟨3, ![8, 1, 1]⟩
abbrev S16 : Shape := ⟨1, ![16]⟩
abbrev S1x16x1x1 : Shape := ⟨4, ![1, 16, 1, 1]⟩
abbrev S8x16 : Shape := ⟨2, ![8, 16]⟩
abbrev S1x16 : Shape := ⟨2, ![1, 16]⟩
abbrev S8x1 : Shape := ⟨2, ![8, 1]⟩

abbrev nBuf : Space → Nat
  | .hbm => 130
  | .vmem => 0
  | .smem => 0
  | _ => 0

abbrev hbmTy0_0 (i : Nat) : BufTy := match i % 128 with
  | 0 => ⟨S8x16x512x512, .f32⟩
  | 1 => ⟨S8x512x512, .i32⟩
  | 2 => ⟨S8, .i32⟩
  | 3 => ⟨S_, .f32⟩
  | 4 => ⟨S8x512x512, .f32⟩
  | 5 => ⟨S_, .f32⟩
  | 6 => ⟨S8x512x512, .f32⟩
  | 7 => ⟨S8x512x512, .f32⟩
  | 8 => ⟨S8x1x512x512, .f32⟩
  | 9 => ⟨S8x16x512x512, .f32⟩
  | 10 => ⟨S8x16x512x512, .f32⟩
  | 11 => ⟨S8x16x512x512, .f32⟩
  | 12 => ⟨S_, .f32⟩
  | 13 => ⟨S8x512x512, .f32⟩
  | 14 => ⟨S8x1x512x512, .f32⟩
  | 15 => ⟨S8x16x512x512, .f32⟩
  | 16 => ⟨S8x16x512x512, .f32⟩
  | 17 => ⟨S_, .f32⟩
  | 18 => ⟨S8x16x512x512, .f32⟩
  | 19 => ⟨S8x16x512x512, .f32⟩
  | 20 => ⟨S8x16x512x512, .f32⟩
  | 21 => ⟨S_, .f32⟩
  | 22 => ⟨S_, .f32⟩
  | 23 => ⟨S_, .f32⟩
  | 24 => ⟨S8x16x512x512, .f32⟩
  | 25 => ⟨S8x16x512x512, .f32⟩
  | 26 => ⟨S_, .f32⟩
  | 27 => ⟨S8x16x512x512, .f32⟩
  | 28 => ⟨S8x16x512x512, .f32⟩
  | 29 => ⟨S8x1x512x512, .i32⟩
  | 30 => ⟨S_, .i32⟩
  | 31 => ⟨S8x1x512x512, .i32⟩
  | 32 => ⟨S8x1x512x512, .i1⟩
  | 33 => ⟨S_, .i32⟩
  | 34 => ⟨S8x1x512x512, .i32⟩
  | 35 => ⟨S8x1x512x512, .i32⟩
  | 36 => ⟨S8x1x512x512, .i32⟩
  | 37 => ⟨S8x1x512x512x1, .i32⟩
  | 38 => ⟨S1, .i32⟩
  | 39 => ⟨S_, .i32⟩
  | 40 => ⟨S8x1x512x512x1, .i32⟩
  | 41 => ⟨S8x1x512x512x1, .i1⟩
  | 42 => ⟨S1x1x1x1x1, .i32⟩
  | 43 => ⟨S8x1x512x512x1, .i32⟩
  | 44 => ⟨S8x1x512x512x1, .i1⟩
  | 45 => ⟨S8x1x512x512x1, .i1⟩
  | 46 => ⟨S_, .i1⟩
  | 47 => ⟨S8x1x512x512, .i1⟩
  | 48 => ⟨S8x1x512x512, .f32⟩
  | 49 => ⟨S_, .f32⟩
  | 50 => ⟨S8x1x512x512, .f32⟩
  | 51 => ⟨S8x1x512x512, .f32⟩
  | 52 => ⟨S8x512x512, .f32⟩
  | 53 => ⟨S8x512x512, .f32⟩
  | 54 => ⟨S8x1x1, .i32⟩
  | 55 => ⟨S_, .i32⟩
  | 56 => ⟨S8x512x512, .i32⟩
  | 57 => ⟨S8x512x512, .i1⟩
  | 58 => ⟨S8x512x512, .i32⟩
  | 59 => ⟨S8x512x512, .i1⟩
  | 60 => ⟨S8x512x512, .i1⟩
  | 61 => ⟨S8x512x512, .i32⟩
  | 62 => ⟨S_, .i32⟩
  | 63 => ⟨S_, .i32⟩
  | 64 => ⟨S_, .f32⟩
  | 65 => ⟨S_, .f32⟩
  | 66 => ⟨S8x512x512, .f32⟩
  | 67 => ⟨S8x512x512, .f32⟩
  | 68 => ⟨S_, .f32⟩
  | 69 => ⟨S_, .f32⟩
  | 70 => ⟨S_, .i32⟩
  | 71 => ⟨S_, .i32⟩
  | 72 => ⟨S_, .f32⟩
  | 73 => ⟨S_, .f32⟩
  | 74 => ⟨S8x1x512x512, .i32⟩
  | 75 => ⟨S16, .i32⟩
  | 76 => ⟨S1x16x1x1, .i32⟩
  | 77 => ⟨S8x16x512x512, .i32⟩
  | 78 => ⟨S8x16x512x512, .i32⟩
  | 79 => ⟨S8x16x512x512, .i1⟩
  | 80 => ⟨S8x16x512x512, .f32⟩
  | 81 => ⟨S8x16x512x512, .f32⟩
  | 82 => ⟨S_, .f32⟩
  | 83 => ⟨S8x16, .f32⟩
  | 84 => ⟨S_, .f32⟩
  | 85 => ⟨S8x16, .f32⟩
  | 86 => ⟨S_, .f32⟩
  | 87 => ⟨S8x16, .f32⟩
  | 88 => ⟨S_, .f32⟩
  | 89 => ⟨S8x16, .f32⟩
  | 90 => ⟨S8x16, .f32⟩
  | 91 => ⟨S_, .f32⟩
  | 92 => ⟨S8x16, .f32⟩
  | 93 => ⟨S8x16, .f32⟩
  | 94 => ⟨S8x16, .f32⟩
  | 95 => ⟨S_, .f32⟩
  | 96 => ⟨S8x16, .f32⟩
  | 97 => ⟨S8x16, .f32⟩
  | 98 => ⟨S8x16, .f32⟩
  | 99 => ⟨S_, .f32⟩
  | 100 => ⟨S8x16, .f32⟩
  | 101 => ⟨S8x16, .f32⟩
  | 102 => ⟨S16, .i32⟩
  | 103 => ⟨S1x16, .i32⟩
  | 104 => ⟨S_, .i32⟩
  | 105 => ⟨S1x16, .i32⟩
  | 106 => ⟨S1x16, .i1⟩
  | 107 => ⟨S8x1, .i32⟩
  | 108 => ⟨S8x16, .i32⟩
  | 109 => ⟨S8x16, .i32⟩
  | 110 => ⟨S8x16, .i1⟩
  | 111 => ⟨S8x16, .i1⟩
  | 112 => ⟨S8x16, .i1⟩
  | 113 => ⟨S_, .f32⟩
  | 114 => ⟨S_, .f32⟩
  | 115 => ⟨S8x16, .f32⟩
  | 116 => ⟨S8x16, .f32⟩
  | 117 => ⟨S_, .f32⟩
  | 118 => ⟨S8, .f32⟩
  | 119 => ⟨S8, .f32⟩
  | 120 => ⟨S8, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S8x16x512x512, .f32⟩

abbrev hbmTy0_1 (i : Nat) : BufTy := match i % 128 with
  | 0 => ⟨S_, .f32⟩
  | 1 => ⟨S_, .f32⟩
  | _ => ⟨S8x16x512x512, .f32⟩

abbrev hbmTy (i : Nat) : BufTy := match i / 128 with
  | 0 => hbmTy0_0 i
  | 1 => hbmTy0_1 i
  | _ => ⟨S8x16x512x512, .f32⟩

abbrev bufTy : (tb : Table) → Fin (tcTables nBuf tb) → BufTy
  | .hbm, ⟨i, _⟩ => hbmTy i
  | _, _ => ⟨S8x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_v15 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_c : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_c_5 : Ref sig .tc := ⟨.hbm, 62, rfl⟩
abbrev main_v26 : Ref sig .tc := ⟨.hbm, 63, rfl⟩
abbrev main_cst_6 : Ref sig .tc := ⟨.hbm, 64, rfl⟩
abbrev main_call2_v0 : Ref sig .tc := ⟨.hbm, 65, rfl⟩
abbrev main_call2_v1 : Ref sig .tc := ⟨.hbm, 66, rfl⟩
abbrev main_v27 : Ref sig .tc := ⟨.hbm, 67, rfl⟩
abbrev main_cst_7 : Ref sig .tc := ⟨.hbm, 68, rfl⟩
abbrev main_v28 : Ref sig .tc := ⟨.hbm, 69, rfl⟩
abbrev main_c_8 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_cst_9 : Ref sig .tc := ⟨.hbm, 82, rfl⟩
abbrev main_v40 : Ref sig .tc := ⟨.hbm, 83, rfl⟩
abbrev main_cst_10 : Ref sig .tc := ⟨.hbm, 84, rfl⟩
abbrev main_v41 : Ref sig .tc := ⟨.hbm, 85, rfl⟩
abbrev main_cst_11 : Ref sig .tc := ⟨.hbm, 86, rfl⟩
abbrev main_v42 : Ref sig .tc := ⟨.hbm, 87, rfl⟩
abbrev main_cst_12 : Ref sig .tc := ⟨.hbm, 88, rfl⟩
abbrev main_v43 : Ref sig .tc := ⟨.hbm, 89, rfl⟩
abbrev main_v44 : Ref sig .tc := ⟨.hbm, 90, rfl⟩
abbrev main_cst_13 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_cst_14 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_cst_15 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_c_16 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_cst_17 : Ref sig .tc := ⟨.hbm, 113, rfl⟩
abbrev main_call3_v0 : Ref sig .tc := ⟨.hbm, 114, rfl⟩
abbrev main_call3_v1 : Ref sig .tc := ⟨.hbm, 115, rfl⟩
abbrev main_v63 : Ref sig .tc := ⟨.hbm, 116, rfl⟩
abbrev main_cst_18 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_cst_19 : Ref sig .tc := ⟨.hbm, 121, rfl⟩
abbrev main_v67 : Ref sig .tc := ⟨.hbm, 122, rfl⟩
abbrev main_cst_20 : Ref sig .tc := ⟨.hbm, 123, rfl⟩
abbrev main_v68 : Ref sig .tc := ⟨.hbm, 124, rfl⟩
abbrev main_cst_21 : Ref sig .tc := ⟨.hbm, 125, rfl⟩
abbrev main_v69 : Ref sig .tc := ⟨.hbm, 126, rfl⟩
abbrev main_cst_22 : Ref sig .tc := ⟨.hbm, 127, rfl⟩
abbrev main_v70 : Ref sig .tc := ⟨.hbm, 128, rfl⟩
abbrev main_v71 : Ref sig .tc := ⟨.hbm, 129, rfl⟩

abbrev nD : Nat := 1
abbrev τ : Topo := Topo.v7x

variable {F : FTy → Type} [FloatOps F]

class Facts₀ : Prop where
  reducesTo_S8x16x512x512_S8x512x512_d1 : S8x16x512x512.ReducesTo [1] S8x512x512
  h_S_ : 0 < S_.numel
  bcast_S_S8x512x512 : S_.BroadcastsInDim S8x512x512 (![] : Fin 0 → Fin S8x512x512.rank)
  bcast_S8x512x512_S8x1x512x512_0_2_3 : S8x512x512.BroadcastsInDim S8x1x512x512 (![0, 2, 3] : Fin 3 → Fin S8x1x512x512.rank)
  bcast_S8x1x512x512_S8x16x512x512_0_1_2_3 : S8x1x512x512.BroadcastsInDim S8x16x512x512 (![0, 1, 2, 3] : Fin 4 → Fin S8x16x512x512.rank)
  bcast_S_S8x16x512x512 : S_.BroadcastsInDim S8x16x512x512 (![] : Fin 0 → Fin S8x16x512x512.rank)
  bcast_S_S8x1x512x512 : S_.BroadcastsInDim S8x1x512x512 (![] : Fin 0 → Fin S8x1x512x512.rank)
  shapeCasts_S8x1x512x512_S8x1x512x512x1 : S8x1x512x512.ShapeCasts S8x1x512x512x1
  bcast_S_S8x1x512x512x1 : S_.BroadcastsInDim S8x1x512x512x1 (![] : Fin 0 → Fin S8x1x512x512x1.rank)
  bcast_S1_S1x1x1x1x1_4 : S1.BroadcastsInDim S1x1x1x1x1 (![4] : Fin 1 → Fin S1x1x1x1x1.rank)
  bcast_S1x1x1x1x1_S8x1x512x512x1_0_1_2_3_4 : S1x1x1x1x1.BroadcastsInDim S8x1x512x512x1 (![0, 1, 2, 3, 4] : Fin 5 → Fin S8x1x512x512x1.rank)
  reducesTo_S8x1x512x512x1_S8x1x512x512_d4 : S8x1x512x512x1.ReducesTo [4] S8x1x512x512
  shapeCasts_S8x1x512x512_S8x512x512 : S8x1x512x512.ShapeCasts S8x512x512
  bcast_S8_S8x1x1_0 : S8.BroadcastsInDim S8x1x1 (![0] : Fin 1 → Fin S8x1x1.rank)
  bcast_S8x1x1_S8x512x512_0_1_2 : S8x1x1.BroadcastsInDim S8x512x512 (![0, 1, 2] : Fin 3 → Fin S8x512x512.rank)
  natLt_1_32 : 1 < 32
  reducesTo_S8x512x512_S_d0_1_2 : S8x512x512.ReducesTo [0, 1, 2] S_
  bcast_S16_S1x16x1x1_1 : S16.BroadcastsInDim S1x16x1x1 (![1] : Fin 1 → Fin S1x16x1x1.rank)
  bcast_S1x16x1x1_S8x16x512x512_0_1_2_3 : S1x16x1x1.BroadcastsInDim S8x16x512x512 (![0, 1, 2, 3] : Fin 4 → Fin S8x16x512x512.rank)
  reducesTo_S8x16x512x512_S8x16_d2_3 : S8x16x512x512.ReducesTo [2, 3] S8x16
  bcast_S_S8x16 : S_.BroadcastsInDim S8x16 (![] : Fin 0 → Fin S8x16.rank)
  bcast_S16_S1x16_1 : S16.BroadcastsInDim S1x16 (![1] : Fin 1 → Fin S1x16.rank)
  bcast_S_S1x16 : S_.BroadcastsInDim S1x16 (![] : Fin 0 → Fin S1x16.rank)
  bcast_S8_S8x1_0 : S8.BroadcastsInDim S8x1 (![0] : Fin 1 → Fin S8x1.rank)
  bcast_S1x16_S8x16_0_1 : S1x16.BroadcastsInDim S8x16 (![0, 1] : Fin 2 → Fin S8x16.rank)
  bcast_S8x1_S8x16_0_1 : S8x1.BroadcastsInDim S8x16 (![0, 1] : Fin 2 → Fin S8x16.rank)
  reducesTo_S8x16_S8_d1 : S8x16.ReducesTo [1] S8
  reducesTo_S8_S_d0 : S8.ReducesTo [0] S_
  gather_S8x16x512x512_S8x1x512x512x1_S8x1x512x512_n_1_023_023_1_4_1111_wf : GatherDims.WF S8x16x512x512 S8x1x512x512x1 S8x1x512x512 [] [1] [0, 2, 3] [1] [0, 2, 3] 4 ![1, 1, 1, 1]

variable [Facts₀]

def gather_S8x16x512x512_S8x1x512x512x1_S8x1x512x512_n_1_023_023_1_4_1111 : GatherDims S8x16x512x512 S8x1x512x512x1 S8x1x512x512 where
  offsetDims := []
  collapsedSliceDims := [1]
  operandBatchingDims := [0, 2, 3]
  startIndicesBatchingDims := [0, 2, 3]
  startIndexMap := [1]
  indexVectorDim := 4
  sliceSizes := ![1, 1, 1, 1]
  wf := gather_S8x16x512x512_S8x1x512x512x1_S8x1x512x512_n_1_023_023_1_4_1111_wf

class Facts : Prop extends Facts₀ where

variable [Facts]
-- ==== Proof.KBBase.lean ====
/-
  The idealized kernel's launch, stated over the pieces every later module shares.

  The pallas_call runs on the grid (b, h) ∈ 8 × 4, point t = 4·b + h.  Its seven windows are the logits'
  block (one batch entry, all sixteen classes, rows 128·h … 128·h + 127), the labels' block (same rows), and
  five outputs whose block index is (b, 0, 0): three rows of sixteen class sums and two single cells, each
  kept in its staging buffer across the four points of a batch entry and written back after the last of them.
  The per-batch object count is a prefetched table: the body reads its word b.  The body clears the five
  outputs when h = 0 and otherwise adds the tile's sums to what the point before left.
-/
import proofs.«429240_j35107062677770_3_alg».proof.Proof.Gen.Kernel.Skeleton
import proofs.«429240_j35107062677770_3_alg».proof.Proof.Gen.Kernel.Launch
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at launch, and the object-count table -/

/-- Core `c`'s TensorCore buffers when the region is entered: as launched (the region is @main's first item). -/
abbrev V (c : Dev nD) (b : Ref sig .tc) : Buf (Elt F) ((c : Thread nD τ).loc b) := m ((c : Thread nD τ).loc b)

/-- The table's contents at launch (one device: device 0's). -/
def tbl : pre0.Contents (Elt F) := fun j => V m (0 : Dev nD) (pre0.ref j)
/-- On every device the table holds those contents. -/
theorem V_pre (c : Dev nD) (j : Fin 1) : V m c (pre0.ref j) = tbl m j := by
  obtain rfl : c = 0 := Subsingleton.elim _ _; rfl

/-- The table's contents are admissible (no index map reads it), and the pipeline at them. -/
abbrev adm : (pcfg0 (F := F)).Adm := ⟨tbl m, trivial⟩
abbrev adms : (p : Fin 1) → (pcfgs (F := F) p).Adm := fun _ => adm m
abbrev cfgM : Pipeline.Cfg sig Λ₀ := cfg0 (adm m)

/-- The table as the body is handed it: its whole buffer as a memref. -/
abbrev tbM : Memref sig .tc .smem S8 .i32 := Memref.whole main_arg2
abbrev htbM : tbM.IsWhole := Memref.isWhole_whole _
/-- The table memref's buffer on core `c`, and it held whole at `f`. -/
abbrev TbBuf (c : Dev nD) : Type := Buf (Elt F) ((tbM).view.loc (c : Thread nD τ))
abbrev tbPt (c : Dev nD) (f : TbBuf (F := F) c) : sProp 𝕄 :=
  (tbM).view.loc (c : Thread nD τ) ↦{fullShare} f

/-- The table held whole is that one points-to. -/
theorem prefHeld_eq (c : Dev nD) (v : pre0.Contents (Elt F)) :
    (Pipeline.prefHeld (Ix := Unit) (Name := ℕ) (U := UR sig nD τ) (Lvl := ℕ) pre0 c (fun _ => fullShare) v : sProp 𝕄) = tbPt c (v 0) := by
  unfold Pipeline.prefHeld
  rw [show (Finset.univ : Finset (Fin 1)) = {(0 : Fin 1)} from by decide, bigSep_singleton]
  rfl

/-! ## The windows at a point -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Each window's current staging memref at point `t`, and its wholeness. -/
abbrev ms0 (t : Fin (cfgM m).N) : Memref sig .tc .vmem S1x16x128x512 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x128x512 .i32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x1x16 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x1x16 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x1x16 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S1x1x1 .f32 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S1x1x1 .f32 := spec0_6.stage ((cfgM m).slots t 6)
abbrev hs6 (t : Fin (cfgM m).N) : (ms6 m t).IsWhole := hstage0_6 (((cfgM m).slots t 6).cast nbuf0_6)

/-- The kernel body at point `t`, on what the pipeline calls it with. -/
abbrev bodyAt (t : Fin (cfgM m).N) : Prog (TpuEff nD τ sig (Elt F) Λ₀ .tc) PUnit :=
  cc0__ce_dice_kernel (grid0.coords t) tbM htbM (ms0 m t) (hs0 m t) (ms1 m t) (hs1 m t) (ms2 m t) (hs2 m t) (ms3 m t) (hs3 m t)
    (ms4 m t) (hs4 m t) (ms5 m t) (hs5 m t) (ms6 m t) (hs6 m t)

/-! ## The body's one branch: the row-tile index is zero -/

/-- The condition of the body's `scf.if`, from the grid coordinates. -/
abbrev isFirstTile (i : grid0.Coords) : Prop :=
  (Scalar.cmpi .ne (Scalar.extui (Scalar.cmpi .eq (BitVec.ofNat 32 (i 1).val) 0#32)) 0#32) = 1#1
/-- It holds exactly at the first of a batch entry's four points. -/
theorem isFirstTile_iff : ∀ t : Fin (cfgM m).N, isFirstTile (grid0.coords t) ↔ t.val % 4 = 0 :=
  (by decide +kernel : ∀ t : Fin grid0.N, isFirstTile (grid0.coords t) ↔ t.val % 4 = 0)

/-! ## When the outputs are written back: after the last of a batch entry's four points -/

theorem flush2 : ∀ t : Fin (cfgM m).N, ((cfgM m).win 2).flush t = true ↔ t.val % 4 = 3 :=
  (by decide +kernel : ∀ t : Fin grid0.N, Pipeline.Window.flushOf grid0 true cc0_transform_2 t = true ↔ t.val % 4 = 3)
theorem flush3 : ∀ t : Fin (cfgM m).N, ((cfgM m).win 3).flush t = true ↔ t.val % 4 = 3 :=
  (by decide +kernel : ∀ t : Fin grid0.N, Pipeline.Window.flushOf grid0 true cc0_transform_3 t = true ↔ t.val % 4 = 3)
theorem flush4 : ∀ t : Fin (cfgM m).N, ((cfgM m).win 4).flush t = true ↔ t.val % 4 = 3 :=
  (by decide +kernel : ∀ t : Fin grid0.N, Pipeline.Window.flushOf grid0 true cc0_transform_4 t = true ↔ t.val % 4 = 3)
theorem flush5 : ∀ t : Fin (cfgM m).N, ((cfgM m).win 5).flush t = true ↔ t.val % 4 = 3 :=
  (by decide +kernel : ∀ t : Fin grid0.N, Pipeline.Window.flushOf grid0 true cc0_transform_5 t = true ↔ t.val % 4 = 3)
theorem flush6 : ∀ t : Fin (cfgM m).N, ((cfgM m).win 6).flush t = true ↔ t.val % 4 = 3 :=
  (by decide +kernel : ∀ t : Fin grid0.N, Pipeline.Window.flushOf grid0 true cc0_transform_6 t = true ↔ t.val % 4 = 3)

/-- One staging buffer of each output shape, through which an output's contents are stated. -/
abbrev VRow : View sig .tc .vmem S1x1x16 .f32 := (Memref.whole cc0_stg2_0 : Memref sig .tc .vmem S1x1x16 .f32).view
abbrev VCell : View sig .tc .vmem S1x1x1 .f32 := (Memref.whole cc0_stg5_0 : Memref sig .tc .vmem S1x1x1 .f32).view

end Cert.Kernel.Hand

end
-- ==== Proof.KBRunA.lean ====
/-
  The body run at the first row tile of a batch entry (h = 0): the five outputs' buffers, whatever they held, are cleared and then receive the tile's sums; the logits' and labels' blocks and the object-count table are read and left as found. What each output's buffer ends with is found by the run as a list of stored pieces.
-/
import proofs.«429240_j35107062677770_3_alg».proof.Proof.KBBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs when the row-tile index is zero. -/
noncomputable def kernelRunA (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : isFirstTile i)
    (x0 : Vec F S1x16x128x512 .f32) (x1 : Vec F S1x128x512 .i32) (xt : TbBuf (F := F) c) :
    Σ' (L2 L3 L4 : List (View.Piece (Elt F) S1x1x16 .f32)) (L5 L6 : List (View.Piece (Elt F) S1x1x1 .f32)),
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d) ∗ tbPt c xt
            ∗ (iprop(owns (c : Thread nD τ) arg3 fullShare x0 ∗ owns (c : Thread nD τ) arg4 fullShare x1
              ∗ (∃ f, arg5.view.loc (c : Thread nD τ) ↦[arg5.view.set]{fullShare} arg5.view.writes (Elt F) f L2)
              ∗ (∃ f, arg6.view.loc (c : Thread nD τ) ↦[arg6.view.set]{fullShare} arg6.view.writes (Elt F) f L3)
              ∗ (∃ f, arg7.view.loc (c : Thread nD τ) ↦[arg7.view.set]{fullShare} arg7.view.writes (Elt F) f L4)
              ∗ (∃ f, arg8.view.loc (c : Thread nD τ) ↦[arg8.view.set]{fullShare} arg8.view.writes (Elt F) f L5)
              ∗ (∃ f, arg9.view.loc (c : Thread nD τ) ↦[arg9.view.set]{fullShare} arg9.view.writes (Elt F) f L6)
              ∗ tbPt c xt) -∗ K ⟨⟩))
          ⊢ wp frame (wpE (defs₀ (F := F)) Variants.none c none) E (cc0__ce_dice_kernel i tbM htbM arg3 harg3 arg4 harg4 arg5 harg5 arg6 harg6 arg7 harg7 arg8 harg8 arg9 harg9) K := by
  refine ⟨?_, ?_, ?_, ?_, ?_, fun E K => ?run⟩
  case run =>
    simp only [cc0__ce_dice_kernel_eq_skeleton]; unfold cc0__ce_dice_kernel_skel
    simp only [k0_part1_eq_skeleton, k0_part2_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, HT, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [H4]; · iexists _; iexact H4
    isplitl [H5]; · iexists _; iexact H5
    isplitl [H6]; · iexists _; iexact H6
    iexact HT

end Cert.Kernel.Hand

end
-- ==== Proof.KBRunB.lean ====
/-
  The body run at a later row tile of a batch entry (h > 0): the five outputs' buffers hold what the point before left, and each receives that plus the tile's sums; the logits' and labels' blocks and the object-count table are read and left as found.
-/
import proofs.«429240_j35107062677770_3_alg».proof.Proof.KBRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs when the row-tile index is not zero. -/
noncomputable def kernelRunB (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : ¬isFirstTile i)
    (x0 : Vec F S1x16x128x512 .f32) (x1 : Vec F S1x128x512 .i32) (xt : TbBuf (F := F) c)
    (xo2 xo3 xo4 : Vec F S1x1x16 .f32) (xo5 xo6 : Vec F S1x1x1 .f32) :
    Σ' (L2 L3 L4 : List (View.Piece (Elt F) S1x1x16 .f32)) (L5 L6 : List (View.Piece (Elt F) S1x1x1 .f32)),
      ∀ (E : Set ℕ) (K : PUnit → sProp 𝕄),
        iprop(owns (c : Thread nD τ) arg3 fullShare x0 ∗ owns (c : Thread nD τ) arg4 fullShare x1
            ∗ owns (c : Thread nD τ) arg5 fullShare xo2 ∗ owns (c : Thread nD τ) arg6 fullShare xo3 ∗ owns (c : Thread nD τ) arg7 fullShare xo4
            ∗ owns (c : Thread nD τ) arg8 fullShare xo5 ∗ owns (c : Thread nD τ) arg9 fullShare xo6 ∗ tbPt c xt
            ∗ (iprop(owns (c : Thread nD τ) arg3 fullShare x0 ∗ owns (c : Thread nD τ) arg4 fullShare x1
              ∗ (∃ f, arg5.view.loc (c : Thread nD τ) ↦[arg5.view.set]{fullShare} arg5.view.writes (Elt F) f L2)
              ∗ (∃ f, arg6.view.loc (c : Thread nD τ) ↦[arg6.view.set]{fullShare} arg6.view.writes (Elt F) f L3)
              ∗ (∃ f, arg7.view.loc (c : Thread nD τ) ↦[arg7.view.set]{fullShare} arg7.view.writes (Elt F) f L4)
              ∗ (∃ f, arg8.view.loc (c : Thread nD τ) ↦[arg8.view.set]{fullShare} arg8.view.writes (Elt F) f L5)
              ∗ (∃ f, arg9.view.loc (c : Thread nD τ) ↦[arg9.view.set]{fullShare} arg9.view.writes (Elt F) f L6)
              ∗ tbPt c xt) -∗ K ⟨⟩))
          ⊢ wp frame (wpE (defs₀ (F := F)) Variants.none c none) E (cc0__ce_dice_kernel i tbM htbM arg3 harg3 arg4 harg4 arg5 harg5 arg6 harg6 arg7 harg7 arg8 harg8 arg9 harg9) K := by
  refine ⟨?_, ?_, ?_, ?_, ?_, fun E K => ?run⟩
  case run =>
    simp only [cc0__ce_dice_kernel_eq_skeleton]; unfold cc0__ce_dice_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, HT, Hk⟩
    obtain rfl := harg3.eq_unread hf0; obtain rfl := harg4.eq_unread hf1
    obtain rfl := harg5.eq_unread hf2; obtain rfl := harg6.eq_unread hf3; obtain rfl := harg7.eq_unread hf4
    obtain rfl := harg8.eq_unread hf5; obtain rfl := harg9.eq_unread hf6
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [H4]; · iexists _; iexact H4
    isplitl [H5]; · iexists _; iexact H5
    isplitl [H6]; · iexists _; iexact H6
    iexact HT

end Cert.Kernel.Hand

end
-- ==== Proof.KBCarried.lean ====
/-
  What the five outputs' staging buffers hold after the body at each of the 32 points, by recursion on the point (the first tile of a batch entry starts afresh, each later tile builds on the point before); the pipeline's proof data over it; and the body obligation: at every point the body, handed the windows' buffers as the pipeline leaves them, runs to the buffers holding exactly that.
-/
import proofs.«429240_j35107062677770_3_alg».proof.Proof.KBRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five outputs' contents, as one tuple: three rows of sixteen class sums, two single cells. -/
abbrev Outs : Type := Vec F S1x1x16 .f32 × Vec F S1x1x16 .f32 × Vec F S1x1x16 .f32 × Vec F S1x1x1 .f32 × Vec F S1x1x1 .f32

/-! ## Each case's stored pieces cover the output's block -/

theorem coverA_2 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : isFirstTile i)
    (x0 : Vec F S1x16x128x512 .f32) (x1 : Vec F S1x128x512 .i32) (xt : TbBuf (F := F) c) (y : S1x1x16.Idx) :
    ∃ pc ∈ (kernelRunA c i arg3 harg3 arg4 harg4 arg5 harg5 arg6 harg6 arg7 harg7 arg8 harg8 arg9 harg9 hc0 x0 x1 xt).1, y ∈ pc.1.set :=
  View.cover_of_tiledL (kernelRunA c i arg3 harg3 arg4 harg4 arg5 harg5 arg6 harg6 arg7 harg7 arg8 harg8 arg9 harg9 hc0 x0 x1 xt).1 S1x1x16.size (by sl_kernel_rfl) y
theorem coverB_2 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : ¬isFirstTile i)
    (x0 : Vec F S1x16x128x512 .f32) (x1 : Vec F S1x128x512 .i32) (xt : TbBuf (F := F) c)
    (xo2 xo3 xo4 : Vec F S1x1x16 .f32) (xo5 xo6 : Vec F S1x1x1 .f32) (y : S1x1x16.Idx) :
    ∃ pc ∈ (kernelRunB c i arg3 harg3 arg4 harg4 arg5 harg5 arg6 harg6 arg7 harg7 arg8 harg8 arg9 harg9 hc0 x0 x1 xt xo2 xo3 xo4 xo5 xo6).1, y ∈ pc.1.set :=
  View.cover_of_tiledL (kernelRunB c i arg3 harg3 arg4 harg4 arg5 harg5 arg6 harg6 arg7 harg7 arg8 harg8 arg9 harg9 hc0 x0 x1 xt xo2 xo3 xo4 xo5 xo6).1 S1x1x16.size (by sl_kernel_rfl) y
theorem coverA_3 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : isFirstTile i)
    (x0 : Vec F S1x16x128x512 .f32) (x1 : Vec F S1x128x512 .i32) (xt : TbBuf (F := F) c) (y : S1x1x16.Idx) :
    ∃ pc ∈ (kernelRunA c i arg3 harg3 arg4 harg4 arg5 harg5 arg6 harg6 arg7 harg7 arg8 harg8 arg9 harg9 hc0 x0 x1 xt).2.1, y ∈ pc.1.set :=
  View.cover_of_tiledL (kernelRunA c i arg3 harg3 arg4 harg4 arg5 harg5 arg6 harg6 arg7 harg7 arg8 harg8 arg9 harg9 hc0 x0 x1 xt).2.1 S1x1x16.size (by sl_kernel_rfl) y
theorem coverB_3 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : ¬isFirstTile i)
    (x0 : Vec F S1x16x128x512 .f32) (x1 : Vec F S1x128x512 .i32) (xt : TbBuf (F := F) c)
    (xo2 xo3 xo4 : Vec F S1x1x16 .f32) (xo5 xo6 : Vec F S1x1x1 .f32) (y : S1x1x16.Idx) :
    ∃ pc ∈ (kernelRunB c i arg3 harg3 arg4 harg4 arg5 harg5 arg6 harg6 arg7 harg7 arg8 harg8 arg9 harg9 hc0 x0 x1 xt xo2 xo3 xo4 xo5 xo6).2.1, y ∈ pc.1.set :=
  View.cover_of_tiledL (kernelRunB c i arg3 harg3 arg4 harg4 arg5 harg5 arg6 harg6 arg7 harg7 arg8 harg8 arg9 harg9 hc0 x0 x1 xt xo2 xo3 xo4 xo5 xo6).2.1 S1x1x16.size (by sl_kernel_rfl) y
theorem coverA_4 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : isFirstTile i)
    (x0 : Vec F S1x16x128x512 .f32) (x1 : Vec F S1x128x512 .i32) (xt : TbBuf (F := F) c) (y : S1x1x16.Idx) :
    ∃ pc ∈ (kernelRunA c i arg3 harg3 arg4 harg4 arg5 harg5 arg6 harg6 arg7 harg7 arg8 harg8 arg9 harg9 hc0 x0 x1 xt).2.2.1, y ∈ pc.1.set :=
  View.cover_of_tiledL (kernelRunA c i arg3 harg3 arg4 harg4 arg5 harg5 arg6 harg6 arg7 harg7 arg8 harg8 arg9 harg9 hc0 x0 x1 xt).2.2.1 S1x1x16.size (by sl_kernel_rfl) y
theorem coverB_4 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : ¬isFirstTile i)
    (x0 : Vec F S1x16x128x512 .f32) (x1 : Vec F S1x128x512 .i32) (xt : TbBuf (F := F) c)
    (xo2 xo3 xo4 : Vec F S1x1x16 .f32) (xo5 xo6 : Vec F S1x1x1 .f32) (y : S1x1x16.Idx) :
    ∃ pc ∈ (kernelRunB c i arg3 harg3 arg4 harg4 arg5 harg5 arg6 harg6 arg7 harg7 arg8 harg8 arg9 harg9 hc0 x0 x1 xt xo2 xo3 xo4 xo5 xo6).2.2.1, y ∈ pc.1.set :=
  View.cover_of_tiledL (kernelRunB c i arg3 harg3 arg4 harg4 arg5 harg5 arg6 harg6 arg7 harg7 arg8 harg8 arg9 harg9 hc0 x0 x1 xt xo2 xo3 xo4 xo5 xo6).2.2.1 S1x1x16.size (by sl_kernel_rfl) y
theorem coverA_5 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : isFirstTile i)
    (x0 : Vec F S1x16x128x512 .f32) (x1 : Vec F S1x128x512 .i32) (xt : TbBuf (F := F) c) (y : S1x1x1.Idx) :
    ∃ pc ∈ (kernelRunA c i arg3 harg3 arg4 harg4 arg5 harg5 arg6 harg6 arg7 harg7 arg8 harg8 arg9 harg9 hc0 x0 x1 xt).2.2.2.1, y ∈ pc.1.set :=
  View.cover_of_tiledL (kernelRunA c i arg3 harg3 arg4 harg4 arg5 harg5 arg6 harg6 arg7 harg7 arg8 harg8 arg9 harg9 hc0 x0 x1 xt).2.2.2.1 S1x1x1.size (by sl_kernel_rfl) y
theorem coverB_5 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : ¬isFirstTile i)
    (x0 : Vec F S1x16x128x512 .f32) (x1 : Vec F S1x128x512 .i32) (xt : TbBuf (F := F) c)
    (xo2 xo3 xo4 : Vec F S1x1x16 .f32) (xo5 xo6 : Vec F S1x1x1 .f32) (y : S1x1x1.Idx) :
    ∃ pc ∈ (kernelRunB c i arg3 harg3 arg4 harg4 arg5 harg5 arg6 harg6 arg7 harg7 arg8 harg8 arg9 harg9 hc0 x0 x1 xt xo2 xo3 xo4 xo5 xo6).2.2.2.1, y ∈ pc.1.set :=
  View.cover_of_tiledL (kernelRunB c i arg3 harg3 arg4 harg4 arg5 harg5 arg6 harg6 arg7 harg7 arg8 harg8 arg9 harg9 hc0 x0 x1 xt xo2 xo3 xo4 xo5 xo6).2.2.2.1 S1x1x1.size (by sl_kernel_rfl) y
theorem coverA_6 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : isFirstTile i)
    (x0 : Vec F S1x16x128x512 .f32) (x1 : Vec F S1x128x512 .i32) (xt : TbBuf (F := F) c) (y : S1x1x1.Idx) :
    ∃ pc ∈ (kernelRunA c i arg3 harg3 arg4 harg4 arg5 harg5 arg6 harg6 arg7 harg7 arg8 harg8 arg9 harg9 hc0 x0 x1 xt).2.2.2.2.1, y ∈ pc.1.set :=
  View.cover_of_tiledL (kernelRunA c i arg3 harg3 arg4 harg4 arg5 harg5 arg6 harg6 arg7 harg7 arg8 harg8 arg9 harg9 hc0 x0 x1 xt).2.2.2.2.1 S1x1x1.size (by sl_kernel_rfl) y
theorem coverB_6 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : ¬isFirstTile i)
    (x0 : Vec F S1x16x128x512 .f32) (x1 : Vec F S1x128x512 .i32) (xt : TbBuf (F := F) c)
    (xo2 xo3 xo4 : Vec F S1x1x16 .f32) (xo5 xo6 : Vec F S1x1x1 .f32) (y : S1x1x1.Idx) :
    ∃ pc ∈ (kernelRunB c i arg3 harg3 arg4 harg4 arg5 harg5 arg6 harg6 arg7 harg7 arg8 harg8 arg9 harg9 hc0 x0 x1 xt xo2 xo3 xo4 xo5 xo6).2.2.2.2.1, y ∈ pc.1.set :=
  View.cover_of_tiledL (kernelRunB c i arg3 harg3 arg4 harg4 arg5 harg5 arg6 harg6 arg7 harg7 arg8 harg8 arg9 harg9 hc0 x0 x1 xt xo2 xo3 xo4 xo5 xo6).2.2.2.2.1 S1x1x1.size (by sl_kernel_rfl) y

/-! ## What each case leaves in the outputs' buffers: its pieces read back -/

def outA (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : isFirstTile i)
    (x0 : Vec F S1x16x128x512 .f32) (x1 : Vec F S1x128x512 .i32) (xt : TbBuf (F := F) c) : Outs (F := F) :=
  (VRow.read (Elt F) (VRow.writes (Elt F) VRow.junk (kernelRunA c i arg3 harg3 arg4 harg4 arg5 harg5 arg6 harg6 arg7 harg7 arg8 harg8 arg9 harg9 hc0 x0 x1 xt).1),
   VRow.read (Elt F) (VRow.writes (Elt F) VRow.junk (kernelRunA c i arg3 harg3 arg4 harg4 arg5 harg5 arg6 harg6 arg7 harg7 arg8 harg8 arg9 harg9 hc0 x0 x1 xt).2.1),
   VRow.read (Elt F) (VRow.writes (Elt F) VRow.junk (kernelRunA c i arg3 harg3 arg4 harg4 arg5 harg5 arg6 harg6 arg7 harg7 arg8 harg8 arg9 harg9 hc0 x0 x1 xt).2.2.1),
   VCell.read (Elt F) (VCell.writes (Elt F) VCell.junk (kernelRunA c i arg3 harg3 arg4 harg4 arg5 harg5 arg6 harg6 arg7 harg7 arg8 harg8 arg9 harg9 hc0 x0 x1 xt).2.2.2.1),
   VCell.read (Elt F) (VCell.writes (Elt F) VCell.junk (kernelRunA c i arg3 harg3 arg4 harg4 arg5 harg5 arg6 harg6 arg7 harg7 arg8 harg8 arg9 harg9 hc0 x0 x1 xt).2.2.2.2.1))

def outB (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : ¬isFirstTile i)
    (x0 : Vec F S1x16x128x512 .f32) (x1 : Vec F S1x128x512 .i32) (xt : TbBuf (F := F) c)
    (xo2 xo3 xo4 : Vec F S1x1x16 .f32) (xo5 xo6 : Vec F S1x1x1 .f32) : Outs (F := F) :=
  (VRow.read (Elt F) (VRow.writes (Elt F) VRow.junk (kernelRunB c i arg3 harg3 arg4 harg4 arg5 harg5 arg6 harg6 arg7 harg7 arg8 harg8 arg9 harg9 hc0 x0 x1 xt xo2 xo3 xo4 xo5 xo6).1),
   VRow.read (Elt F) (VRow.writes (Elt F) VRow.junk (kernelRunB c i arg3 harg3 arg4 harg4 arg5 harg5 arg6 harg6 arg7 harg7 arg8 harg8 arg9 harg9 hc0 x0 x1 xt xo2 xo3 xo4 xo5 xo6).2.1),
   VRow.read (Elt F) (VRow.writes (Elt F) VRow.junk (kernelRunB c i arg3 harg3 arg4 harg4 arg5 harg5 arg6 harg6 arg7 harg7 arg8 harg8 arg9 harg9 hc0 x0 x1 xt xo2 xo3 xo4 xo5 xo6).2.2.1),
   VCell.read (Elt F) (VCell.writes (Elt F) VCell.junk (kernelRunB c i arg3 harg3 arg4 harg4 arg5 harg5 arg6 harg6 arg7 harg7 arg8 harg8 arg9 harg9 hc0 x0 x1 xt xo2 xo3 xo4 xo5 xo6).2.2.2.1),
   VCell.read (Elt F) (VCell.writes (Elt F) VCell.junk (kernelRunB c i arg3 harg3 arg4 harg4 arg5 harg5 arg6 harg6 arg7 harg7 arg8 harg8 arg9 harg9 hc0 x0 x1 xt xo2 xo3 xo4 xo5 xo6).2.2.2.2.1))

/-! ## The accumulation, point by point -/

/-- What the outputs' staging buffers hold after the body at position `n`. -/
def outsAt (c : Dev nD) : (n : ℕ) → n < (cfgM m).N → Outs (F := F)
  | 0, hn => outA c (grid0.coords ⟨0, hn⟩) (ms0 m ⟨0, hn⟩) (hs0 m ⟨0, hn⟩) (ms1 m ⟨0, hn⟩) (hs1 m ⟨0, hn⟩) (ms2 m ⟨0, hn⟩) (hs2 m ⟨0, hn⟩) (ms3 m ⟨0, hn⟩) (hs3 m ⟨0, hn⟩) (ms4 m ⟨0, hn⟩) (hs4 m ⟨0, hn⟩) (ms5 m ⟨0, hn⟩) (hs5 m ⟨0, hn⟩) (ms6 m ⟨0, hn⟩) (hs6 m ⟨0, hn⟩) ((isFirstTile_iff m ⟨0, hn⟩).mpr (Nat.zero_mod _)) (iblk m c 0 ⟨0, hn⟩) (iblk m c 1 ⟨0, hn⟩) (tbl m 0)
  | n + 1, hn =>
    if h0 : (n + 1) % 4 = 0 then
      outA c (grid0.coords ⟨n + 1, hn⟩) (ms0 m ⟨n + 1, hn⟩) (hs0 m ⟨n + 1, hn⟩) (ms1 m ⟨n + 1, hn⟩) (hs1 m ⟨n + 1, hn⟩) (ms2 m ⟨n + 1, hn⟩) (hs2 m ⟨n + 1, hn⟩) (ms3 m ⟨n + 1, hn⟩) (hs3 m ⟨n + 1, hn⟩) (ms4 m ⟨n + 1, hn⟩) (hs4 m ⟨n + 1, hn⟩) (ms5 m ⟨n + 1, hn⟩) (hs5 m ⟨n + 1, hn⟩) (ms6 m ⟨n + 1, hn⟩) (hs6 m ⟨n + 1, hn⟩) ((isFirstTile_iff m ⟨n + 1, hn⟩).mpr h0) (iblk m c 0 ⟨n + 1, hn⟩) (iblk m c 1 ⟨n + 1, hn⟩) (tbl m 0)
    else
      outB c (grid0.coords ⟨n + 1, hn⟩) (ms0 m ⟨n + 1, hn⟩) (hs0 m ⟨n + 1, hn⟩) (ms1 m ⟨n + 1, hn⟩) (hs1 m ⟨n + 1, hn⟩) (ms2 m ⟨n + 1, hn⟩) (hs2 m ⟨n + 1, hn⟩) (ms3 m ⟨n + 1, hn⟩) (hs3 m ⟨n + 1, hn⟩) (ms4 m ⟨n + 1, hn⟩) (hs4 m ⟨n + 1, hn⟩) (ms5 m ⟨n + 1, hn⟩) (hs5 m ⟨n + 1, hn⟩) (ms6 m ⟨n + 1, hn⟩) (hs6 m ⟨n + 1, hn⟩) (fun h => h0 ((isFirstTile_iff m ⟨n + 1, hn⟩).mp h)) (iblk m c 0 ⟨n + 1, hn⟩) (iblk m c 1 ⟨n + 1, hn⟩) (tbl m 0)
        (outsAt c n (Nat.lt_of_succ_lt hn)).1 (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2

/-- At the first tile of a batch entry: afresh. -/
theorem outsAt_first (c : Dev nD) (t : Fin (cfgM m).N) (h0 : t.val % 4 = 0) :
    outsAt m c t.val t.isLt = outA c (grid0.coords t) (ms0 m t) (hs0 m t) (ms1 m t) (hs1 m t) (ms2 m t) (hs2 m t) (ms3 m t) (hs3 m t) (ms4 m t) (hs4 m t) (ms5 m t) (hs5 m t) (ms6 m t) (hs6 m t) ((isFirstTile_iff m t).mpr h0) (iblk m c 0 t) (iblk m c 1 t) (tbl m 0) := by
  obtain ⟨n, hn⟩ := t
  cases n with
  | zero => exact rfl
  | succ n => exact (dif_pos h0).trans rfl

/-- At a later tile: over what the point before left. -/
theorem outsAt_later (c : Dev nD) (t : Fin (cfgM m).N) (h0 : ¬t.val % 4 = 0) :
    outsAt m c t.val t.isLt = outB c (grid0.coords t) (ms0 m t) (hs0 m t) (ms1 m t) (hs1 m t) (ms2 m t) (hs2 m t) (ms3 m t) (hs3 m t) (ms4 m t) (hs4 m t) (ms5 m t) (hs5 m t) (ms6 m t) (hs6 m t) (fun h => h0 ((isFirstTile_iff m t).mp h)) (iblk m c 0 t) (iblk m c 1 t) (tbl m 0)
      (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans rfl

/-! ## The pipeline's proof data -/

/-- The region's invariant: the scoped buffers no window stages and the generator register, and the object-count
    table held whole at its launch contents (the body reads one word of it and stores nothing into it). -/
def Φc (c : Dev nD) : sProp 𝕄 := iprop(Pipeline.ΦA spec0 c ∗ tbPt c (tbl m 0))

/-- The proof data on core `c`: the arrays as launched; after the body at point `t` each input's buffer at its
    block and the outputs' at `outsAt`; nothing owed; full shares. -/
def dat (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
    | ⟨4, _⟩ => (outsAt m c t.val t.isLt).2.2.1
    | ⟨5, _⟩ => (outsAt m c t.val t.isLt).2.2.2.1
    | ⟨6, _⟩ => (outsAt m c t.val t.isLt).2.2.2.2
  Φ _ := Φc m c
  q _ := fullShare
  owed _ := 0

theorem A_eq (c : Dev nD) (w : Fin (cfgM m).W) : (dat m c).A w = V m c (Pipeline.arrRef spec0 w) := by
  dsimp only [dat]

theorem after_0 (c : Dev nD) (t : Fin (cfgM m).N) : (dat m c).after 0 t = iblk m c 0 t := by dsimp only [dat]; try rfl
theorem after_1 (c : Dev nD) (t : Fin (cfgM m).N) : (dat m c).after 1 t = iblk m c 1 t := by dsimp only [dat]; try rfl
theorem after_2 (c : Dev nD) (t : Fin (cfgM m).N) : (dat m c).after 2 t = (outsAt m c t.val t.isLt).1 := by dsimp only [dat]; try rfl
theorem after_3 (c : Dev nD) (t : Fin (cfgM m).N) : (dat m c).after 3 t = (outsAt m c t.val t.isLt).2.1 := by dsimp only [dat]; try rfl
theorem after_4 (c : Dev nD) (t : Fin (cfgM m).N) : (dat m c).after 4 t = (outsAt m c t.val t.isLt).2.2.1 := by dsimp only [dat]; try rfl
theorem after_5 (c : Dev nD) (t : Fin (cfgM m).N) : (dat m c).after 5 t = (outsAt m c t.val t.isLt).2.2.2.1 := by dsimp only [dat]; try rfl
theorem after_6 (c : Dev nD) (t : Fin (cfgM m).N) : (dat m c).after 6 t = (outsAt m c t.val t.isLt).2.2.2.2 := by dsimp only [dat]; try rfl

/-- Each input's current staging buffer holds its block at every point, fetched there or not. -/
theorem before_0 (c : Dev nD) (t : Fin (cfgM m).N) (d) : (dat m c).before 0 t d = iblk m c 0 t :=
  ((dat m c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dat m c).before 1 t d = iblk m c 1 t :=
  ((dat m c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- At a later tile an output's current staging buffer holds what the body left at the point before: the buffer was
    not written back between. -/
theorem before_2_later (c : Dev nD) (t : Fin (cfgM m).N) (h0 : ¬t.val % 4 = 0) (d) :
    (dat m c).before 2 t d = (dat m c).after 2 ⟨t.val - 1, Nat.lt_of_le_of_lt (Nat.sub_le _ _) t.isLt⟩ := by
  have hN : t.val < 32 := lt_of_lt_of_eq t.isLt (show (cfgM m).N = 32 from N_0)
  exact Dat.before_out_kept _ 2 rfl t (by omega) (Bool.eq_false_iff.mpr fun h => by have := (flush2 m _).mp h; dsimp only at this; omega)
    (fun _ => rfl) (fun _ _ => rfl) d
theorem before_3_later (c : Dev nD) (t : Fin (cfgM m).N) (h0 : ¬t.val % 4 = 0) (d) :
    (dat m c).before 3 t d = (dat m c).after 3 ⟨t.val - 1, Nat.lt_of_le_of_lt (Nat.sub_le _ _) t.isLt⟩ := by
  have hN : t.val < 32 := lt_of_lt_of_eq t.isLt (show (cfgM m).N = 32 from N_0)
  exact Dat.before_out_kept _ 3 rfl t (by omega) (Bool.eq_false_iff.mpr fun h => by have := (flush3 m _).mp h; dsimp only at this; omega)
    (fun _ => rfl) (fun _ _ => rfl) d
theorem before_4_later (c : Dev nD) (t : Fin (cfgM m).N) (h0 : ¬t.val % 4 = 0) (d) :
    (dat m c).before 4 t d = (dat m c).after 4 ⟨t.val - 1, Nat.lt_of_le_of_lt (Nat.sub_le _ _) t.isLt⟩ := by
  have hN : t.val < 32 := lt_of_lt_of_eq t.isLt (show (cfgM m).N = 32 from N_0)
  exact Dat.before_out_kept _ 4 rfl t (by omega) (Bool.eq_false_iff.mpr fun h => by have := (flush4 m _).mp h; dsimp only at this; omega)
    (fun _ => rfl) (fun _ _ => rfl) d
theorem before_5_later (c : Dev nD) (t : Fin (cfgM m).N) (h0 : ¬t.val % 4 = 0) (d) :
    (dat m c).before 5 t d = (dat m c).after 5 ⟨t.val - 1, Nat.lt_of_le_of_lt (Nat.sub_le _ _) t.isLt⟩ := by
  have hN : t.val < 32 := lt_of_lt_of_eq t.isLt (show (cfgM m).N = 32 from N_0)
  exact Dat.before_out_kept _ 5 rfl t (by omega) (Bool.eq_false_iff.mpr fun h => by have := (flush5 m _).mp h; dsimp only at this; omega)
    (fun _ => rfl) (fun _ _ => rfl) d
theorem before_6_later (c : Dev nD) (t : Fin (cfgM m).N) (h0 : ¬t.val % 4 = 0) (d) :
    (dat m c).before 6 t d = (dat m c).after 6 ⟨t.val - 1, Nat.lt_of_le_of_lt (Nat.sub_le _ _) t.isLt⟩ := by
  have hN : t.val < 32 := lt_of_lt_of_eq t.isLt (show (cfgM m).N = 32 from N_0)
  exact Dat.before_out_kept _ 6 rfl t (by omega) (Bool.eq_false_iff.mpr fun h => by have := (flush6 m _).mp h; dsimp only at this; omega)
    (fun _ => rfl) (fun _ _ => rfl) d

/-! ## The body obligation -/

/-- What the body is called with at point `t`, -/
def bodyPre (c : Dev nD) (t : Fin (cfgM m).N) : sProp 𝕄 :=
  iprop((dat m c).Φ t.castSucc ∗ (dat m c).owesAt () t.castSucc
    ∗ (∃ d, owns (c : Thread nD τ) (ms0 m t) fullShare ((dat m c).before 0 t d))
    ∗ (∃ d, owns (c : Thread nD τ) (ms1 m t) fullShare ((dat m c).before 1 t d))
    ∗ (∃ d, owns (c : Thread nD τ) (ms2 m t) fullShare ((dat m c).before 2 t d))
    ∗ (∃ d, owns (c : Thread nD τ) (ms3 m t) fullShare ((dat m c).before 3 t d))
    ∗ (∃ d, owns (c : Thread nD τ) (ms4 m t) fullShare ((dat m c).before 4 t d))
    ∗ (∃ d, owns (c : Thread nD τ) (ms5 m t) fullShare ((dat m c).before 5 t d))
    ∗ (∃ d, owns (c : Thread nD τ) (ms6 m t) fullShare ((dat m c).before 6 t d)))

/-- and what it returns. -/
def bodyPost (c : Dev nD) (t : Fin (cfgM m).N) : sProp 𝕄 :=
  iprop((dat m c).Φ t.succ ∗ (dat m c).owesAt () t.succ
    ∗ owns (c : Thread nD τ) (ms0 m t) fullShare ((dat m c).after 0 t)
    ∗ owns (c : Thread nD τ) (ms1 m t) fullShare ((dat m c).after 1 t)
    ∗ owns (c : Thread nD τ) (ms2 m t) fullShare ((dat m c).after 2 t)
    ∗ owns (c : Thread nD τ) (ms3 m t) fullShare ((dat m c).after 3 t)
    ∗ owns (c : Thread nD τ) (ms4 m t) fullShare ((dat m c).after 4 t)
    ∗ owns (c : Thread nD τ) (ms5 m t) fullShare ((dat m c).after 5 t)
    ∗ owns (c : Thread nD τ) (ms6 m t) fullShare ((dat m c).after 6 t))

set_option maxHeartbeats 1600000 in
/-- The body at any point: the inputs' buffers hold their blocks; a first tile finds the outputs' buffers at anything
    and a later tile at what the point before left; so that case's run applies; the invariant passes through with
    the table read and handed back. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1]
  rw [show (dat m c).Φ t.succ = Φc m c from rfl, show (dat m c).Φ t.castSucc = Φc m c from rfl,
    show (dat m c).owesAt () t.succ = (dat m c).owesAt () t.castSucc from rfl,
    after_0, after_1, after_2, after_3, after_4, after_5, after_6]
  unfold Φc
  by_cases h0 : t.val % 4 = 0
  · rw [outsAt_first m c t h0]
    unfold outA
    dsimp only
    iintro ⟨⟨HΦ, HT⟩, Ho, ⟨%d0, H0⟩, ⟨%d1, H1⟩, ⟨%d2, H2⟩, ⟨%d3, H3⟩, ⟨%d4, H4⟩, ⟨%d5, H5⟩, ⟨%d6, H6⟩⟩
    iapply ((kernelRunA (F := F) c (grid0.coords t) _ _ _ _ _ _ _ _ _ _ _ _ _ _ ((isFirstTile_iff m t).mpr h0) (iblk m c 0 t) (iblk m c 1 t) (tbl m 0)).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    isplitl [HT]; · iexact HT
    iintro ⟨H0, H1, ⟨%e2, H2⟩, ⟨%e3, H3⟩, ⟨%e4, H4⟩, ⟨%e5, H5⟩, ⟨%e6, H6⟩, HT⟩
    isplitl [HΦ HT]
    · isplitl [HΦ]; · iexact HΦ
      iexact HT
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverA_2 (F := F) c _ _ _ _ _ _ _ _ _ _ _ _ _ _ _ _ _ _ _)
    isplitl [H3]
    · unfold owns; iexists _; isplitr
      swap; · iexact H3
      ipureintro; exact View.read_writes_of_cover _ _ _ _ _ (coverA_3 (F := F) c _ _ _ _ _ _ _ _ _ _ _ _ _ _ _ _ _ _ _)
    isplitl [H4]
    · unfold owns; iexists _; isplitr
      swap; · iexact H4
      ipureintro; exact View.read_writes_of_cover _ _ _ _ _ (coverA_4 (F := F) c _ _ _ _ _ _ _ _ _ _ _ _ _ _ _ _ _ _ _)
    isplitl [H5]
    · unfold owns; iexists _; isplitr
      swap; · iexact H5
      ipureintro; exact View.read_writes_of_cover _ _ _ _ _ (coverA_5 (F := F) c _ _ _ _ _ _ _ _ _ _ _ _ _ _ _ _ _ _ _)
    · unfold owns; iexists _; isplitr
      swap; · iexact H6
      ipureintro; exact View.read_writes_of_cover _ _ _ _ _ (coverA_6 (F := F) c _ _ _ _ _ _ _ _ _ _ _ _ _ _ _ _ _ _ _)
  · rw [outsAt_later m c t h0]
    simp only [before_2_later m c t h0, before_3_later m c t h0, before_4_later m c t h0, before_5_later m c t h0, before_6_later m c t h0]
    rw [after_2, after_3, after_4, after_5, after_6]
    unfold outB
    dsimp only
    iintro ⟨⟨HΦ, HT⟩, Ho, ⟨%d0, H0⟩, ⟨%d1, H1⟩, ⟨%d2, H2⟩, ⟨%d3, H3⟩, ⟨%d4, H4⟩, ⟨%d5, H5⟩, ⟨%d6, H6⟩⟩
    iapply ((kernelRunB (F := F) c (grid0.coords t) _ _ _ _ _ _ _ _ _ _ _ _ _ _ (fun h => h0 ((isFirstTile_iff m t).mp h)) (iblk m c 0 t) (iblk m c 1 t) (tbl m 0) _ _ _ _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT]; · iexact HT
    iintro ⟨H0, H1, ⟨%e2, H2⟩, ⟨%e3, H3⟩, ⟨%e4, H4⟩, ⟨%e5, H5⟩, ⟨%e6, H6⟩, HT⟩
    isplitl [HΦ HT]
    · isplitl [HΦ]; · iexact HΦ
      iexact HT
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverB_2 (F := F) c _ _ _ _ _ _ _ _ _ _ _ _ _ _ _ _ _ _ _ _ _ _ _ _)
    isplitl [H3]
    · unfold owns; iexists _; isplitr
      swap; · iexact H3
      ipureintro; exact View.read_writes_of_cover _ _ _ _ _ (coverB_3 (F := F) c _ _ _ _ _ _ _ _ _ _ _ _ _ _ _ _ _ _ _ _ _ _ _ _)
    isplitl [H4]
    · unfold owns; iexists _; isplitr
      swap; · iexact H4
      ipureintro; exact View.read_writes_of_cover _ _ _ _ _ (coverB_4 (F := F) c _ _ _ _ _ _ _ _ _ _ _ _ _ _ _ _ _ _ _ _ _ _ _ _)
    isplitl [H5]
    · unfold owns; iexists _; isplitr
      swap; · iexact H5
      ipureintro; exact View.read_writes_of_cover _ _ _ _ _ (coverB_5 (F := F) c _ _ _ _ _ _ _ _ _ _ _ _ _ _ _ _ _ _ _ _ _ _ _ _)
    · unfold owns; iexists _; isplitr
      swap; · iexact H6
      ipureintro; exact View.read_writes_of_cover _ _ _ _ _ (coverB_6 (F := F) c _ _ _ _ _ _ _ _ _ _ _ _ _ _ _ _ _ _ _ _ _ _ _ _)

/-- The library's body obligation, at every point. -/
theorem body_obligation (c : Dev nD) : BodyObligation (dat (F := F) m c) (defs₀ (F := F)) Variants.none () Set.univ := fun t => by
  rw [bigSep_W0, bigSep_W0]
  exact sound_body m c t

end Cert.Kernel.Hand

end
-- ==== Proof.KBLaunch.lean ====
/-
  The whole run of the program: the launch, the kernel region, and the three stretches of host operations after it, as the list of @main's segments.  Between segments the core holds every unscoped buffer at a named valuation: the launch memory; after the region the same with the seven windows' arrays at what the pipeline leaves (the two inputs as found, each output's write-backs folded in); then each host stretch applied in turn.  The region takes the object-count table out of the unscoped buffers, hands it whole to the body's invariant, and puts it back at its exit, which is what lets the host operations after the region read it.  The run's post names the last valuation at every unscoped buffer.
-/
import proofs.«429240_j35107062677770_3_alg».proof.Proof.KBCarried
import Idealize.ShloMosaic.Lib.Pipeline.FrameSuffix
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 (c : Dev nD) : Valuation τ sig (Elt F) := fun b => m ((c : Dev nD), b)
/-- The same read at the TensorCore's references. -/
abbrev V0 : (c : Dev nD) → (b : Ref sig .tc) → Buf (Elt F) ((c : Thread nD τ).loc b) := fun c b => W0 m c b
/-- At the region's exit: its arrays at what the pipeline leaves, every other buffer as launched. -/
def W1 (c : Dev nD) : Valuation τ sig (Elt F) :=
  Pipeline.withArrays spec0 c (W0 m c) fun w => (dat m c).arrAt w (cfgM m).N
theorem W1_arr (c : Dev nD) (w : Fin (cfgM m).W) :
    W1 m c (Proc.devRef .tc (Pipeline.arrRef spec0 w)) = (dat m c).arrAt w (cfgM m).N := by
  unfold W1; exact Pipeline.withArrays_arr spec0 winFacts0.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m c b
theorem hF (c : Dev nD) (w : Fin (cfgM m).W) : (dat m c).arrAt w (cfgM m).N = V1 m c (Pipeline.arrRef spec0 w) :=
  (W1_arr m c w).symm
theorem hrest (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After each of the three host stretches. -/
abbrev W2 (c : Dev nD) : Valuation τ sig (Elt F) := StableHlo.after hostOps1 (W1 m c)
abbrev W3 (c : Dev nD) : Valuation τ sig (Elt F) := StableHlo.after hostOps1_1 (W2 m c)
abbrev W4 (c : Dev nD) : Valuation τ sig (Elt F) := StableHlo.after hostOps1_2 (W3 m c)

/-! ## The proof data family and the thread state -/

def pdats : (p : Fin 1) → (c : Dev nD) → Dat τ (Elt F) Unit ℕ (UR sig nD τ) ℕ (Pipeline.pin (pcfgs (F := F)) (adms m) p) c
  | ⟨0, _⟩ => fun c => dat m c
abbrev 𝒱₀ : Variants := Variants.none
abbrev L : GSem nD τ sig → Finset Unit := fun _ => ∅
abbrev lv : GSem nD τ sig → Unit → ℕ := fun _ _ => 0
/-- What rides beside the buffers through every segment: the generator register and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The table's words under the launch valuation are the admissible contents the pipeline is pinned at. -/
theorem V_tbl (c : Dev nD) : (fun k => V0 m c (pre0.ref k)) = tbl m := funext (V_pre m c)

/-! ## The region as a segment -/

set_option backward.isDefEq.respectTransparency.types false in
def reg0 : Pipeline.RegionSeg (pcfgs (F := F)) (adms m) (pdats m) () defs₀ 𝒱₀ L lv 0 where
  win := winFacts0.to₀
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop((∃ r, prngReg c r) ∗ Pipeline.prefHeld (Ix := Unit) (Name := ℕ) (U := UR sig nD τ) (Lvl := ℕ) pre0 c (fun _ => fullShare) (tbl m))
  Z c := Pipeline.unscopedRestP (Ix := Unit) (Name := ℕ) (U := UR sig nD τ) (Lvl := ℕ) pre0 spec0 c (V0 m c)
  hentry c := by
    rw [Pipeline.ownSems0_none]
    have hsplit := Pipeline.arrays_of_unscopedBufs (p := 0) (pcfgs (F := F)) (adms m) (pdats m) winFacts0 arr_whole0 c
      ((pdats m 0 c).share_full fun _ => rfl) (V0 m c) fun _ => rfl
    rw [Pipeline.unscopedBufs_held, Pipeline.unscopedRest_split preFacts0 c (V0 m c), V_tbl m c] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Φc m c from rfl]; unfold Φc Pipeline.ΦA
    rw [show ((adms m 0).1 : pre0.Contents (Elt F)) = tbl m from rfl, prefHeld_eq]
    iintro ⟨Hp, HT, Hr⟩
    isplitl [Hr Hp]
    · isplitl [Hr]; · iexact Hr
      iexact Hp
    iexact HT
  hout c := by
    rw [Pipeline.ownSems0_none, show (pdats m 0 c).Φ (Fin.last _) = Φc m c from rfl]; unfold Φc Pipeline.ΦA
    rw [prefHeld_eq]
    iintro ⟨⟨Hr, Hp⟩, HT⟩
    isplitl [Hp HT]
    · isplitl [Hp]; · iexact Hp
      iexact HT
    isplitr; · iempintro
    iexact Hr
  hexit c := by
    have hjoin := Pipeline.unscopedBufs_of_arrays (p := 0) (pcfgs (F := F)) (adms m) (Ix := Unit) (Name := ℕ) (U := UR sig nD τ) (Lvl := ℕ)
      winFacts0 arr_whole0 c (pdats m) ((pdats m 0 c).share_full fun _ => rfl)
      (V0 m c) (V1 m c) ((pdats m 0 c).arrAt · (cfgM m).N) (hF m c) (hrest m c)
    rw [Pipeline.unscopedBufs_held, Pipeline.unscopedRest_split preFacts0 c (V0 m c), V_tbl m c] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

/-! ## @main as segments, and the launch -/

abbrev segs : List (Pipeline.Seg (pcfgs (F := F)) (adms m) (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)) ]
theorem main_run (c : Dev nD) : main (F := F) c = Pipeline.Seg.run (segs m) := (main_chain c).trans (by chain_rfl)

set_option backward.isDefEq.respectTransparency.types false in
/-- From any memory with zero counters every weakly fair execution of @main on the TensorCores terminates, nothing
    faulting, and every final state holds every unscoped buffer at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) (adms m) (pdats m) () (cellOf_inj (adms m)) emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adms m)) (cellOf_inj (adms m))) (Pipeline.launchToks (Pipeline.pin (pcfgs (F := F)) (adms m)) (cellOf_inj (adms m))))
    (hu₀ := by
      iintro Hu; imodintro
      isplitl [Hu]
      · iapply (show (ownU (initOf (Pipeline.cells (Pipeline.pin (pcfgs (F := F)) (adms m)) (cellOf_inj (adms m))) (Pipeline.launchToks (Pipeline.pin (pcfgs (F := F)) (adms m)) (cellOf_inj (adms m)))) : sProp 𝕄)
            ⊢ BI.own (emb₁ (initOf (Pipeline.cells (Pipeline.pin (pcfgs (F := F)) (adms m)) (cellOf_inj (adms m))) (Pipeline.launchToks (Pipeline.pin (pcfgs (F := F)) (adms m)) (cellOf_inj (adms m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      show iprop(StableHlo.held (c : Thread nD τ) (Pipeline.ucRefs τ sig) (W4 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.KBTail.lean ====
/-
  The part of the loss both programs compute with the same host operations, as one function: from the per-(batch
  entry, class) overlap, probability mass and label mass, the dice coefficient 1 - (2·inter + s) / (psum + tsum + s)
  with s the smoothing literal, summed over the classes 1 … N[b] of each batch entry, divided by N[b] and averaged
  over the eight batch entries; and the result 1 · ceLoss + 1 · dice.  Both programs end with exactly these
  operations on their own five ingredients, so their results are compared by comparing the ingredients.
-/
import proofs.«429240_j35107062677770_3_alg».proof.Kernel

noncomputable section

namespace Cert.Kernel.Hand

open Cert.Kernel
open Idealize.ShloMosaic
open Cert.Kernel.Facts₀ Cert.Kernel.Facts

variable {F : FTy → Type} [FloatOps F] [Cert.Kernel.Facts]

/-- The dice term and the final combination, spelled with the host operations both programs print. -/
def diceTail (inter psum tsum : FVec F S8x16 .f32) (ceLoss : FVec F S_ .f32) (num : IVec S8 32) : FVec F S_ .f32 :=
  let v10 : FVec F S8x16 .f32 := broadcastInDim S8x16 ![] bcast_S_S8x16 (constant S_ .f32 0x40000000#32)
  let v11 : FVec F S8x16 .f32 := mulf v10 inter
  let v12 : FVec F S8x16 .f32 := broadcastInDim S8x16 ![] bcast_S_S8x16 (constant S_ .f32 0x38D1B717#32)
  let v13 : FVec F S8x16 .f32 := addf v11 v12
  let v14 : FVec F S8x16 .f32 := addf psum tsum
  let v15 : FVec F S8x16 .f32 := broadcastInDim S8x16 ![] bcast_S_S8x16 (constant S_ .f32 0x38D1B717#32)
  let v16 : FVec F S8x16 .f32 := addf v14 v15
  let v17 : FVec F S8x16 .f32 := Host.divf v13 v16
  let v18 : FVec F S8x16 .f32 := broadcastInDim S8x16 ![] bcast_S_S8x16 (constant S_ .f32 0x3F800000#32)
  let v19 : FVec F S8x16 .f32 := subf v18 v17
  let v20 : IVec S16 32 := iotaInDim S16 32 0
  let v21 : IVec S1x16 32 := broadcastInDim S1x16 ![1] bcast_S16_S1x16_1 v20
  let v22 : IVec S1x16 32 := broadcastInDim S1x16 ![] bcast_S_S1x16 (constantI S_ 32 1#32)
  let v23 : IVec S1x16 1 := cmpi .sge v21 v22
  let v24 : IVec S8x1 32 := broadcastInDim S8x1 ![0] bcast_S8_S8x1_0 num
  let v25 : IVec S8x16 32 := broadcastInDim S8x16 ![0, 1] bcast_S1x16_S8x16_0_1 v21
  let v26 : IVec S8x16 32 := broadcastInDim S8x16 ![0, 1] bcast_S8x1_S8x16_0_1 v24
  let v27 : IVec S8x16 1 := cmpi .sle v25 v26
  let v28 : IVec S8x16 1 := broadcastInDim S8x16 ![0, 1] bcast_S1x16_S8x16_0_1 v23
  let v29 : IVec S8x16 1 := andi v28 v27
  let w0 : FVec F S_ .f32 := id (constant S_ .f32 0x00000000#32)
  let w1 : FVec F S8x16 .f32 := broadcastInDim S8x16 ![] bcast_S_S8x16 w0
  let v30 : FVec F S8x16 .f32 := select v29 v19 w1
  let v31 : FVec F S8 .f32 := Host.reduceAdd v30 (constant S_ .f32 0x00000000#32) reducesTo_S8x16_S8_d1 h_S_
  let v32 : FVec F S8 .f32 := sitofp .f32 num
  let v33 : FVec F S8 .f32 := Host.divf v31 v32
  let v34 : FVec F S_ .f32 := Host.reduceAdd v33 (constant S_ .f32 0x00000000#32) reducesTo_S8_S_d0 h_S_
  let v35 : FVec F S_ .f32 := Host.divf v34 (constant S_ .f32 0x41000000#32)
  let v36 : FVec F S_ .f32 := mulf (constant S_ .f32 0x3F800000#32) ceLoss
  let v37 : FVec F S_ .f32 := mulf (constant S_ .f32 0x3F800000#32) v35
  addf v36 v37

/-- The kernel program's cross-entropy term from its two per-batch-entry columns: the numerators' sum over the sum of
    the valid-pixel counts plus one. -/
def ceLossK (ce vc : FVec F S8 .f32) : FVec F S_ .f32 :=
  let v6 : FVec F S_ .f32 := Host.reduceAdd ce (constant S_ .f32 0x00000000#32) reducesTo_S8_S_d0 h_S_
  let v7 : FVec F S_ .f32 := Host.reduceAdd vc (constant S_ .f32 0x00000000#32) reducesTo_S8_S_d0 h_S_
  let v8 : FVec F S_ .f32 := addf v7 (constant S_ .f32 0x3F800000#32)
  Host.divf v6 v8

/-- The kernel program's result from the five arrays the region leaves (each still carrying its unit middle axis). -/
def kernelResult (a2 a3 a4 : FVec F S8x1x16 .f32) (a5 a6 : FVec F S8x1x1 .f32) (num : IVec S8 32) : FVec F S_ .f32 :=
  diceTail (shapeCast S8x16 a2 shapeCasts_S8x1x16_S8x16) (shapeCast S8x16 a3 shapeCasts_S8x1x16_S8x16) (shapeCast S8x16 a4 shapeCasts_S8x1x16_S8x16)
    (ceLossK (shapeCast S8 a5 shapeCasts_S8x1x1_S8) (shapeCast S8 a6 shapeCasts_S8x1x1_S8)) num

end Cert.Kernel.Hand

end
-- ==== Proof.KBTailValue.lean ====
/-
  The last valuation read at the buffers the claims name: the result is the shared tail of the five arrays the region
  leaves and the object counts; the three arguments are as launched (no host operation writes them, the region reads two
  of them through input windows and hands the third back unchanged).
-/
import proofs.«429240_j35107062677770_3_alg».proof.Proof.KBLaunch
import proofs.«429240_j35107062677770_3_alg».proof.Proof.KBTail
import Idealize.ShloMosaic.Lib.StableHlo.Run

set_option maxRecDepth 16384

noncomputable section

namespace Cert.Kernel.Hand

open Cert.Kernel Cert.Kernel.Gen
open Idealize.ShloMosaic Idealize.ShloMosaic.TcCoe
open Idealize.SL.Sem
open Idealize.ShloMosaic.Pipeline (Dat Cfg Window)

variable {F : FTy → Type} [FloatOps F]
variable (m : (ℓ : Loc nD τ sig) → Buf (Elt F) ℓ)

/-- The object counts are no window's array: the region leaves them as launched. -/
theorem W1_arg2 (c : Dev nD) : W1 m c (Proc.devRef .tc main_arg2) = m ((c : Thread nD τ).loc main_arg2) :=
  W1_of_ne m c main_arg2 (by decide)

/-- The result buffer after the three host stretches. -/
theorem W4_result (c : Dev nD) :
    W4 m c (Proc.devRef .tc main_v38)
      = kernelResult (F := F) (W1 m c (Proc.devRef .tc main_v0_0)) (W1 m c (Proc.devRef .tc main_v0_1)) (W1 m c (Proc.devRef .tc main_v0_2))
          (W1 m c (Proc.devRef .tc main_v0_3)) (W1 m c (Proc.devRef .tc main_v0_4)) (m ((c : Thread nD τ).loc main_arg2)) := by
  -- the three stretches as one fold from the region's exit, read at the result buffer: each operation's value at its
  -- own buffer is its function of its operands' values, every other buffer is as before
  show StableHlo.after hostOps1_2 (StableHlo.after hostOps1_1 (StableHlo.after hostOps1 (W1 m c))) (Proc.devRef .tc main_v38) = _
  open StableHlo in after_results_simp
  -- the inlined function's typed references carry their buffers' own types: the transports are identities
  simp only [StableHlo.TRef.ofBuf, StableHlo.TRef.toBuf, cast_eq]
  rw [W1_arg2 m c]
  -- what is left is the shared tail, operation for operation (a reshape reads as the cast of shapes)
  unfold kernelResult diceTail ceLossK
  rfl

/-- A reference that is no operation's result buffer is in no operation's written set: the written sets are the
    singletons of the result buffers, and distinct references are distinct device buffers. -/
local macro "no_write" : tactic => `(tactic| (
  simp only [hostOps1, hostOps1_1, hostOps1_2, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

/-- No operation of the three host stretches writes the reference `r` when `r` is none of their result buffers. -/
theorem W4_of_not_written (c : Dev nD) (r : Ref sig .tc)
    (h1 : (hostOps1 : List (HloOp τ sig (Elt F))).Forall fun op => Proc.devRef .tc r ∉ op.writes)
    (h2 : (hostOps1_1 : List (HloOp τ sig (Elt F))).Forall fun op => Proc.devRef .tc r ∉ op.writes)
    (h3 : (hostOps1_2 : List (HloOp τ sig (Elt F))).Forall fun op => Proc.devRef .tc r ∉ op.writes) :
    W4 m c (Proc.devRef .tc r) = W1 m c (Proc.devRef .tc r) :=
  calc W4 m c (Proc.devRef .tc r)
    _ = W3 m c (Proc.devRef .tc r) := StableHlo.after_of_forall_not_mem _ _ (List.forall_iff_forall_mem.mp h3)
    _ = W2 m c (Proc.devRef .tc r) := StableHlo.after_of_forall_not_mem _ _ (List.forall_iff_forall_mem.mp h2)
    _ = W1 m c (Proc.devRef .tc r) := StableHlo.after_of_forall_not_mem _ _ (List.forall_iff_forall_mem.mp h1)

theorem W4_arg0 (c : Dev nD) : W4 m c (Proc.devRef .tc main_arg0) = m ((c : Thread nD τ).loc main_arg0) :=
  calc W4 m c (Proc.devRef .tc main_arg0)
    _ = W1 m c (Proc.devRef .tc main_arg0) := W4_of_not_written m c main_arg0 (by no_write) (by no_write) (by no_write)
    _ = m ((c : Thread nD τ).loc main_arg0) :=
          (W1_arr m c 0).trans (((dat m c).arrAt_in 0 rfl _).trans (A_eq m c 0))
theorem W4_arg1 (c : Dev nD) : W4 m c (Proc.devRef .tc main_arg1) = m ((c : Thread nD τ).loc main_arg1) :=
  calc W4 m c (Proc.devRef .tc main_arg1)
    _ = W1 m c (Proc.devRef .tc main_arg1) := W4_of_not_written m c main_arg1 (by no_write) (by no_write) (by no_write)
    _ = m ((c : Thread nD τ).loc main_arg1) :=
          (W1_arr m c 1).trans (((dat m c).arrAt_in 1 rfl _).trans (A_eq m c 1))
theorem W4_arg2 (c : Dev nD) : W4 m c (Proc.devRef .tc main_arg2) = m ((c : Thread nD τ).loc main_arg2) :=
  calc W4 m c (Proc.devRef .tc main_arg2)
    _ = W1 m c (Proc.devRef .tc main_arg2) := W4_of_not_written m c main_arg2 (by no_write) (by no_write) (by no_write)
    _ = m ((c : Thread nD τ).loc main_arg2) := W1_arg2 m c

/-- The five arrays the region leaves, by window. -/
theorem W1_out (c : Dev nD) :
    W1 m c (Proc.devRef .tc main_v0_0) = (dat m c).arrAt 2 (cfgM m).N ∧ W1 m c (Proc.devRef .tc main_v0_1) = (dat m c).arrAt 3 (cfgM m).N
    ∧ W1 m c (Proc.devRef .tc main_v0_2) = (dat m c).arrAt 4 (cfgM m).N ∧ W1 m c (Proc.devRef .tc main_v0_3) = (dat m c).arrAt 5 (cfgM m).N
    ∧ W1 m c (Proc.devRef .tc main_v0_4) = (dat m c).arrAt 6 (cfgM m).N :=
  ⟨W1_arr m c 2, W1_arr m c 3, W1_arr m c 4, W1_arr m c 5, W1_arr m c 6⟩

end Cert.Kernel.Hand

end
-- ==== Proof.KIBase.lean ====
/-
  The idealized kernel's launch, stated over the pieces every later module shares.

  The pallas_call runs on the grid (b, h) ∈ 8 × 4, point t = 4·b + h.  Its seven windows are the logits'
  block (one batch entry, all sixteen classes, rows 128·h … 128·h + 127), the labels' block (same rows), and
  five outputs whose block index is (b, 0, 0): three rows of sixteen class sums and two single cells, each
  kept in its staging buffer across the four points of a batch entry and written back after the last of them.
  The per-batch object count is a prefetched table: the body reads its word b.  The body clears the five
  outputs when h = 0 and otherwise adds the tile's sums to what the point before left.
-/
import proofs.«429240_j35107062677770_3_alg».proof.Proof.Gen.KernelIdeal.Skeleton
import proofs.«429240_j35107062677770_3_alg».proof.Proof.Gen.KernelIdeal.Launch
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at launch, and the object-count table -/

/-- Core `c`'s TensorCore buffers when the region is entered: as launched (the region is @main's first item). -/
abbrev V (c : Dev nD) (b : Ref sig .tc) : Buf (Elt F) ((c : Thread nD τ).loc b) := m ((c : Thread nD τ).loc b)

/-- The table's contents at launch (one device: device 0's). -/
def tbl : pre0.Contents (Elt F) := fun j => V m (0 : Dev nD) (pre0.ref j)
/-- On every device the table holds those contents. -/
theorem V_pre (c : Dev nD) (j : Fin 1) : V m c (pre0.ref j) = tbl m j := by
  obtain rfl : c = 0 := Subsingleton.elim _ _; rfl

/-- The table's contents are admissible (no index map reads it), and the pipeline at them. -/
abbrev adm : (pcfg0 (F := F)).Adm := ⟨tbl m, trivial⟩
abbrev adms : (p : Fin 1) → (pcfgs (F := F) p).Adm := fun _ => adm m
abbrev cfgM : Pipeline.Cfg sig Λ₀ := cfg0 (adm m)

/-- The table as the body is handed it: its whole buffer as a memref. -/
abbrev tbM : Memref sig .tc .smem S8 .i32 := Memref.whole main_arg2
abbrev htbM : tbM.IsWhole := Memref.isWhole_whole _
/-- The table memref's buffer on core `c`, and it held whole at `f`. -/
abbrev TbBuf (c : Dev nD) : Type := Buf (Elt F) ((tbM).view.loc (c : Thread nD τ))
abbrev tbPt (c : Dev nD) (f : TbBuf (F := F) c) : sProp 𝕄 :=
  (tbM).view.loc (c : Thread nD τ) ↦{fullShare} f

/-- The table held whole is that one points-to. -/
theorem prefHeld_eq (c : Dev nD) (v : pre0.Contents (Elt F)) :
    (Pipeline.prefHeld (Ix := Unit) (Name := ℕ) (U := UR sig nD τ) (Lvl := ℕ) pre0 c (fun _ => fullShare) v : sProp 𝕄) = tbPt c (v 0) := by
  unfold Pipeline.prefHeld
  rw [show (Finset.univ : Finset (Fin 1)) = {(0 : Fin 1)} from by decide, bigSep_singleton]
  rfl

/-! ## The windows at a point -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Each window's current staging memref at point `t`, and its wholeness. -/
abbrev ms0 (t : Fin (cfgM m).N) : Memref sig .tc .vmem S1x16x128x512 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x128x512 .i32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x1x16 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x1x16 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x1x16 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S1x1x1 .f32 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S1x1x1 .f32 := spec0_6.stage ((cfgM m).slots t 6)
abbrev hs6 (t : Fin (cfgM m).N) : (ms6 m t).IsWhole := hstage0_6 (((cfgM m).slots t 6).cast nbuf0_6)

/-- The kernel body at point `t`, on what the pipeline calls it with. -/
abbrev bodyAt (t : Fin (cfgM m).N) : Prog (TpuEff nD τ sig (Elt F) Λ₀ .tc) PUnit :=
  cc0__ce_dice_kernel (grid0.coords t) tbM htbM (ms0 m t) (hs0 m t) (ms1 m t) (hs1 m t) (ms2 m t) (hs2 m t) (ms3 m t) (hs3 m t)
    (ms4 m t) (hs4 m t) (ms5 m t) (hs5 m t) (ms6 m t) (hs6 m t)

/-! ## The body's one branch: the row-tile index is zero -/

/-- The condition of the body's `scf.if`, from the grid coordinates. -/
abbrev isFirstTile (i : grid0.Coords) : Prop :=
  (Scalar.cmpi .ne (Scalar.extui (Scalar.cmpi .eq (BitVec.ofNat 32 (i 1).val) 0#32)) 0#32) = 1#1
/-- It holds exactly at the first of a batch entry's four points. -/
theorem isFirstTile_iff : ∀ t : Fin (cfgM m).N, isFirstTile (grid0.coords t) ↔ t.val % 4 = 0 :=
  (by decide +kernel : ∀ t : Fin grid0.N, isFirstTile (grid0.coords t) ↔ t.val % 4 = 0)

/-! ## When the outputs are written back: after the last of a batch entry's four points -/

theorem flush2 : ∀ t : Fin (cfgM m).N, ((cfgM m).win 2).flush t = true ↔ t.val % 4 = 3 :=
  (by decide +kernel : ∀ t : Fin grid0.N, Pipeline.Window.flushOf grid0 true cc0_transform_2 t = true ↔ t.val % 4 = 3)
theorem flush3 : ∀ t : Fin (cfgM m).N, ((cfgM m).win 3).flush t = true ↔ t.val % 4 = 3 :=
  (by decide +kernel : ∀ t : Fin grid0.N, Pipeline.Window.flushOf grid0 true cc0_transform_3 t = true ↔ t.val % 4 = 3)
theorem flush4 : ∀ t : Fin (cfgM m).N, ((cfgM m).win 4).flush t = true ↔ t.val % 4 = 3 :=
  (by decide +kernel : ∀ t : Fin grid0.N, Pipeline.Window.flushOf grid0 true cc0_transform_4 t = true ↔ t.val % 4 = 3)
theorem flush5 : ∀ t : Fin (cfgM m).N, ((cfgM m).win 5).flush t = true ↔ t.val % 4 = 3 :=
  (by decide +kernel : ∀ t : Fin grid0.N, Pipeline.Window.flushOf grid0 true cc0_transform_5 t = true ↔ t.val % 4 = 3)
theorem flush6 : ∀ t : Fin (cfgM m).N, ((cfgM m).win 6).flush t = true ↔ t.val % 4 = 3 :=
  (by decide +kernel : ∀ t : Fin grid0.N, Pipeline.Window.flushOf grid0 true cc0_transform_6 t = true ↔ t.val % 4 = 3)

/-- One staging buffer of each output shape, through which an output's contents are stated. -/
abbrev VRow : View sig .tc .vmem S1x1x16 .f32 := (Memref.whole cc0_stg2_0 : Memref sig .tc .vmem S1x1x16 .f32).view
abbrev VCell : View sig .tc .vmem S1x1x1 .f32 := (Memref.whole cc0_stg5_0 : Memref sig .tc .vmem S1x1x1 .f32).view

end Cert.KernelIdeal.Hand

end
-- ==== Proof.KIRunA.lean ====
/-
  The body run at the first row tile of a batch entry (h = 0): the five outputs' buffers, whatever they held, are cleared and then receive the tile's sums; the logits' and labels' blocks and the object-count table are read and left as found. What each output's buffer ends with is found by the run as a list of stored pieces.
-/
import proofs.«429240_j35107062677770_3_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs when the row-tile index is zero. -/
noncomputable def kernelRunA (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : isFirstTile i)
    (x0 : Vec F S1x16x128x512 .f32) (x1 : Vec F S1x128x512 .i32) (xt : TbBuf (F := F) c) :
    Σ' (L2 L3 L4 : List (View.Piece (Elt F) S1x1x16 .f32)) (L5 L6 : List (View.Piece (Elt F) S1x1x1 .f32)),
      ∀ (E : Set ℕ) (K : PUnit → sProp 𝕄),
        iprop(owns (c : Thread nD τ) arg3 fullShare x0 ∗ owns (c : Thread nD τ) arg4 fullShare x1
            ∗ (∃ d, owns (c : Thread nD τ) arg5 fullShare d) ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d) ∗ tbPt c xt
            ∗ (iprop(owns (c : Thread nD τ) arg3 fullShare x0 ∗ owns (c : Thread nD τ) arg4 fullShare x1
              ∗ (∃ f, arg5.view.loc (c : Thread nD τ) ↦[arg5.view.set]{fullShare} arg5.view.writes (Elt F) f L2)
              ∗ (∃ f, arg6.view.loc (c : Thread nD τ) ↦[arg6.view.set]{fullShare} arg6.view.writes (Elt F) f L3)
              ∗ (∃ f, arg7.view.loc (c : Thread nD τ) ↦[arg7.view.set]{fullShare} arg7.view.writes (Elt F) f L4)
              ∗ (∃ f, arg8.view.loc (c : Thread nD τ) ↦[arg8.view.set]{fullShare} arg8.view.writes (Elt F) f L5)
              ∗ (∃ f, arg9.view.loc (c : Thread nD τ) ↦[arg9.view.set]{fullShare} arg9.view.writes (Elt F) f L6)
              ∗ tbPt c xt) -∗ K ⟨⟩))
          ⊢ wp frame (wpE (defs₀ (F := F)) Variants.none c none) E (cc0__ce_dice_kernel i tbM htbM arg3 harg3 arg4 harg4 arg5 harg5 arg6 harg6 arg7 harg7 arg8 harg8 arg9 harg9) K := by
  refine ⟨?_, ?_, ?_, ?_, ?_, fun E K => ?run⟩
  case run =>
    simp only [cc0__ce_dice_kernel_eq_skeleton]; unfold cc0__ce_dice_kernel_skel
    simp only [k0_part1_eq_skeleton, k0_part2_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, HT, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [H4]; · iexists _; iexact H4
    isplitl [H5]; · iexists _; iexact H5
    isplitl [H6]; · iexists _; iexact H6
    iexact HT

end Cert.KernelIdeal.Hand

end
-- ==== Proof.KIRunB.lean ====
/-
  The body run at a later row tile of a batch entry (h > 0): the five outputs' buffers hold what the point before left, and each receives that plus the tile's sums; the logits' and labels' blocks and the object-count table are read and left as found.
-/
import proofs.«429240_j35107062677770_3_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs when the row-tile index is not zero. -/
noncomputable def kernelRunB (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : ¬isFirstTile i)
    (x0 : Vec F S1x16x128x512 .f32) (x1 : Vec F S1x128x512 .i32) (xt : TbBuf (F := F) c)
    (xo2 xo3 xo4 : Vec F S1x1x16 .f32) (xo5 xo6 : Vec F S1x1x1 .f32) :
    Σ' (L2 L3 L4 : List (View.Piece (Elt F) S1x1x16 .f32)) (L5 L6 : List (View.Piece (Elt F) S1x1x1 .f32)),
      ∀ (E : Set ℕ) (K : PUnit → sProp 𝕄),
        iprop(owns (c : Thread nD τ) arg3 fullShare x0 ∗ owns (c : Thread nD τ) arg4 fullShare x1
            ∗ owns (c : Thread nD τ) arg5 fullShare xo2 ∗ owns (c : Thread nD τ) arg6 fullShare xo3 ∗ owns (c : Thread nD τ) arg7 fullShare xo4
            ∗ owns (c : Thread nD τ) arg8 fullShare xo5 ∗ owns (c : Thread nD τ) arg9 fullShare xo6 ∗ tbPt c xt
            ∗ (iprop(owns (c : Thread nD τ) arg3 fullShare x0 ∗ owns (c : Thread nD τ) arg4 fullShare x1
              ∗ (∃ f, arg5.view.loc (c : Thread nD τ) ↦[arg5.view.set]{fullShare} arg5.view.writes (Elt F) f L2)
              ∗ (∃ f, arg6.view.loc (c : Thread nD τ) ↦[arg6.view.set]{fullShare} arg6.view.writes (Elt F) f L3)
              ∗ (∃ f, arg7.view.loc (c : Thread nD τ) ↦[arg7.view.set]{fullShare} arg7.view.writes (Elt F) f L4)
              ∗ (∃ f, arg8.view.loc (c : Thread nD τ) ↦[arg8.view.set]{fullShare} arg8.view.writes (Elt F) f L5)
              ∗ (∃ f, arg9.view.loc (c : Thread nD τ) ↦[arg9.view.set]{fullShare} arg9.view.writes (Elt F) f L6)
              ∗ tbPt c xt) -∗ K ⟨⟩))
          ⊢ wp frame (wpE (defs₀ (F := F)) Variants.none c none) E (cc0__ce_dice_kernel i tbM htbM arg3 harg3 arg4 harg4 arg5 harg5 arg6 harg6 arg7 harg7 arg8 harg8 arg9 harg9) K := by
  refine ⟨?_, ?_, ?_, ?_, ?_, fun E K => ?run⟩
  case run =>
    simp only [cc0__ce_dice_kernel_eq_skeleton]; unfold cc0__ce_dice_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, HT, Hk⟩
    obtain rfl := harg3.eq_unread hf0; obtain rfl := harg4.eq_unread hf1
    obtain rfl := harg5.eq_unread hf2; obtain rfl := harg6.eq_unread hf3; obtain rfl := harg7.eq_unread hf4
    obtain rfl := harg8.eq_unread hf5; obtain rfl := harg9.eq_unread hf6
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [H4]; · iexists _; iexact H4
    isplitl [H5]; · iexists _; iexact H5
    isplitl [H6]; · iexists _; iexact H6
    iexact HT

end Cert.KernelIdeal.Hand

end
-- ==== Proof.KICarried.lean ====
/-
  What the five outputs' staging buffers hold after the body at each of the 32 points, by recursion on the point (the first tile of a batch entry starts afresh, each later tile builds on the point before); the pipeline's proof data over it; and the body obligation: at every point the body, handed the windows' buffers as the pipeline leaves them, runs to the buffers holding exactly that.
-/
import proofs.«429240_j35107062677770_3_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five outputs' contents, as one tuple: three rows of sixteen class sums, two single cells. -/
abbrev Outs : Type := Vec F S1x1x16 .f32 × Vec F S1x1x16 .f32 × Vec F S1x1x16 .f32 × Vec F S1x1x1 .f32 × Vec F S1x1x1 .f32

/-! ## Each case's stored pieces cover the output's block -/

theorem coverA_2 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : isFirstTile i)
    (x0 : Vec F S1x16x128x512 .f32) (x1 : Vec F S1x128x512 .i32) (xt : TbBuf (F := F) c) (y : S1x1x16.Idx) :
    ∃ pc ∈ (kernelRunA c i arg3 harg3 arg4 harg4 arg5 harg5 arg6 harg6 arg7 harg7 arg8 harg8 arg9 harg9 hc0 x0 x1 xt).1, y ∈ pc.1.set :=
  View.cover_of_tiledL (kernelRunA c i arg3 harg3 arg4 harg4 arg5 harg5 arg6 harg6 arg7 harg7 arg8 harg8 arg9 harg9 hc0 x0 x1 xt).1 S1x1x16.size (by sl_kernel_rfl) y
theorem coverB_2 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : ¬isFirstTile i)
    (x0 : Vec F S1x16x128x512 .f32) (x1 : Vec F S1x128x512 .i32) (xt : TbBuf (F := F) c)
    (xo2 xo3 xo4 : Vec F S1x1x16 .f32) (xo5 xo6 : Vec F S1x1x1 .f32) (y : S1x1x16.Idx) :
    ∃ pc ∈ (kernelRunB c i arg3 harg3 arg4 harg4 arg5 harg5 arg6 harg6 arg7 harg7 arg8 harg8 arg9 harg9 hc0 x0 x1 xt xo2 xo3 xo4 xo5 xo6).1, y ∈ pc.1.set :=
  View.cover_of_tiledL (kernelRunB c i arg3 harg3 arg4 harg4 arg5 harg5 arg6 harg6 arg7 harg7 arg8 harg8 arg9 harg9 hc0 x0 x1 xt xo2 xo3 xo4 xo5 xo6).1 S1x1x16.size (by sl_kernel_rfl) y
theorem coverA_3 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : isFirstTile i)
    (x0 : Vec F S1x16x128x512 .f32) (x1 : Vec F S1x128x512 .i32) (xt : TbBuf (F := F) c) (y : S1x1x16.Idx) :
    ∃ pc ∈ (kernelRunA c i arg3 harg3 arg4 harg4 arg5 harg5 arg6 harg6 arg7 harg7 arg8 harg8 arg9 harg9 hc0 x0 x1 xt).2.1, y ∈ pc.1.set :=
  View.cover_of_tiledL (kernelRunA c i arg3 harg3 arg4 harg4 arg5 harg5 arg6 harg6 arg7 harg7 arg8 harg8 arg9 harg9 hc0 x0 x1 xt).2.1 S1x1x16.size (by sl_kernel_rfl) y
theorem coverB_3 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : ¬isFirstTile i)
    (x0 : Vec F S1x16x128x512 .f32) (x1 : Vec F S1x128x512 .i32) (xt : TbBuf (F := F) c)
    (xo2 xo3 xo4 : Vec F S1x1x16 .f32) (xo5 xo6 : Vec F S1x1x1 .f32) (y : S1x1x16.Idx) :
    ∃ pc ∈ (kernelRunB c i arg3 harg3 arg4 harg4 arg5 harg5 arg6 harg6 arg7 harg7 arg8 harg8 arg9 harg9 hc0 x0 x1 xt xo2 xo3 xo4 xo5 xo6).2.1, y ∈ pc.1.set :=
  View.cover_of_tiledL (kernelRunB c i arg3 harg3 arg4 harg4 arg5 harg5 arg6 harg6 arg7 harg7 arg8 harg8 arg9 harg9 hc0 x0 x1 xt xo2 xo3 xo4 xo5 xo6).2.1 S1x1x16.size (by sl_kernel_rfl) y
theorem coverA_4 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : isFirstTile i)
    (x0 : Vec F S1x16x128x512 .f32) (x1 : Vec F S1x128x512 .i32) (xt : TbBuf (F := F) c) (y : S1x1x16.Idx) :
    ∃ pc ∈ (kernelRunA c i arg3 harg3 arg4 harg4 arg5 harg5 arg6 harg6 arg7 harg7 arg8 harg8 arg9 harg9 hc0 x0 x1 xt).2.2.1, y ∈ pc.1.set :=
  View.cover_of_tiledL (kernelRunA c i arg3 harg3 arg4 harg4 arg5 harg5 arg6 harg6 arg7 harg7 arg8 harg8 arg9 harg9 hc0 x0 x1 xt).2.2.1 S1x1x16.size (by sl_kernel_rfl) y
theorem coverB_4 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : ¬isFirstTile i)
    (x0 : Vec F S1x16x128x512 .f32) (x1 : Vec F S1x128x512 .i32) (xt : TbBuf (F := F) c)
    (xo2 xo3 xo4 : Vec F S1x1x16 .f32) (xo5 xo6 : Vec F S1x1x1 .f32) (y : S1x1x16.Idx) :
    ∃ pc ∈ (kernelRunB c i arg3 harg3 arg4 harg4 arg5 harg5 arg6 harg6 arg7 harg7 arg8 harg8 arg9 harg9 hc0 x0 x1 xt xo2 xo3 xo4 xo5 xo6).2.2.1, y ∈ pc.1.set :=
  View.cover_of_tiledL (kernelRunB c i arg3 harg3 arg4 harg4 arg5 harg5 arg6 harg6 arg7 harg7 arg8 harg8 arg9 harg9 hc0 x0 x1 xt xo2 xo3 xo4 xo5 xo6).2.2.1 S1x1x16.size (by sl_kernel_rfl) y
theorem coverA_5 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : isFirstTile i)
    (x0 : Vec F S1x16x128x512 .f32) (x1 : Vec F S1x128x512 .i32) (xt : TbBuf (F := F) c) (y : S1x1x1.Idx) :
    ∃ pc ∈ (kernelRunA c i arg3 harg3 arg4 harg4 arg5 harg5 arg6 harg6 arg7 harg7 arg8 harg8 arg9 harg9 hc0 x0 x1 xt).2.2.2.1, y ∈ pc.1.set :=
  View.cover_of_tiledL (kernelRunA c i arg3 harg3 arg4 harg4 arg5 harg5 arg6 harg6 arg7 harg7 arg8 harg8 arg9 harg9 hc0 x0 x1 xt).2.2.2.1 S1x1x1.size (by sl_kernel_rfl) y
theorem coverB_5 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : ¬isFirstTile i)
    (x0 : Vec F S1x16x128x512 .f32) (x1 : Vec F S1x128x512 .i32) (xt : TbBuf (F := F) c)
    (xo2 xo3 xo4 : Vec F S1x1x16 .f32) (xo5 xo6 : Vec F S1x1x1 .f32) (y : S1x1x1.Idx) :
    ∃ pc ∈ (kernelRunB c i arg3 harg3 arg4 harg4 arg5 harg5 arg6 harg6 arg7 harg7 arg8 harg8 arg9 harg9 hc0 x0 x1 xt xo2 xo3 xo4 xo5 xo6).2.2.2.1, y ∈ pc.1.set :=
  View.cover_of_tiledL (kernelRunB c i arg3 harg3 arg4 harg4 arg5 harg5 arg6 harg6 arg7 harg7 arg8 harg8 arg9 harg9 hc0 x0 x1 xt xo2 xo3 xo4 xo5 xo6).2.2.2.1 S1x1x1.size (by sl_kernel_rfl) y
theorem coverA_6 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : isFirstTile i)
    (x0 : Vec F S1x16x128x512 .f32) (x1 : Vec F S1x128x512 .i32) (xt : TbBuf (F := F) c) (y : S1x1x1.Idx) :
    ∃ pc ∈ (kernelRunA c i arg3 harg3 arg4 harg4 arg5 harg5 arg6 harg6 arg7 harg7 arg8 harg8 arg9 harg9 hc0 x0 x1 xt).2.2.2.2.1, y ∈ pc.1.set :=
  View.cover_of_tiledL (kernelRunA c i arg3 harg3 arg4 harg4 arg5 harg5 arg6 harg6 arg7 harg7 arg8 harg8 arg9 harg9 hc0 x0 x1 xt).2.2.2.2.1 S1x1x1.size (by sl_kernel_rfl) y
theorem coverB_6 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : ¬isFirstTile i)
    (x0 : Vec F S1x16x128x512 .f32) (x1 : Vec F S1x128x512 .i32) (xt : TbBuf (F := F) c)
    (xo2 xo3 xo4 : Vec F S1x1x16 .f32) (xo5 xo6 : Vec F S1x1x1 .f32) (y : S1x1x1.Idx) :
    ∃ pc ∈ (kernelRunB c i arg3 harg3 arg4 harg4 arg5 harg5 arg6 harg6 arg7 harg7 arg8 harg8 arg9 harg9 hc0 x0 x1 xt xo2 xo3 xo4 xo5 xo6).2.2.2.2.1, y ∈ pc.1.set :=
  View.cover_of_tiledL (kernelRunB c i arg3 harg3 arg4 harg4 arg5 harg5 arg6 harg6 arg7 harg7 arg8 harg8 arg9 harg9 hc0 x0 x1 xt xo2 xo3 xo4 xo5 xo6).2.2.2.2.1 S1x1x1.size (by sl_kernel_rfl) y

/-! ## What each case leaves in the outputs' buffers: its pieces read back -/

def outA (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : isFirstTile i)
    (x0 : Vec F S1x16x128x512 .f32) (x1 : Vec F S1x128x512 .i32) (xt : TbBuf (F := F) c) : Outs (F := F) :=
  (VRow.read (Elt F) (VRow.writes (Elt F) VRow.junk (kernelRunA c i arg3 harg3 arg4 harg4 arg5 harg5 arg6 harg6 arg7 harg7 arg8 harg8 arg9 harg9 hc0 x0 x1 xt).1),
   VRow.read (Elt F) (VRow.writes (Elt F) VRow.junk (kernelRunA c i arg3 harg3 arg4 harg4 arg5 harg5 arg6 harg6 arg7 harg7 arg8 harg8 arg9 harg9 hc0 x0 x1 xt).2.1),
   VRow.read (Elt F) (VRow.writes (Elt F) VRow.junk (kernelRunA c i arg3 harg3 arg4 harg4 arg5 harg5 arg6 harg6 arg7 harg7 arg8 harg8 arg9 harg9 hc0 x0 x1 xt).2.2.1),
   VCell.read (Elt F) (VCell.writes (Elt F) VCell.junk (kernelRunA c i arg3 harg3 arg4 harg4 arg5 harg5 arg6 harg6 arg7 harg7 arg8 harg8 arg9 harg9 hc0 x0 x1 xt).2.2.2.1),
   VCell.read (Elt F) (VCell.writes (Elt F) VCell.junk (kernelRunA c i arg3 harg3 arg4 harg4 arg5 harg5 arg6 harg6 arg7 harg7 arg8 harg8 arg9 harg9 hc0 x0 x1 xt).2.2.2.2.1))

def outB (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : ¬isFirstTile i)
    (x0 : Vec F S1x16x128x512 .f32) (x1 : Vec F S1x128x512 .i32) (xt : TbBuf (F := F) c)
    (xo2 xo3 xo4 : Vec F S1x1x16 .f32) (xo5 xo6 : Vec F S1x1x1 .f32) : Outs (F := F) :=
  (VRow.read (Elt F) (VRow.writes (Elt F) VRow.junk (kernelRunB c i arg3 harg3 arg4 harg4 arg5 harg5 arg6 harg6 arg7 harg7 arg8 harg8 arg9 harg9 hc0 x0 x1 xt xo2 xo3 xo4 xo5 xo6).1),
   VRow.read (Elt F) (VRow.writes (Elt F) VRow.junk (kernelRunB c i arg3 harg3 arg4 harg4 arg5 harg5 arg6 harg6 arg7 harg7 arg8 harg8 arg9 harg9 hc0 x0 x1 xt xo2 xo3 xo4 xo5 xo6).2.1),
   VRow.read (Elt F) (VRow.writes (Elt F) VRow.junk (kernelRunB c i arg3 harg3 arg4 harg4 arg5 harg5 arg6 harg6 arg7 harg7 arg8 harg8 arg9 harg9 hc0 x0 x1 xt xo2 xo3 xo4 xo5 xo6).2.2.1),
   VCell.read (Elt F) (VCell.writes (Elt F) VCell.junk (kernelRunB c i arg3 harg3 arg4 harg4 arg5 harg5 arg6 harg6 arg7 harg7 arg8 harg8 arg9 harg9 hc0 x0 x1 xt xo2 xo3 xo4 xo5 xo6).2.2.2.1),
   VCell.read (Elt F) (VCell.writes (Elt F) VCell.junk (kernelRunB c i arg3 harg3 arg4 harg4 arg5 harg5 arg6 harg6 arg7 harg7 arg8 harg8 arg9 harg9 hc0 x0 x1 xt xo2 xo3 xo4 xo5 xo6).2.2.2.2.1))

/-! ## The accumulation, point by point -/

/-- What the outputs' staging buffers hold after the body at position `n`. -/
def outsAt (c : Dev nD) : (n : ℕ) → n < (cfgM m).N → Outs (F := F)
  | 0, hn => outA c (grid0.coords ⟨0, hn⟩) (ms0 m ⟨0, hn⟩) (hs0 m ⟨0, hn⟩) (ms1 m ⟨0, hn⟩) (hs1 m ⟨0, hn⟩) (ms2 m ⟨0, hn⟩) (hs2 m ⟨0, hn⟩) (ms3 m ⟨0, hn⟩) (hs3 m ⟨0, hn⟩) (ms4 m ⟨0, hn⟩) (hs4 m ⟨0, hn⟩) (ms5 m ⟨0, hn⟩) (hs5 m ⟨0, hn⟩) (ms6 m ⟨0, hn⟩) (hs6 m ⟨0, hn⟩) ((isFirstTile_iff m ⟨0, hn⟩).mpr (Nat.zero_mod _)) (iblk m c 0 ⟨0, hn⟩) (iblk m c 1 ⟨0, hn⟩) (tbl m 0)
  | n + 1, hn =>
    if h0 : (n + 1) % 4 = 0 then
      outA c (grid0.coords ⟨n + 1, hn⟩) (ms0 m ⟨n + 1, hn⟩) (hs0 m ⟨n + 1, hn⟩) (ms1 m ⟨n + 1, hn⟩) (hs1 m ⟨n + 1, hn⟩) (ms2 m ⟨n + 1, hn⟩) (hs2 m ⟨n + 1, hn⟩) (ms3 m ⟨n + 1, hn⟩) (hs3 m ⟨n + 1, hn⟩) (ms4 m ⟨n + 1, hn⟩) (hs4 m ⟨n + 1, hn⟩) (ms5 m ⟨n + 1, hn⟩) (hs5 m ⟨n + 1, hn⟩) (ms6 m ⟨n + 1, hn⟩) (hs6 m ⟨n + 1, hn⟩) ((isFirstTile_iff m ⟨n + 1, hn⟩).mpr h0) (iblk m c 0 ⟨n + 1, hn⟩) (iblk m c 1 ⟨n + 1, hn⟩) (tbl m 0)
    else
      outB c (grid0.coords ⟨n + 1, hn⟩) (ms0 m ⟨n + 1, hn⟩) (hs0 m ⟨n + 1, hn⟩) (ms1 m ⟨n + 1, hn⟩) (hs1 m ⟨n + 1, hn⟩) (ms2 m ⟨n + 1, hn⟩) (hs2 m ⟨n + 1, hn⟩) (ms3 m ⟨n + 1, hn⟩) (hs3 m ⟨n + 1, hn⟩) (ms4 m ⟨n + 1, hn⟩) (hs4 m ⟨n + 1, hn⟩) (ms5 m ⟨n + 1, hn⟩) (hs5 m ⟨n + 1, hn⟩) (ms6 m ⟨n + 1, hn⟩) (hs6 m ⟨n + 1, hn⟩) (fun h => h0 ((isFirstTile_iff m ⟨n + 1, hn⟩).mp h)) (iblk m c 0 ⟨n + 1, hn⟩) (iblk m c 1 ⟨n + 1, hn⟩) (tbl m 0)
        (outsAt c n (Nat.lt_of_succ_lt hn)).1 (outsAt c n (Nat.lt_of_succ_lt hn)).2.1 (outsAt c n (Nat.lt_of_succ_lt hn)).2.2.1 (outsAt c n (Nat.lt_of_succ_lt hn)).2.2.2.1 (outsAt c n (Nat.lt_of_succ_lt hn)).2.2.2.2

/-- At the first tile of a batch entry: afresh. -/
theorem outsAt_first (c : Dev nD) (t : Fin (cfgM m).N) (h0 : t.val % 4 = 0) :
    outsAt m c t.val t.isLt = outA c (grid0.coords t) (ms0 m t) (hs0 m t) (ms1 m t) (hs1 m t) (ms2 m t) (hs2 m t) (ms3 m t) (hs3 m t) (ms4 m t) (hs4 m t) (ms5 m t) (hs5 m t) (ms6 m t) (hs6 m t) ((isFirstTile_iff m t).mpr h0) (iblk m c 0 t) (iblk m c 1 t) (tbl m 0) := by
  obtain ⟨n, hn⟩ := t
  cases n with
  | zero => exact rfl
  | succ n => exact (dif_pos h0).trans rfl

/-- At a later tile: over what the point before left. -/
theorem outsAt_later (c : Dev nD) (t : Fin (cfgM m).N) (h0 : ¬t.val % 4 = 0) :
    outsAt m c t.val t.isLt = outB c (grid0.coords t) (ms0 m t) (hs0 m t) (ms1 m t) (hs1 m t) (ms2 m t) (hs2 m t) (ms3 m t) (hs3 m t) (ms4 m t) (hs4 m t) (ms5 m t) (hs5 m t) (ms6 m t) (hs6 m t) (fun h => h0 ((isFirstTile_iff m t).mp h)) (iblk m c 0 t) (iblk m c 1 t) (tbl m 0)
      (outsAt m c (t.val - 1) (Nat.lt_of_le_of_lt (Nat.sub_le _ _) t.isLt)).1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans rfl

/-! ## The pipeline's proof data -/

/-- The region's invariant: the scoped buffers no window stages and the generator register, and the object-count
    table held whole at its launch contents (the body reads one word of it and stores nothing into it). -/
def Φc (c : Dev nD) : sProp 𝕄 := iprop(Pipeline.ΦA spec0 c ∗ tbPt c (tbl m 0))

/-- The proof data on core `c`: the arrays as launched; after the body at point `t` each input's buffer at its
    block and the outputs' at `outsAt`; nothing owed; full shares. -/
def dat (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
    | ⟨4, _⟩ => (outsAt m c t.val t.isLt).2.2.1
    | ⟨5, _⟩ => (outsAt m c t.val t.isLt).2.2.2.1
    | ⟨6, _⟩ => (outsAt m c t.val t.isLt).2.2.2.2
  Φ _ := Φc m c
  q _ := fullShare
  owed _ := 0

theorem A_eq (c : Dev nD) (w : Fin (cfgM m).W) : (dat m c).A w = V m c (Pipeline.arrRef spec0 w) := by
  dsimp only [dat]

theorem after_0 (c : Dev nD) (t : Fin (cfgM m).N) : (dat m c).after 0 t = iblk m c 0 t := by dsimp only [dat]; try rfl
theorem after_1 (c : Dev nD) (t : Fin (cfgM m).N) : (dat m c).after 1 t = iblk m c 1 t := by dsimp only [dat]; try rfl
theorem after_2 (c : Dev nD) (t : Fin (cfgM m).N) : (dat m c).after 2 t = (outsAt m c t.val t.isLt).1 := by dsimp only [dat]; try rfl
theorem after_3 (c : Dev nD) (t : Fin (cfgM m).N) : (dat m c).after 3 t = (outsAt m c t.val t.isLt).2.1 := by dsimp only [dat]; try rfl
theorem after_4 (c : Dev nD) (t : Fin (cfgM m).N) : (dat m c).after 4 t = (outsAt m c t.val t.isLt).2.2.1 := by dsimp only [dat]; try rfl
theorem after_5 (c : Dev nD) (t : Fin (cfgM m).N) : (dat m c).after 5 t = (outsAt m c t.val t.isLt).2.2.2.1 := by dsimp only [dat]; try rfl
theorem after_6 (c : Dev nD) (t : Fin (cfgM m).N) : (dat m c).after 6 t = (outsAt m c t.val t.isLt).2.2.2.2 := by dsimp only [dat]; try rfl

/-- Each input's current staging buffer holds its block at every point, fetched there or not. -/
theorem before_0 (c : Dev nD) (t : Fin (cfgM m).N) (d) : (dat m c).before 0 t d = iblk m c 0 t :=
  ((dat m c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dat m c).before 1 t d = iblk m c 1 t :=
  ((dat m c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- At a later tile an output's current staging buffer holds what the body left at the point before: the buffer was
    not written back between. -/
theorem before_2_later (c : Dev nD) (t : Fin (cfgM m).N) (h0 : ¬t.val % 4 = 0) (d) :
    (dat m c).before 2 t d = (dat m c).after 2 ⟨t.val - 1, Nat.lt_of_le_of_lt (Nat.sub_le _ _) t.isLt⟩ := by
  have hN : t.val < 32 := lt_of_lt_of_eq t.isLt (show (cfgM m).N = 32 from N_0)
  exact Dat.before_out_kept _ 2 rfl t (by omega) (Bool.eq_false_iff.mpr fun h => by have := (flush2 m _).mp h; dsimp only at this; omega)
    (fun _ => rfl) (fun _ _ => rfl) d
theorem before_3_later (c : Dev nD) (t : Fin (cfgM m).N) (h0 : ¬t.val % 4 = 0) (d) :
    (dat m c).before 3 t d = (dat m c).after 3 ⟨t.val - 1, Nat.lt_of_le_of_lt (Nat.sub_le _ _) t.isLt⟩ := by
  have hN : t.val < 32 := lt_of_lt_of_eq t.isLt (show (cfgM m).N = 32 from N_0)
  exact Dat.before_out_kept _ 3 rfl t (by omega) (Bool.eq_false_iff.mpr fun h => by have := (flush3 m _).mp h; dsimp only at this; omega)
    (fun _ => rfl) (fun _ _ => rfl) d
theorem before_4_later (c : Dev nD) (t : Fin (cfgM m).N) (h0 : ¬t.val % 4 = 0) (d) :
    (dat m c).before 4 t d = (dat m c).after 4 ⟨t.val - 1, Nat.lt_of_le_of_lt (Nat.sub_le _ _) t.isLt⟩ := by
  have hN : t.val < 32 := lt_of_lt_of_eq t.isLt (show (cfgM m).N = 32 from N_0)
  exact Dat.before_out_kept _ 4 rfl t (by omega) (Bool.eq_false_iff.mpr fun h => by have := (flush4 m _).mp h; dsimp only at this; omega)
    (fun _ => rfl) (fun _ _ => rfl) d
theorem before_5_later (c : Dev nD) (t : Fin (cfgM m).N) (h0 : ¬t.val % 4 = 0) (d) :
    (dat m c).before 5 t d = (dat m c).after 5 ⟨t.val - 1, Nat.lt_of_le_of_lt (Nat.sub_le _ _) t.isLt⟩ := by
  have hN : t.val < 32 := lt_of_lt_of_eq t.isLt (show (cfgM m).N = 32 from N_0)
  exact Dat.before_out_kept _ 5 rfl t (by omega) (Bool.eq_false_iff.mpr fun h => by have := (flush5 m _).mp h; dsimp only at this; omega)
    (fun _ => rfl) (fun _ _ => rfl) d
theorem before_6_later (c : Dev nD) (t : Fin (cfgM m).N) (h0 : ¬t.val % 4 = 0) (d) :
    (dat m c).before 6 t d = (dat m c).after 6 ⟨t.val - 1, Nat.lt_of_le_of_lt (Nat.sub_le _ _) t.isLt⟩ := by
  have hN : t.val < 32 := lt_of_lt_of_eq t.isLt (show (cfgM m).N = 32 from N_0)
  exact Dat.before_out_kept _ 6 rfl t (by omega) (Bool.eq_false_iff.mpr fun h => by have := (flush6 m _).mp h; dsimp only at this; omega)
    (fun _ => rfl) (fun _ _ => rfl) d

/-! ## The body obligation -/

/-- What the body is called with at point `t`, -/
def bodyPre (c : Dev nD) (t : Fin (cfgM m).N) : sProp 𝕄 :=
  iprop((dat m c).Φ t.castSucc ∗ (dat m c).owesAt () t.castSucc
    ∗ (∃ d, owns (c : Thread nD τ) (ms0 m t) fullShare ((dat m c).before 0 t d))
    ∗ (∃ d, owns (c : Thread nD τ) (ms1 m t) fullShare ((dat m c).before 1 t d))
    ∗ (∃ d, owns (c : Thread nD τ) (ms2 m t) fullShare ((dat m c).before 2 t d))
    ∗ (∃ d, owns (c : Thread nD τ) (ms3 m t) fullShare ((dat m c).before 3 t d))
    ∗ (∃ d, owns (c : Thread nD τ) (ms4 m t) fullShare ((dat m c).before 4 t d))
    ∗ (∃ d, owns (c : Thread nD τ) (ms5 m t) fullShare ((dat m c).before 5 t d))
    ∗ (∃ d, owns (c : Thread nD τ) (ms6 m t) fullShare ((dat m c).before 6 t d)))

/-- and what it returns. -/
def bodyPost (c : Dev nD) (t : Fin (cfgM m).N) : sProp 𝕄 :=
  iprop((dat m c).Φ t.succ ∗ (dat m c).owesAt () t.succ
    ∗ owns (c : Thread nD τ) (ms0 m t) fullShare ((dat m c).after 0 t)
    ∗ owns (c : Thread nD τ) (ms1 m t) fullShare ((dat m c).after 1 t)
    ∗ owns (c : Thread nD τ) (ms2 m t) fullShare ((dat m c).after 2 t)
    ∗ owns (c : Thread nD τ) (ms3 m t) fullShare ((dat m c).after 3 t)
    ∗ owns (c : Thread nD τ) (ms4 m t) fullShare ((dat m c).after 4 t)
    ∗ owns (c : Thread nD τ) (ms5 m t) fullShare ((dat m c).after 5 t)
    ∗ owns (c : Thread nD τ) (ms6 m t) fullShare ((dat m c).after 6 t))

set_option maxHeartbeats 1600000 in
/-- The body at any point: the inputs' buffers hold their blocks; a first tile finds the outputs' buffers at anything
    and a later tile at what the point before left; so that case's run applies; the invariant passes through with
    the table read and handed back. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1]
  rw [show (dat m c).Φ t.succ = Φc m c from rfl, show (dat m c).Φ t.castSucc = Φc m c from rfl,
    show (dat m c).owesAt () t.succ = (dat m c).owesAt () t.castSucc from rfl,
    after_0, after_1, after_2, after_3, after_4, after_5, after_6]
  unfold Φc
  by_cases h0 : t.val % 4 = 0
  · rw [outsAt_first m c t h0]
    unfold outA
    dsimp only
    iintro ⟨⟨HΦ, HT⟩, Ho, ⟨%d0, H0⟩, ⟨%d1, H1⟩, ⟨%d2, H2⟩, ⟨%d3, H3⟩, ⟨%d4, H4⟩, ⟨%d5, H5⟩, ⟨%d6, H6⟩⟩
    iapply ((kernelRunA (F := F) c (grid0.coords t) _ _ _ _ _ _ _ _ _ _ _ _ _ _ ((isFirstTile_iff m t).mpr h0) (iblk m c 0 t) (iblk m c 1 t) (tbl m 0)).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    isplitl [HT]; · iexact HT
    iintro ⟨H0, H1, ⟨%e2, H2⟩, ⟨%e3, H3⟩, ⟨%e4, H4⟩, ⟨%e5, H5⟩, ⟨%e6, H6⟩, HT⟩
    isplitl [HΦ HT]
    · isplitl [HΦ]; · iexact HΦ
      iexact HT
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverA_2 (F := F) c _ _ _ _ _ _ _ _ _ _ _ _ _ _ _ _ _ _ _)
    isplitl [H3]
    · unfold owns; iexists _; isplitr
      swap; · iexact H3
      ipureintro; exact View.read_writes_of_cover _ _ _ _ _ (coverA_3 (F := F) c _ _ _ _ _ _ _ _ _ _ _ _ _ _ _ _ _ _ _)
    isplitl [H4]
    · unfold owns; iexists _; isplitr
      swap; · iexact H4
      ipureintro; exact View.read_writes_of_cover _ _ _ _ _ (coverA_4 (F := F) c _ _ _ _ _ _ _ _ _ _ _ _ _ _ _ _ _ _ _)
    isplitl [H5]
    · unfold owns; iexists _; isplitr
      swap; · iexact H5
      ipureintro; exact View.read_writes_of_cover _ _ _ _ _ (coverA_5 (F := F) c _ _ _ _ _ _ _ _ _ _ _ _ _ _ _ _ _ _ _)
    · unfold owns; iexists _; isplitr
      swap; · iexact H6
      ipureintro; exact View.read_writes_of_cover _ _ _ _ _ (coverA_6 (F := F) c _ _ _ _ _ _ _ _ _ _ _ _ _ _ _ _ _ _ _)
  · rw [outsAt_later m c t h0]
    simp only [before_2_later m c t h0, before_3_later m c t h0, before_4_later m c t h0, before_5_later m c t h0, before_6_later m c t h0]
    rw [after_2, after_3, after_4, after_5, after_6]
    unfold outB
    dsimp only
    iintro ⟨⟨HΦ, HT⟩, Ho, ⟨%d0, H0⟩, ⟨%d1, H1⟩, ⟨%d2, H2⟩, ⟨%d3, H3⟩, ⟨%d4, H4⟩, ⟨%d5, H5⟩, ⟨%d6, H6⟩⟩
    iapply ((kernelRunB (F := F) c (grid0.coords t) _ _ _ _ _ _ _ _ _ _ _ _ _ _ (fun h => h0 ((isFirstTile_iff m t).mp h)) (iblk m c 0 t) (iblk m c 1 t) (tbl m 0) _ _ _ _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT]; · iexact HT
    iintro ⟨H0, H1, ⟨%e2, H2⟩, ⟨%e3, H3⟩, ⟨%e4, H4⟩, ⟨%e5, H5⟩, ⟨%e6, H6⟩, HT⟩
    isplitl [HΦ HT]
    · isplitl [HΦ]; · iexact HΦ
      iexact HT
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverB_2 (F := F) c _ _ _ _ _ _ _ _ _ _ _ _ _ _ _ _ _ _ _ _ _ _ _ _)
    isplitl [H3]
    · unfold owns; iexists _; isplitr
      swap; · iexact H3
      ipureintro; exact View.read_writes_of_cover _ _ _ _ _ (coverB_3 (F := F) c _ _ _ _ _ _ _ _ _ _ _ _ _ _ _ _ _ _ _ _ _ _ _ _)
    isplitl [H4]
    · unfold owns; iexists _; isplitr
      swap; · iexact H4
      ipureintro; exact View.read_writes_of_cover _ _ _ _ _ (coverB_4 (F := F) c _ _ _ _ _ _ _ _ _ _ _ _ _ _ _ _ _ _ _ _ _ _ _ _)
    isplitl [H5]
    · unfold owns; iexists _; isplitr
      swap; · iexact H5
      ipureintro; exact View.read_writes_of_cover _ _ _ _ _ (coverB_5 (F := F) c _ _ _ _ _ _ _ _ _ _ _ _ _ _ _ _ _ _ _ _ _ _ _ _)
    · unfold owns; iexists _; isplitr
      swap; · iexact H6
      ipureintro; exact View.read_writes_of_cover _ _ _ _ _ (coverB_6 (F := F) c _ _ _ _ _ _ _ _ _ _ _ _ _ _ _ _ _ _ _ _ _ _ _ _)

/-- The library's body obligation, at every point. -/
theorem body_obligation (c : Dev nD) : BodyObligation (dat (F := F) m c) (defs₀ (F := F)) Variants.none () Set.univ := fun t => by
  rw [bigSep_W0, bigSep_W0]
  exact sound_body m c t

end Cert.KernelIdeal.Hand

end
-- ==== Proof.KILaunch.lean ====
/-
  The whole run of the program: the launch, the kernel region, and the three stretches of host operations after it, as the list of @main's segments.  Between segments the core holds every unscoped buffer at a named valuation: the launch memory; after the region the same with the seven windows' arrays at what the pipeline leaves (the two inputs as found, each output's write-backs folded in); then each host stretch applied in turn.  The region takes the object-count table out of the unscoped buffers, hands it whole to the body's invariant, and puts it back at its exit, which is what lets the host operations after the region read it.  The run's post names the last valuation at every unscoped buffer.
-/
import proofs.«429240_j35107062677770_3_alg».proof.Proof.KICarried
import Idealize.ShloMosaic.Lib.Pipeline.FrameSuffix
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 (c : Dev nD) : Valuation τ sig (Elt F) := fun b => m ((c : Dev nD), b)
/-- The same read at the TensorCore's references. -/
abbrev V0 : (c : Dev nD) → (b : Ref sig .tc) → Buf (Elt F) ((c : Thread nD τ).loc b) := fun c b => W0 m c b
/-- At the region's exit: its arrays at what the pipeline leaves, every other buffer as launched. -/
def W1 (c : Dev nD) : Valuation τ sig (Elt F) :=
  Pipeline.withArrays spec0 c (W0 m c) fun w => (dat m c).arrAt w (cfgM m).N
theorem W1_arr (c : Dev nD) (w : Fin (cfgM m).W) :
    W1 m c (Proc.devRef .tc (Pipeline.arrRef spec0 w)) = (dat m c).arrAt w (cfgM m).N := by
  unfold W1; exact Pipeline.withArrays_arr spec0 winFacts0.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m c b
theorem hF (c : Dev nD) (w : Fin (cfgM m).W) : (dat m c).arrAt w (cfgM m).N = V1 m c (Pipeline.arrRef spec0 w) :=
  (W1_arr m c w).symm
theorem hrest (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After each of the three host stretches. -/
abbrev W2 (c : Dev nD) : Valuation τ sig (Elt F) := StableHlo.after hostOps1 (W1 m c)
abbrev W3 (c : Dev nD) : Valuation τ sig (Elt F) := StableHlo.after hostOps1_1 (W2 m c)
abbrev W4 (c : Dev nD) : Valuation τ sig (Elt F) := StableHlo.after hostOps1_2 (W3 m c)

/-! ## The proof data family and the thread state -/

def pdats : (p : Fin 1) → (c : Dev nD) → Dat τ (Elt F) Unit ℕ (UR sig nD τ) ℕ (Pipeline.pin (pcfgs (F := F)) (adms m) p) c
  | ⟨0, _⟩ => fun c => dat m c
abbrev 𝒱₀ : Variants := Variants.none
abbrev L : GSem nD τ sig → Finset Unit := fun _ => ∅
abbrev lv : GSem nD τ sig → Unit → ℕ := fun _ _ => 0
/-- What rides beside the buffers through every segment: the generator register and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The table's words under the launch valuation are the admissible contents the pipeline is pinned at. -/
theorem V_tbl (c : Dev nD) : (fun k => V0 m c (pre0.ref k)) = tbl m := funext (V_pre m c)

/-! ## The region as a segment -/

set_option backward.isDefEq.respectTransparency.types false in
def reg0 : Pipeline.RegionSeg (pcfgs (F := F)) (adms m) (pdats m) () defs₀ 𝒱₀ L lv 0 where
  win := winFacts0.to₀
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop((∃ r, prngReg c r) ∗ Pipeline.prefHeld (Ix := Unit) (Name := ℕ) (U := UR sig nD τ) (Lvl := ℕ) pre0 c (fun _ => fullShare) (tbl m))
  Z c := Pipeline.unscopedRestP (Ix := Unit) (Name := ℕ) (U := UR sig nD τ) (Lvl := ℕ) pre0 spec0 c (V0 m c)
  hentry c := by
    rw [Pipeline.ownSems0_none]
    have hsplit := Pipeline.arrays_of_unscopedBufs (p := 0) (pcfgs (F := F)) (adms m) (pdats m) winFacts0 arr_whole0 c
      ((pdats m 0 c).share_full fun _ => rfl) (V0 m c) fun _ => rfl
    rw [Pipeline.unscopedBufs_held, Pipeline.unscopedRest_split preFacts0 c (V0 m c), V_tbl m c] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Φc m c from rfl]; unfold Φc Pipeline.ΦA
    rw [show ((adms m 0).1 : pre0.Contents (Elt F)) = tbl m from rfl, prefHeld_eq]
    iintro ⟨Hp, HT, Hr⟩
    isplitl [Hr Hp]
    · isplitl [Hr]; · iexact Hr
      iexact Hp
    iexact HT
  hout c := by
    rw [Pipeline.ownSems0_none, show (pdats m 0 c).Φ (Fin.last _) = Φc m c from rfl]; unfold Φc Pipeline.ΦA
    rw [prefHeld_eq]
    iintro ⟨⟨Hr, Hp⟩, HT⟩
    isplitl [Hp HT]
    · isplitl [Hp]; · iexact Hp
      iexact HT
    isplitr; · iempintro
    iexact Hr
  hexit c := by
    have hjoin := Pipeline.unscopedBufs_of_arrays (p := 0) (pcfgs (F := F)) (adms m) (Ix := Unit) (Name := ℕ) (U := UR sig nD τ) (Lvl := ℕ)
      winFacts0 arr_whole0 c (pdats m) ((pdats m 0 c).share_full fun _ => rfl)
      (V0 m c) (V1 m c) ((pdats m 0 c).arrAt · (cfgM m).N) (hF m c) (hrest m c)
    rw [Pipeline.unscopedBufs_held, Pipeline.unscopedRest_split preFacts0 c (V0 m c), V_tbl m c] at hjoin
    iintro ⟨Ha, HO, ⟨Hp, Hpf⟩, Hrest⟩
    imodintro
    isplitl [Ha Hpf Hrest]
    · iapply hjoin
      isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

/-! ## @main as segments, and the launch -/

abbrev segs : List (Pipeline.Seg (pcfgs (F := F)) (adms m) (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)) ]
theorem main_run (c : Dev nD) : main (F := F) c = Pipeline.Seg.run (segs m) := (main_chain c).trans (by chain_rfl)

set_option backward.isDefEq.respectTransparency.types false in
/-- From any memory with zero counters every weakly fair execution of @main on the TensorCores terminates, nothing
    faulting, and every final state holds every unscoped buffer at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) (adms m) (pdats m) () (cellOf_inj (adms m)) emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adms m)) (cellOf_inj (adms m))) (Pipeline.launchToks (Pipeline.pin (pcfgs (F := F)) (adms m)) (cellOf_inj (adms m))))
    (hu₀ := by
      iintro Hu; imodintro
      isplitl [Hu]
      · iapply (show (ownU (initOf (Pipeline.cells (Pipeline.pin (pcfgs (F := F)) (adms m)) (cellOf_inj (adms m))) (Pipeline.launchToks (Pipeline.pin (pcfgs (F := F)) (adms m)) (cellOf_inj (adms m)))) : sProp 𝕄)
            ⊢ BI.own (emb₁ (initOf (Pipeline.cells (Pipeline.pin (pcfgs (F := F)) (adms m)) (cellOf_inj (adms m))) (Pipeline.launchToks (Pipeline.pin (pcfgs (F := F)) (adms m)) (cellOf_inj (adms m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      show iprop(StableHlo.held (c : Thread nD τ) (Pipeline.ucRefs τ sig) (W4 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.KITail.lean ====
/-
  The part of the loss both programs compute with the same host operations, as one function: from the per-(batch
  entry, class) overlap, probability mass and label mass, the dice coefficient 1 - (2·inter + s) / (psum + tsum + s)
  with s the smoothing literal, summed over the classes 1 … N[b] of each batch entry, divided by N[b] and averaged
  over the eight batch entries; and the result 1 · ceLoss + 1 · dice.  Both programs end with exactly these
  operations on their own five ingredients, so their results are compared by comparing the ingredients.
-/
import proofs.«429240_j35107062677770_3_alg».proof.KernelIdeal

noncomputable section

namespace Cert.KernelIdeal.Hand

open Cert.KernelIdeal
open Idealize.ShloMosaic
open Cert.KernelIdeal.Facts₀ Cert.KernelIdeal.Facts

variable {F : FTy → Type} [FloatOps F] [Cert.KernelIdeal.Facts]

/-- The dice term and the final combination, spelled with the host operations both programs print. -/
def diceTail (inter psum tsum : FVec F S8x16 .f32) (ceLoss : FVec F S_ .f32) (num : IVec S8 32) : FVec F S_ .f32 :=
  let v10 : FVec F S8x16 .f32 := broadcastInDim S8x16 ![] bcast_S_S8x16 (constant S_ .f32 0x40000000#32)
  let v11 : FVec F S8x16 .f32 := mulf v10 inter
  let v12 : FVec F S8x16 .f32 := broadcastInDim S8x16 ![] bcast_S_S8x16 (constant S_ .f32 0x38D1B717#32)
  let v13 : FVec F S8x16 .f32 := addf v11 v12
  let v14 : FVec F S8x16 .f32 := addf psum tsum
  let v15 : FVec F S8x16 .f32 := broadcastInDim S8x16 ![] bcast_S_S8x16 (constant S_ .f32 0x38D1B717#32)
  let v16 : FVec F S8x16 .f32 := addf v14 v15
  let v17 : FVec F S8x16 .f32 := Host.divf v13 v16
  let v18 : FVec F S8x16 .f32 := broadcastInDim S8x16 ![] bcast_S_S8x16 (constant S_ .f32 0x3F800000#32)
  let v19 : FVec F S8x16 .f32 := subf v18 v17
  let v20 : IVec S16 32 := iotaInDim S16 32 0
  let v21 : IVec S1x16 32 := broadcastInDim S1x16 ![1] bcast_S16_S1x16_1 v20
  let v22 : IVec S1x16 32 := broadcastInDim S1x16 ![] bcast_S_S1x16 (constantI S_ 32 1#32)
  let v23 : IVec S1x16 1 := cmpi .sge v21 v22
  let v24 : IVec S8x1 32 := broadcastInDim S8x1 ![0] bcast_S8_S8x1_0 num
  let v25 : IVec S8x16 32 := broadcastInDim S8x16 ![0, 1] bcast_S1x16_S8x16_0_1 v21
  let v26 : IVec S8x16 32 := broadcastInDim S8x16 ![0, 1] bcast_S8x1_S8x16_0_1 v24
  let v27 : IVec S8x16 1 := cmpi .sle v25 v26
  let v28 : IVec S8x16 1 := broadcastInDim S8x16 ![0, 1] bcast_S1x16_S8x16_0_1 v23
  let v29 : IVec S8x16 1 := andi v28 v27
  let w0 : FVec F S_ .f32 := id (constant S_ .f32 0x00000000#32)
  let w1 : FVec F S8x16 .f32 := broadcastInDim S8x16 ![] bcast_S_S8x16 w0
  let v30 : FVec F S8x16 .f32 := select v29 v19 w1
  let v31 : FVec F S8 .f32 := Host.reduceAdd v30 (constant S_ .f32 0x00000000#32) reducesTo_S8x16_S8_d1 h_S_
  let v32 : FVec F S8 .f32 := sitofp .f32 num
  let v33 : FVec F S8 .f32 := Host.divf v31 v32
  let v34 : FVec F S_ .f32 := Host.reduceAdd v33 (constant S_ .f32 0x00000000#32) reducesTo_S8_S_d0 h_S_
  let v35 : FVec F S_ .f32 := Host.divf v34 (constant S_ .f32 0x41000000#32)
  let v36 : FVec F S_ .f32 := mulf (constant S_ .f32 0x3F800000#32) ceLoss
  let v37 : FVec F S_ .f32 := mulf (constant S_ .f32 0x3F800000#32) v35
  addf v36 v37

/-- The kernel program's cross-entropy term from its two per-batch-entry columns: the numerators' sum over the sum of
    the valid-pixel counts plus one. -/
def ceLossK (ce vc : FVec F S8 .f32) : FVec F S_ .f32 :=
  let v6 : FVec F S_ .f32 := Host.reduceAdd ce (constant S_ .f32 0x00000000#32) reducesTo_S8_S_d0 h_S_
  let v7 : FVec F S_ .f32 := Host.reduceAdd vc (constant S_ .f32 0x00000000#32) reducesTo_S8_S_d0 h_S_
  let v8 : FVec F S_ .f32 := addf v7 (constant S_ .f32 0x3F800000#32)
  Host.divf v6 v8

/-- The kernel program's result from the five arrays the region leaves (each still carrying its unit middle axis). -/
def kernelResult (a2 a3 a4 : FVec F S8x1x16 .f32) (a5 a6 : FVec F S8x1x1 .f32) (num : IVec S8 32) : FVec F S_ .f32 :=
  diceTail (shapeCast S8x16 a2 shapeCasts_S8x1x16_S8x16) (shapeCast S8x16 a3 shapeCasts_S8x1x16_S8x16) (shapeCast S8x16 a4 shapeCasts_S8x1x16_S8x16)
    (ceLossK (shapeCast S8 a5 shapeCasts_S8x1x1_S8) (shapeCast S8 a6 shapeCasts_S8x1x1_S8)) num

end Cert.KernelIdeal.Hand

end
-- ==== Proof.KITailValue.lean ====
/-
  The last valuation read at the buffers the claims name: the result is the shared tail of the five arrays the region
  leaves and the object counts; the three arguments are as launched (no host operation writes them, the region reads two
  of them through input windows and hands the third back unchanged).
-/
import proofs.«429240_j35107062677770_3_alg».proof.Proof.KILaunch
import proofs.«429240_j35107062677770_3_alg».proof.Proof.KITail
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]
variable (m : (ℓ : Loc nD τ sig) → Buf (Elt F) ℓ)

/-- The object counts are no window's array: the region leaves them as launched. -/
theorem W1_arg2 (c : Dev nD) : W1 m c (Proc.devRef .tc main_arg2) = m ((c : Thread nD τ).loc main_arg2) :=
  W1_of_ne m c main_arg2 (by decide)

/-- The result buffer after the three host stretches. -/
theorem W4_result (c : Dev nD) :
    W4 m c (Proc.devRef .tc main_v38)
      = kernelResult (F := F) (W1 m c (Proc.devRef .tc main_v0_0)) (W1 m c (Proc.devRef .tc main_v0_1)) (W1 m c (Proc.devRef .tc main_v0_2))
          (W1 m c (Proc.devRef .tc main_v0_3)) (W1 m c (Proc.devRef .tc main_v0_4)) (m ((c : Thread nD τ).loc main_arg2)) := by
  -- the three stretches as one fold from the region's exit, read at the result buffer: each operation's value at its
  -- own buffer is its function of its operands' values, every other buffer is as before
  show StableHlo.after hostOps1_2 (StableHlo.after hostOps1_1 (StableHlo.after hostOps1 (W1 m c))) (Proc.devRef .tc main_v38) = _
  open StableHlo in after_results_simp
  -- the inlined function's typed references carry their buffers' own types: the transports are identities
  simp only [StableHlo.TRef.ofBuf, StableHlo.TRef.toBuf, cast_eq]
  rw [W1_arg2 m c]
  -- what is left is the shared tail, operation for operation (a reshape reads as the cast of shapes)
  unfold kernelResult diceTail ceLossK
  rfl

/-- A reference that is no operation's result buffer is in no operation's written set: the written sets are the
    singletons of the result buffers, and distinct references are distinct device buffers. -/
local macro "no_write" : tactic => `(tactic| (
  simp only [hostOps1, hostOps1_1, hostOps1_2, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

/-- No operation of the three host stretches writes the reference `r` when `r` is none of their result buffers. -/
theorem W4_of_not_written (c : Dev nD) (r : Ref sig .tc)
    (h1 : (hostOps1 : List (HloOp τ sig (Elt F))).Forall fun op => Proc.devRef .tc r ∉ op.writes)
    (h2 : (hostOps1_1 : List (HloOp τ sig (Elt F))).Forall fun op => Proc.devRef .tc r ∉ op.writes)
    (h3 : (hostOps1_2 : List (HloOp τ sig (Elt F))).Forall fun op => Proc.devRef .tc r ∉ op.writes) :
    W4 m c (Proc.devRef .tc r) = W1 m c (Proc.devRef .tc r) :=
  calc W4 m c (Proc.devRef .tc r)
    _ = W3 m c (Proc.devRef .tc r) := StableHlo.after_of_forall_not_mem _ _ (List.forall_iff_forall_mem.mp h3)
    _ = W2 m c (Proc.devRef .tc r) := StableHlo.after_of_forall_not_mem _ _ (List.forall_iff_forall_mem.mp h2)
    _ = W1 m c (Proc.devRef .tc r) := StableHlo.after_of_forall_not_mem _ _ (List.forall_iff_forall_mem.mp h1)

theorem W4_arg0 (c : Dev nD) : W4 m c (Proc.devRef .tc main_arg0) = m ((c : Thread nD τ).loc main_arg0) :=
  calc W4 m c (Proc.devRef .tc main_arg0)
    _ = W1 m c (Proc.devRef .tc main_arg0) := W4_of_not_written m c main_arg0 (by no_write) (by no_write) (by no_write)
    _ = m ((c : Thread nD τ).loc main_arg0) :=
          (W1_arr m c 0).trans (((dat m c).arrAt_in 0 rfl _).trans (A_eq m c 0))
theorem W4_arg1 (c : Dev nD) : W4 m c (Proc.devRef .tc main_arg1) = m ((c : Thread nD τ).loc main_arg1) :=
  calc W4 m c (Proc.devRef .tc main_arg1)
    _ = W1 m c (Proc.devRef .tc main_arg1) := W4_of_not_written m c main_arg1 (by no_write) (by no_write) (by no_write)
    _ = m ((c : Thread nD τ).loc main_arg1) :=
          (W1_arr m c 1).trans (((dat m c).arrAt_in 1 rfl _).trans (A_eq m c 1))
theorem W4_arg2 (c : Dev nD) : W4 m c (Proc.devRef .tc main_arg2) = m ((c : Thread nD τ).loc main_arg2) :=
  calc W4 m c (Proc.devRef .tc main_arg2)
    _ = W1 m c (Proc.devRef .tc main_arg2) := W4_of_not_written m c main_arg2 (by no_write) (by no_write) (by no_write)
    _ = m ((c : Thread nD τ).loc main_arg2) := W1_arg2 m c

/-- The five arrays the region leaves, by window. -/
theorem W1_out (c : Dev nD) :
    W1 m c (Proc.devRef .tc main_v0_0) = (dat m c).arrAt 2 (cfgM m).N ∧ W1 m c (Proc.devRef .tc main_v0_1) = (dat m c).arrAt 3 (cfgM m).N
    ∧ W1 m c (Proc.devRef .tc main_v0_2) = (dat m c).arrAt 4 (cfgM m).N ∧ W1 m c (Proc.devRef .tc main_v0_3) = (dat m c).arrAt 5 (cfgM m).N
    ∧ W1 m c (Proc.devRef .tc main_v0_4) = (dat m c).arrAt 6 (cfgM m).N :=
  ⟨W1_arr m c 2, W1_arr m c 3, W1_arr m c 4, W1_arr m c 5, W1_arr m c 6⟩

end Cert.KernelIdeal.Hand

end
-- ==== Proof.Spec.lean ====
/-
  The mathematics both programs compute, index by index, over the extended reals.

  For logits X[b, q, i, j] (8 batch entries, 16 classes, 512 × 512 pixels), labels T[b, i, j] and object counts
  N[b]: the softmax over the classes, prob = exp (X - max_q X) / Σ_q exp (X - max_q X); its clipped logarithm
  logp = min (-ε) (max (-20) (log (prob + ε))); the one-hot of the label, hot = [T = q]; a pixel is valid when
  0 < T ≤ N[b] (signed).  The loss's ingredients are the sum over valid pixels of -logp at the pixel's own class,
  the number of valid pixels, and per (b, q) the sums over the pixels of prob · hot, of prob and of hot.
  The kernel forms them tile by tile (four tiles of 128 rows per batch entry, each tile's sums added to the
  running total) and through the one-hot; the reference forms them whole and through a gather at the label.
  This module states both forms and that they agree when every label is a class index.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨4, ![8, 16, 512, 512]⟩
abbrev ST : Shape := ⟨3, ![8, 512, 512]⟩
abbrev SN : Shape := ⟨1, ![8]⟩

variable (X : SX.Idx → EReal) (T : ST.Idx → BitVec 32) (N : SN.Idx → BitVec 32)

/-- The three float literals both programs carry, as the extended reals their words denote. -/
def eps : EReal := Ideal.ofBits .f32 0x358637BD#32
def negEps : EReal := Ideal.ofBits .f32 0xB58637BD#32
def minLog : EReal := Ideal.ofBits .f32 0xC1A00000#32

/-- The largest logit of a pixel over the sixteen classes (a fold of `max` from -∞). -/
def mx (b : Fin 8) (i j : Fin 512) : EReal := (Finset.univ : Finset (Fin 16)).fold max ⊥ (fun q => X (ix4 b q i j))
/-- The shifted exponential, its sum over the classes, and the softmax. -/
def ex (b : Fin 8) (q : Fin 16) (i j : Fin 512) : EReal := Ideal.exp (X (ix4 b q i j) - mx X b i j)
def den (b : Fin 8) (i j : Fin 512) : EReal := ∑ q : Fin 16, ex X b q i j
def prob (b : Fin 8) (q : Fin 16) (i j : Fin 512) : EReal := Ideal.div (ex X b q i j) (den X b i j)
/-- The clipped logarithm: always between -20 and -ε. -/
def logp (b : Fin 8) (q : Fin 16) (i j : Fin 512) : EReal :=
  min negEps (max minLog (Ideal.log (prob X b q i j + eps)))
/-- The one-hot of the label at class `q`. -/
def hot (b : Fin 8) (q : Fin 16) (i j : Fin 512) : EReal := if T (ix3 b i j) = BitVec.ofNat 32 q.val then 1 else 0
/-- A pixel counts when its label is positive and at most the batch entry's object count (signed compares). -/
def valid (b : Fin 8) (i j : Fin 512) : Prop := (0#32).slt (T (ix3 b i j)) = true ∧ (T (ix3 b i j)).sle (N (ix1 b)) = true
instance (b : Fin 8) (i j : Fin 512) : Decidable (valid T N b i j) := by unfold valid; infer_instance
/-- A label read as a class index (meaningful when the label is below 16). -/
def cls (t : BitVec 32) : Fin 16 := ⟨t.toNat % 16, Nat.mod_lt _ (by decide)⟩

/-! ## The whole-array form (the reference's) -/

/-- The cross-entropy numerator: over the valid pixels, minus the clipped log-probability of the pixel's own class. -/
def ceSum : EReal := ∑ b : Fin 8, ∑ i : Fin 512, ∑ j : Fin 512, if valid T N b i j then -(logp X b (cls (T (ix3 b i j))) i j) else 0
/-- The number of valid pixels. -/
def count : ℕ := ∑ b : Fin 8, ∑ i : Fin 512, ∑ j : Fin 512, if valid T N b i j then 1 else 0
/-- Per batch entry and class: the overlap, the probability mass and the label mass. -/
def inter (b : Fin 8) (q : Fin 16) : EReal := ∑ i : Fin 512, ∑ j : Fin 512, prob X b q i j * hot T b q i j
def psum (b : Fin 8) (q : Fin 16) : EReal := ∑ i : Fin 512, ∑ j : Fin 512, prob X b q i j
def tsum (b : Fin 8) (q : Fin 16) : EReal := ∑ i : Fin 512, ∑ j : Fin 512, hot T b q i j

/-! ## The tiled form (the kernel's) -/

/-- Row `r` of tile `h`. -/
def row (h : Fin 4) (r : Fin 128) : Fin 512 := ⟨128 * h.val + r.val, by have := h.isLt; have := r.isLt; omega⟩

/-- The kernel's cross-entropy at a pixel: zero minus the sum over the classes of logp · hot. -/
def ceHot (b : Fin 8) (i j : Fin 512) : EReal := 0 - ∑ q : Fin 16, logp X b q i j * hot T b q i j
/-- One tile's contributions: rows first then columns for the two scalars, columns first then rows for the class sums
    (the orders the kernel's reductions take). -/
def ceTile (b : Fin 8) (h : Fin 4) : EReal := ∑ r : Fin 128, ∑ j : Fin 512, if valid T N b (row h r) j then ceHot X T b (row h r) j else 0
def cntTile (b : Fin 8) (h : Fin 4) : EReal := ∑ r : Fin 128, ∑ j : Fin 512, if valid T N b (row h r) j then (1 : EReal) else 0
def interTile (b : Fin 8) (q : Fin 16) (h : Fin 4) : EReal := ∑ j : Fin 512, ∑ r : Fin 128, prob X b q (row h r) j * hot T b q (row h r) j
def psumTile (b : Fin 8) (q : Fin 16) (h : Fin 4) : EReal := ∑ j : Fin 512, ∑ r : Fin 128, prob X b q (row h r) j
def tsumTile (b : Fin 8) (q : Fin 16) (h : Fin 4) : EReal := ∑ j : Fin 512, ∑ r : Fin 128, hot T b q (row h r) j
/-- The running total after the four tiles of a batch entry: zero, then each tile added in turn. -/
def acc4 (f : Fin 4 → EReal) : EReal := (((0 + f 0) + f 1) + f 2) + f 3

/-! ## The two forms agree -/

/-- The re-indexing i = 128·h + r is a bijection between (tile, row in tile) pairs and the 512 rows:
    its inverse is i ↦ (i / 128, i % 128). -/
def rowEquiv : Fin 4 × Fin 128 ≃ Fin 512 where
  toFun p := row p.1 p.2
  invFun i := (⟨i.val / 128, by have := i.isLt; omega⟩, ⟨i.val % 128, Nat.mod_lt _ (by decide)⟩)
  left_inv p := by
    rcases p with ⟨h, r⟩
    have := h.isLt; have := r.isLt
    refine Prod.ext (Fin.ext ?_) (Fin.ext ?_)
    · show (128 * h.val + r.val) / 128 = h.val
      omega
    · show (128 * h.val + r.val) % 128 = r.val
      omega
  right_inv i := by
    refine Fin.ext ?_
    show 128 * (i.val / 128) + i.val % 128 = i.val
    omega

/-- Splitting the 512 rows into four tiles of 128. -/
theorem sum_rows (g : Fin 512 → EReal) : ∑ i : Fin 512, g i = ∑ h : Fin 4, ∑ r : Fin 128, g (row h r) := by
  calc ∑ i : Fin 512, g i = ∑ p : Fin 4 × Fin 128, g (rowEquiv p) := (Equiv.sum_comp rowEquiv g).symm
    _ = ∑ h : Fin 4, ∑ r : Fin 128, g (row h r) := Fintype.sum_prod_type _

/-- The running total of four tiles is the sum over the tiles: the leading zero is neutral. -/
theorem acc4_eq_sum (f : Fin 4 → EReal) : acc4 f = ∑ h : Fin 4, f h := by
  rw [Fin.sum_univ_four, acc4, zero_add]

/-- Columns-first tile sums, accumulated over the four tiles, are the whole rows-then-columns sum:
    exchange the tile sum with the column sum, reassemble the rows, exchange back. -/
theorem acc4_cols (g : Fin 512 → Fin 512 → EReal) :
    acc4 (fun h => ∑ j : Fin 512, ∑ r : Fin 128, g (row h r) j) = ∑ i : Fin 512, ∑ j : Fin 512, g i j := by
  calc acc4 (fun h => ∑ j : Fin 512, ∑ r : Fin 128, g (row h r) j)
      = ∑ h : Fin 4, ∑ j : Fin 512, ∑ r : Fin 128, g (row h r) j := acc4_eq_sum _
    _ = ∑ j : Fin 512, ∑ h : Fin 4, ∑ r : Fin 128, g (row h r) j := Finset.sum_comm
    _ = ∑ j : Fin 512, ∑ i : Fin 512, g i j :=
        Finset.sum_congr rfl fun j _ => (sum_rows (fun i => g i j)).symm
    _ = ∑ i : Fin 512, ∑ j : Fin 512, g i j := Finset.sum_comm

/-- Rows-first tile sums, accumulated over the four tiles, are the whole sum. -/
theorem acc4_rows (g : Fin 512 → Fin 512 → EReal) :
    acc4 (fun h => ∑ r : Fin 128, ∑ j : Fin 512, g (row h r) j) = ∑ i : Fin 512, ∑ j : Fin 512, g i j := by
  rw [acc4_eq_sum]
  exact (sum_rows (fun i => ∑ j : Fin 512, g i j)).symm

/-- Casting a finite sum of naturals to the extended reals, term by term. -/
theorem coe_nat_sum {ι : Type*} (s : Finset ι) (f : ι → ℕ) :
    (((∑ i ∈ s, f i : ℕ) : ℝ) : EReal) = ∑ i ∈ s, (((f i : ℕ) : ℝ) : EReal) := by
  classical
  induction s using Finset.induction_on with
  | empty => simp
  | insert a s ha ih => rw [Finset.sum_insert ha, Finset.sum_insert ha, Nat.cast_add, EReal.coe_add, ih]

/-- A label that is a class index is its own class. -/
theorem ofNat_cls {t : BitVec 32} (ht : t.toNat < 16) : BitVec.ofNat 32 (cls t).val = t := by
  apply BitVec.eq_of_toNat_eq
  show (t.toNat % 16) % 2 ^ 32 = t.toNat
  omega

/-- Through the one-hot, the sum over the classes picks the label's class. -/
theorem ceHot_eq (b : Fin 8) (i j : Fin 512) (ht : (T (ix3 b i j)).toNat < 16) :
    ceHot X T b i j = -(logp X b (cls (T (ix3 b i j))) i j) := by
  unfold ceHot
  rw [Finset.sum_eq_single (cls (T (ix3 b i j)))]
  · -- at the label's own class the one-hot is 1
    rw [hot, if_pos (ofNat_cls ht).symm, mul_one, zero_sub]
  · -- at every other class the one-hot is 0: a word below 2³² is determined by its value
    intro q _ hq
    have hne : T (ix3 b i j) ≠ BitVec.ofNat 32 q.val := by
      intro h
      apply hq
      have h2 : (T (ix3 b i j)).toNat = q.val % 2 ^ 32 := by rw [h]; rfl
      have := q.isLt
      refine Fin.ext ?_
      show q.val = (T (ix3 b i j)).toNat % 16
      omega
    rw [hot, if_neg hne, mul_zero]
  · intro h; exact absurd (Finset.mem_univ _) h

/-- The four tiles' running total is the whole sum, for each of the five quantities. -/
theorem acc_ce (hT : ∀ k, (T k).toNat < 16) : ∑ b : Fin 8, acc4 (ceTile X T N b) = ceSum X T N := by
  unfold ceSum
  refine Finset.sum_congr rfl fun b _ => ?_
  rw [← acc4_rows (fun i j => if valid T N b i j then -(logp X b (cls (T (ix3 b i j))) i j) else 0)]
  congr 1
  funext h
  unfold ceTile
  refine Finset.sum_congr rfl fun r _ => Finset.sum_congr rfl fun j _ => ?_
  by_cases hv : valid T N b (row h r) j
  · rw [if_pos hv, if_pos hv]; exact ceHot_eq X T b (row h r) j (hT _)
  · rw [if_neg hv, if_neg hv]
theorem acc_cnt : ∑ b : Fin 8, acc4 (cntTile T N b) = (((count T N : ℕ) : ℝ) : EReal) := by
  unfold count
  rw [coe_nat_sum]
  refine Finset.sum_congr rfl fun b _ => ?_
  rw [coe_nat_sum]
  have hcast : ∀ i : Fin 512, (((∑ j : Fin 512, (if valid T N b i j then 1 else 0) : ℕ) : ℝ) : EReal)
      = ∑ j : Fin 512, (if valid T N b i j then (1 : EReal) else 0) := by
    intro i
    rw [coe_nat_sum]
    refine Finset.sum_congr rfl fun j _ => ?_
    by_cases hv : valid T N b i j
    · rw [if_pos hv, if_pos hv]; simp
    · rw [if_neg hv, if_neg hv]; simp
  rw [Finset.sum_congr rfl fun i _ => hcast i]
  exact acc4_rows (fun i j => if valid T N b i j then (1 : EReal) else 0)
theorem acc_inter (b : Fin 8) (q : Fin 16) : acc4 (interTile X T b q) = inter X T b q :=
  acc4_cols (fun i j => prob X b q i j * hot T b q i j)
theorem acc_psum (b : Fin 8) (q : Fin 16) : acc4 (psumTile X b q) = psum X b q :=
  acc4_cols (fun i j => prob X b q i j)
theorem acc_tsum (b : Fin 8) (q : Fin 16) : acc4 (tsumTile T b q) = tsum T b q :=
  acc4_cols (fun i j => hot T b q i j)

/-- There are at most 2²¹ pixels, so the count fits a signed 32-bit word with room for one more. -/
theorem count_le : count T N ≤ 2097152 := by
  unfold count
  calc (∑ b : Fin 8, ∑ i : Fin 512, ∑ j : Fin 512, if valid T N b i j then 1 else 0)
      ≤ ∑ _b : Fin 8, ∑ _i : Fin 512, ∑ _j : Fin 512, 1 := by
        refine Finset.sum_le_sum fun b _ => Finset.sum_le_sum fun i _ => Finset.sum_le_sum fun j _ => ?_
        by_cases hv : valid T N b i j
        · rw [if_pos hv]
        · rw [if_neg hv]; exact Nat.zero_le 1
    _ = 2097152 := by
        simp only [Finset.sum_const, Finset.card_univ, Fintype.card_fin, smul_eq_mul]

end Cert.Spec

end
-- ==== Proof.SpecArr.lean ====
/-
  The specification's five ingredients as the arrays the shared tail takes, and the loss they give: both programs'
  results are proved equal to `specResult`.
-/
import proofs.«429240_j35107062677770_3_alg».proof.Proof.KITail
import proofs.«429240_j35107062677770_3_alg».proof.Proof.Spec

noncomputable section

namespace Cert.KernelIdeal.Hand

open Cert.KernelIdeal
open Idealize.ShloMosaic

variable [Cert.KernelIdeal.Facts]
variable (X : Cert.Spec.SX.Idx → EReal) (T : Cert.Spec.ST.Idx → BitVec 32) (N : Cert.Spec.SN.Idx → BitVec 32)

/-- Overlap, probability mass and label mass per (batch entry, class). -/
def interArr : FVec Ideal S8x16 .f32 := fun k => Cert.Spec.inter X T (k 0) (k 1)
def psumArr : FVec Ideal S8x16 .f32 := fun k => Cert.Spec.psum X (k 0) (k 1)
def tsumArr : FVec Ideal S8x16 .f32 := fun k => Cert.Spec.tsum T (k 0) (k 1)
/-- The cross-entropy term: the valid pixels' sum over their number plus one. -/
def ceLossSpec : FVec Ideal S_ .f32 := fun _ => Ideal.div (Cert.Spec.ceSum X T N) ((((Cert.Spec.count T N : ℕ) : ℝ) : EReal) + 1)
/-- The loss. -/
def specResult : FVec Ideal S_ .f32 := diceTail (F := Ideal) (interArr X T) (psumArr X) (tsumArr T) (ceLossSpec X T N) N

end Cert.KernelIdeal.Hand

end
-- ==== Proof.KIPieces.lean ====
/-
  What each case of the body leaves in the five outputs' buffers, as the body's own arithmetic applied to the blocks it read: at a first tile the tile's sums added to zeros, at a later tile added to what the buffers held.
-/
import proofs.«429240_j35107062677770_3_alg».proof.Proof.KICarried
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The object-count word the body reads at grid point `i`: the table's word at the batch coordinate. -/
def word (c : Dev nD) (i : grid0.Coords) (xt : TbBuf (F := F) c) : Elt F .i32 :=
  tbM.view.readAt (Elt F) (Rect.unit (s := S8) (k0_off1 i) S1.size (k0_off1_inb i)).toLoadRect xt (Shape.Idx.first (numel1_S1.symm ▸ Nat.one_pos))

/-- The five stored values as functions of the two input blocks, the word and what the outputs held. -/
def tileOuts (x0 : Vec F S1x16x128x512 .f32) (x1 : Vec F S1x128x512 .i32) (w : Elt F .i32)
    (p2 p3 p4 : Vec F S1x1x16 .f32) (p5 p6 : Vec F S1x1x1 .f32) : Outs (F := F) :=
  (k0_pay17 (k0_pay10 x0) (k0_pay11 x1) p2,
   k0_pay18 (k0_pay10 x0) p3,
   k0_pay1 (k0_pay16 (k0_pay11 x1)) p4,
   k0_pay2 (k0_pay14 (k0_pay12 x0 x1) (k0_pay13 x1 w)) p5,
   k0_pay3 (k0_pay15 (k0_pay13 x1 w)) p6)

/-! ## Each output, one component at a time

Every store of the body covers its output's whole block (the unit rectangle at offsets zero), so what the stores
leave is the last store's payload; a load through that rectangle reads the whole contents. -/

/-- The zero offsets of a rank-3 and of a rank-4 block, as constant functions. -/
private theorem hz3 : (![0, 0, 0] : Fin 3 → Nat) = fun _ => 0 := funext fun a => by fin_cases a <;> rfl
private theorem hz4 : (![0, 0, 0, 0] : Fin 4 → Nat) = fun _ => 0 := funext fun a => by fin_cases a <;> rfl

/-- First tile, the overlap row: the zero store is overwritten by the sum store, whose own read of the buffer sees the zeros. -/
theorem outA_2 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : isFirstTile i)
    (x0 : Vec F S1x16x128x512 .f32) (x1 : Vec F S1x128x512 .i32) (xt : TbBuf (F := F) c) :
    VRow.read (Elt F) (VRow.writes (Elt F) VRow.junk (kernelRunA c i arg3 harg3 arg4 harg4 arg5 harg5 arg6 harg6 arg7 harg7 arg8 harg8 arg9 harg9 hc0 x0 x1 xt).1)
      = k0_pay17 (k0_pay10 x0) (k0_pay11 x1) k0_pay4 := by
  rw [View.read_writes_eq_canon _ _ _ (coverA_2 c i arg3 harg3 arg4 harg4 arg5 harg5 arg6 harg6 arg7 harg7 arg8 harg8 arg9 harg9 hc0 x0 x1 xt)]
  unfold kernelRunA
  dsimp only
  sl_unfold_words
  rw [View.canon_cons_unit_zero (S := S1x1x16) hz3, View.readCov_unit_zero (S := S1x1x16) _ hz3]
  simp only [View.readAt_eq_ld, harg3.read_unread, harg4.read_unread,
    View.ld_unit_zero (S := S1x16x128x512) hz4, View.ld_unit_zero (S := S1x128x512) hz3]

/-- First tile, the probability-mass row: the zero store is overwritten by the sum store, whose own read of the buffer sees the zeros. -/
theorem outA_3 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : isFirstTile i)
    (x0 : Vec F S1x16x128x512 .f32) (x1 : Vec F S1x128x512 .i32) (xt : TbBuf (F := F) c) :
    VRow.read (Elt F) (VRow.writes (Elt F) VRow.junk (kernelRunA c i arg3 harg3 arg4 harg4 arg5 harg5 arg6 harg6 arg7 harg7 arg8 harg8 arg9 harg9 hc0 x0 x1 xt).2.1)
      = k0_pay18 (k0_pay10 x0) k0_pay5 := by
  rw [View.read_writes_eq_canon _ _ _ (coverA_3 c i arg3 harg3 arg4 harg4 arg5 harg5 arg6 harg6 arg7 harg7 arg8 harg8 arg9 harg9 hc0 x0 x1 xt)]
  unfold kernelRunA
  dsimp only
  sl_unfold_words
  rw [View.canon_cons_unit_zero (S := S1x1x16) hz3, View.readCov_unit_zero (S := S1x1x16) _ hz3]
  simp only [View.readAt_eq_ld, harg3.read_unread, harg4.read_unread,
    View.ld_unit_zero (S := S1x16x128x512) hz4, View.ld_unit_zero (S := S1x128x512) hz3]

/-- First tile, the label-mass row: the zero store is overwritten by the sum store, whose own read of the buffer sees the zeros. -/
theorem outA_4 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : isFirstTile i)
    (x0 : Vec F S1x16x128x512 .f32) (x1 : Vec F S1x128x512 .i32) (xt : TbBuf (F := F) c) :
    VRow.read (Elt F) (VRow.writes (Elt F) VRow.junk (kernelRunA c i arg3 harg3 arg4 harg4 arg5 harg5 arg6 harg6 arg7 harg7 arg8 harg8 arg9 harg9 hc0 x0 x1 xt).2.2.1)
      = k0_pay1 (k0_pay16 (k0_pay11 x1)) k0_pay6 := by
  rw [View.read_writes_eq_canon _ _ _ (coverA_4 c i arg3 harg3 arg4 harg4 arg5 harg5 arg6 harg6 arg7 harg7 arg8 harg8 arg9 harg9 hc0 x0 x1 xt)]
  unfold kernelRunA
  dsimp only
  sl_unfold_words
  rw [View.canon_cons_unit_zero (S := S1x1x16) hz3, View.readCov_unit_zero (S := S1x1x16) _ hz3]
  simp only [View.readAt_eq_ld, harg3.read_unread, harg4.read_unread,
    View.ld_unit_zero (S := S1x16x128x512) hz4, View.ld_unit_zero (S := S1x128x512) hz3]

/-- First tile, the cross-entropy cell: the zero store is overwritten by the sum store, whose own read of the buffer sees the zeros. -/
theorem outA_5 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : isFirstTile i)
    (x0 : Vec F S1x16x128x512 .f32) (x1 : Vec F S1x128x512 .i32) (xt : TbBuf (F := F) c) :
    VCell.read (Elt F) (VCell.writes (Elt F) VCell.junk (kernelRunA c i arg3 harg3 arg4 harg4 arg5 harg5 arg6 harg6 arg7 harg7 arg8 harg8 arg9 harg9 hc0 x0 x1 xt).2.2.2.1)
      = k0_pay2 (k0_pay14 (k0_pay12 x0 x1) (k0_pay13 x1 (word c i xt))) k0_pay7 := by
  rw [View.read_writes_eq_canon _ _ _ (coverA_5 c i arg3 harg3 arg4 harg4 arg5 harg5 arg6 harg6 arg7 harg7 arg8 harg8 arg9 harg9 hc0 x0 x1 xt)]
  unfold kernelRunA
  dsimp only
  sl_unfold_words
  rw [View.canon_cons_unit_zero (S := S1x1x1) hz3, View.readCov_unit_zero (S := S1x1x1) _ hz3]
  simp only [View.readAt_eq_ld, harg3.read_unread, harg4.read_unread,
    View.ld_unit_zero (S := S1x16x128x512) hz4, View.ld_unit_zero (S := S1x128x512) hz3]
  rfl

/-- First tile, the count cell: the zero store is overwritten by the sum store, whose own read of the buffer sees the zeros. -/
theorem outA_6 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : isFirstTile i)
    (x0 : Vec F S1x16x128x512 .f32) (x1 : Vec F S1x128x512 .i32) (xt : TbBuf (F := F) c) :
    VCell.read (Elt F) (VCell.writes (Elt F) VCell.junk (kernelRunA c i arg3 harg3 arg4 harg4 arg5 harg5 arg6 harg6 arg7 harg7 arg8 harg8 arg9 harg9 hc0 x0 x1 xt).2.2.2.2.1)
      = k0_pay3 (k0_pay15 (k0_pay13 x1 (word c i xt))) k0_pay8 := by
  rw [View.read_writes_eq_canon _ _ _ (coverA_6 c i arg3 harg3 arg4 harg4 arg5 harg5 arg6 harg6 arg7 harg7 arg8 harg8 arg9 harg9 hc0 x0 x1 xt)]
  unfold kernelRunA
  dsimp only
  sl_unfold_words
  rw [View.canon_cons_unit_zero (S := S1x1x1) hz3, View.readCov_unit_zero (S := S1x1x1) _ hz3]
  simp only [View.readAt_eq_ld, harg3.read_unread, harg4.read_unread,
    View.ld_unit_zero (S := S1x16x128x512) hz4, View.ld_unit_zero (S := S1x128x512) hz3]
  rfl

/-- Later tile, the overlap row: the one store's payload, whose read of the buffer sees what it held at entry. -/
theorem outB_2 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : ¬isFirstTile i)
    (x0 : Vec F S1x16x128x512 .f32) (x1 : Vec F S1x128x512 .i32) (xt : TbBuf (F := F) c)
    (xo2 xo3 xo4 : Vec F S1x1x16 .f32) (xo5 xo6 : Vec F S1x1x1 .f32) :
    VRow.read (Elt F) (VRow.writes (Elt F) VRow.junk (kernelRunB c i arg3 harg3 arg4 harg4 arg5 harg5 arg6 harg6 arg7 harg7 arg8 harg8 arg9 harg9 hc0 x0 x1 xt xo2 xo3 xo4 xo5 xo6).1)
      = k0_pay17 (k0_pay10 x0) (k0_pay11 x1) xo2 := by
  rw [View.read_writes_eq_canon _ _ _ (coverB_2 c i arg3 harg3 arg4 harg4 arg5 harg5 arg6 harg6 arg7 harg7 arg8 harg8 arg9 harg9 hc0 x0 x1 xt xo2 xo3 xo4 xo5 xo6)]
  unfold kernelRunB
  dsimp only
  sl_unfold_words
  rw [View.canon_unit_zero (S := S1x1x16) hz3]
  simp only [View.readAt_eq_ld, harg3.read_unread, harg4.read_unread, harg5.read_unread,
    View.ld_unit_zero (S := S1x16x128x512) hz4, View.ld_unit_zero (S := S1x128x512) hz3, View.ld_unit_zero (S := S1x1x16) hz3]

/-- Later tile, the probability-mass row: the one store's payload, whose read of the buffer sees what it held at entry. -/
theorem outB_3 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : ¬isFirstTile i)
    (x0 : Vec F S1x16x128x512 .f32) (x1 : Vec F S1x128x512 .i32) (xt : TbBuf (F := F) c)
    (xo2 xo3 xo4 : Vec F S1x1x16 .f32) (xo5 xo6 : Vec F S1x1x1 .f32) :
    VRow.read (Elt F) (VRow.writes (Elt F) VRow.junk (kernelRunB c i arg3 harg3 arg4 harg4 arg5 harg5 arg6 harg6 arg7 harg7 arg8 harg8 arg9 harg9 hc0 x0 x1 xt xo2 xo3 xo4 xo5 xo6).2.1)
      = k0_pay18 (k0_pay10 x0) xo3 := by
  rw [View.read_writes_eq_canon _ _ _ (coverB_3 c i arg3 harg3 arg4 harg4 arg5 harg5 arg6 harg6 arg7 harg7 arg8 harg8 arg9 harg9 hc0 x0 x1 xt xo2 xo3 xo4 xo5 xo6)]
  unfold kernelRunB
  dsimp only
  sl_unfold_words
  rw [View.canon_unit_zero (S := S1x1x16) hz3]
  simp only [View.readAt_eq_ld, harg3.read_unread, harg4.read_unread, harg6.read_unread,
    View.ld_unit_zero (S := S1x16x128x512) hz4, View.ld_unit_zero (S := S1x128x512) hz3, View.ld_unit_zero (S := S1x1x16) hz3]

/-- Later tile, the label-mass row: the one store's payload, whose read of the buffer sees what it held at entry. -/
theorem outB_4 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : ¬isFirstTile i)
    (x0 : Vec F S1x16x128x512 .f32) (x1 : Vec F S1x128x512 .i32) (xt : TbBuf (F := F) c)
    (xo2 xo3 xo4 : Vec F S1x1x16 .f32) (xo5 xo6 : Vec F S1x1x1 .f32) :
    VRow.read (Elt F) (VRow.writes (Elt F) VRow.junk (kernelRunB c i arg3 harg3 arg4 harg4 arg5 harg5 arg6 harg6 arg7 harg7 arg8 harg8 arg9 harg9 hc0 x0 x1 xt xo2 xo3 xo4 xo5 xo6).2.2.1)
      = k0_pay1 (k0_pay16 (k0_pay11 x1)) xo4 := by
  rw [View.read_writes_eq_canon _ _ _ (coverB_4 c i arg3 harg3 arg4 harg4 arg5 harg5 arg6 harg6 arg7 harg7 arg8 harg8 arg9 harg9 hc0 x0 x1 xt xo2 xo3 xo4 xo5 xo6)]
  unfold kernelRunB
  dsimp only
  sl_unfold_words
  rw [View.canon_unit_zero (S := S1x1x16) hz3]
  simp only [View.readAt_eq_ld, harg3.read_unread, harg4.read_unread, harg7.read_unread,
    View.ld_unit_zero (S := S1x16x128x512) hz4, View.ld_unit_zero (S := S1x128x512) hz3, View.ld_unit_zero (S := S1x1x16) hz3]

/-- Later tile, the cross-entropy cell: the one store's payload, whose read of the buffer sees what it held at entry. -/
theorem outB_5 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : ¬isFirstTile i)
    (x0 : Vec F S1x16x128x512 .f32) (x1 : Vec F S1x128x512 .i32) (xt : TbBuf (F := F) c)
    (xo2 xo3 xo4 : Vec F S1x1x16 .f32) (xo5 xo6 : Vec F S1x1x1 .f32) :
    VCell.read (Elt F) (VCell.writes (Elt F) VCell.junk (kernelRunB c i arg3 harg3 arg4 harg4 arg5 harg5 arg6 harg6 arg7 harg7 arg8 harg8 arg9 harg9 hc0 x0 x1 xt xo2 xo3 xo4 xo5 xo6).2.2.2.1)
      = k0_pay2 (k0_pay14 (k0_pay12 x0 x1) (k0_pay13 x1 (word c i xt))) xo5 := by
  rw [View.read_writes_eq_canon _ _ _ (coverB_5 c i arg3 harg3 arg4 harg4 arg5 harg5 arg6 harg6 arg7 harg7 arg8 harg8 arg9 harg9 hc0 x0 x1 xt xo2 xo3 xo4 xo5 xo6)]
  unfold kernelRunB
  dsimp only
  sl_unfold_words
  rw [View.canon_unit_zero (S := S1x1x1) hz3]
  simp only [View.readAt_eq_ld, harg3.read_unread, harg4.read_unread, harg8.read_unread,
    View.ld_unit_zero (S := S1x16x128x512) hz4, View.ld_unit_zero (S := S1x128x512) hz3, View.ld_unit_zero (S := S1x1x1) hz3]
  rfl

/-- Later tile, the count cell: the one store's payload, whose read of the buffer sees what it held at entry. -/
theorem outB_6 (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : ¬isFirstTile i)
    (x0 : Vec F S1x16x128x512 .f32) (x1 : Vec F S1x128x512 .i32) (xt : TbBuf (F := F) c)
    (xo2 xo3 xo4 : Vec F S1x1x16 .f32) (xo5 xo6 : Vec F S1x1x1 .f32) :
    VCell.read (Elt F) (VCell.writes (Elt F) VCell.junk (kernelRunB c i arg3 harg3 arg4 harg4 arg5 harg5 arg6 harg6 arg7 harg7 arg8 harg8 arg9 harg9 hc0 x0 x1 xt xo2 xo3 xo4 xo5 xo6).2.2.2.2.1)
      = k0_pay3 (k0_pay15 (k0_pay13 x1 (word c i xt))) xo6 := by
  rw [View.read_writes_eq_canon _ _ _ (coverB_6 c i arg3 harg3 arg4 harg4 arg5 harg5 arg6 harg6 arg7 harg7 arg8 harg8 arg9 harg9 hc0 x0 x1 xt xo2 xo3 xo4 xo5 xo6)]
  unfold kernelRunB
  dsimp only
  sl_unfold_words
  rw [View.canon_unit_zero (S := S1x1x1) hz3]
  simp only [View.readAt_eq_ld, harg3.read_unread, harg4.read_unread, harg9.read_unread,
    View.ld_unit_zero (S := S1x16x128x512) hz4, View.ld_unit_zero (S := S1x128x512) hz3, View.ld_unit_zero (S := S1x1x1) hz3]
  rfl

/-! ## The five components together -/

theorem outA_eq (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : isFirstTile i)
    (x0 : Vec F S1x16x128x512 .f32) (x1 : Vec F S1x128x512 .i32) (xt : TbBuf (F := F) c) :
    outA c i arg3 harg3 arg4 harg4 arg5 harg5 arg6 harg6 arg7 harg7 arg8 harg8 arg9 harg9 hc0 x0 x1 xt
      = tileOuts x0 x1 (word c i xt) k0_pay4 k0_pay5 k0_pay6 k0_pay7 k0_pay8 := by
  unfold outA tileOuts
  exact congr (congrArg Prod.mk (outA_2 c i arg3 harg3 arg4 harg4 arg5 harg5 arg6 harg6 arg7 harg7 arg8 harg8 arg9 harg9 hc0 x0 x1 xt))
    (congr (congrArg Prod.mk (outA_3 c i arg3 harg3 arg4 harg4 arg5 harg5 arg6 harg6 arg7 harg7 arg8 harg8 arg9 harg9 hc0 x0 x1 xt))
    (congr (congrArg Prod.mk (outA_4 c i arg3 harg3 arg4 harg4 arg5 harg5 arg6 harg6 arg7 harg7 arg8 harg8 arg9 harg9 hc0 x0 x1 xt))
    (congr (congrArg Prod.mk (outA_5 c i arg3 harg3 arg4 harg4 arg5 harg5 arg6 harg6 arg7 harg7 arg8 harg8 arg9 harg9 hc0 x0 x1 xt))
      (outA_6 c i arg3 harg3 arg4 harg4 arg5 harg5 arg6 harg6 arg7 harg7 arg8 harg8 arg9 harg9 hc0 x0 x1 xt))))

theorem outB_eq (c : Dev nD) (i : grid0.Coords) (arg3 : Memref sig .tc .vmem S1x16x128x512 .f32) (harg3 : arg3.IsWhole) (arg4 : Memref sig .tc .vmem S1x128x512 .i32) (harg4 : arg4.IsWhole)
    (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole)
    (arg8 : Memref sig .tc .vmem S1x1x1 .f32) (harg8 : arg8.IsWhole) (arg9 : Memref sig .tc .vmem S1x1x1 .f32) (harg9 : arg9.IsWhole) (hc0 : ¬isFirstTile i)
    (x0 : Vec F S1x16x128x512 .f32) (x1 : Vec F S1x128x512 .i32) (xt : TbBuf (F := F) c)
    (xo2 xo3 xo4 : Vec F S1x1x16 .f32) (xo5 xo6 : Vec F S1x1x1 .f32) :
    outB c i arg3 harg3 arg4 harg4 arg5 harg5 arg6 harg6 arg7 harg7 arg8 harg8 arg9 harg9 hc0 x0 x1 xt xo2 xo3 xo4 xo5 xo6
      = tileOuts x0 x1 (word c i xt) xo2 xo3 xo4 xo5 xo6 := by
  unfold outB tileOuts
  exact congr (congrArg Prod.mk (outB_2 c i arg3 harg3 arg4 harg4 arg5 harg5 arg6 harg6 arg7 harg7 arg8 harg8 arg9 harg9 hc0 x0 x1 xt xo2 xo3 xo4 xo5 xo6))
    (congr (congrArg Prod.mk (outB_3 c i arg3 harg3 arg4 harg4 arg5 harg5 arg6 harg6 arg7 harg7 arg8 harg8 arg9 harg9 hc0 x0 x1 xt xo2 xo3 xo4 xo5 xo6))
    (congr (congrArg Prod.mk (outB_4 c i arg3 harg3 arg4 harg4 arg5 harg5 arg6 harg6 arg7 harg7 arg8 harg8 arg9 harg9 hc0 x0 x1 xt xo2 xo3 xo4 xo5 xo6))
    (congr (congrArg Prod.mk (outB_5 c i arg3 harg3 arg4 harg4 arg5 harg5 arg6 harg6 arg7 harg7 arg8 harg8 arg9 harg9 hc0 x0 x1 xt xo2 xo3 xo4 xo5 xo6))
      (outB_6 c i arg3 harg3 arg4 harg4 arg5 harg5 arg6 harg6 arg7 harg7 arg8 harg8 arg9 harg9 hc0 x0 x1 xt xo2 xo3 xo4 xo5 xo6))))

end Cert.KernelIdeal.Hand

end
-- ==== Proof.KIPayBase.lean ====
/-
  The body's two shared intermediate values, read at an element, at the exact instance: over a block that holds rows 128·h … 128·h + 127 of batch entry b, the softmax payload is the specification's softmax and the one-hot payload its one-hot.
-/
import proofs.«429240_j35107062677770_3_alg».proof.Proof.Gen.KernelIdeal.Skeleton
import proofs.«429240_j35107062677770_3_alg».proof.Proof.Spec
import Idealize.ShloMosaic.Lib.ValueIdx
import Idealize.ShloMosaic.Lib.Pipeline.Value
import Idealize.ShloMosaic.PureOps.Ideal.Laws
import Idealize.ShloMosaic.Lib.StableHlo.Predicate

set_option maxRecDepth 16384

noncomputable section

open scoped BigOperators

namespace Cert.KernelIdeal.Hand

open Cert.KernelIdeal Cert.KernelIdeal.Gen
open Idealize.ShloMosaic Idealize.ShloMosaic.ValueIdx

section Layout
variable {α : Type}

/-- A [128, 512] value given a leading unit axis and repeated along sixteen classes reads, at (q, r, j), the value at (r, j). -/
theorem bcast_row_at (v : S128x512.Idx → α) (q : Fin 16) (r : Fin 128) (j : Fin 512) :
    broadcastTo S16x128x512 (shapeCast S1x128x512 v shapeCasts_S128x512_S1x128x512) broadcasts_S1x128x512_S16x128x512 (ix3 q r j)
      = v (ix2 r j) := by
  refine (broadcastTo_apply _ _ (ix3 q r j) (ix3 (0 : Fin 1) r j) fun a => ?_).trans ?_
  · match a with
    | ⟨0, _⟩ => rfl
    | ⟨1, _⟩ => rfl
    | ⟨2, _⟩ => rfl
  · refine shapeCast_apply v _ (ix3 (0 : Fin 1) r j) (ix2 r j) ?_
    rw [Shape.rowMajor_val_two, Shape.rowMajor_val_three]
    show r.val * 512 + j.val = ((0 * 128 + r.val) * 512 + j.val)
    omega

/-- A [1, 16, 128, 512] block with its unit axis dropped reads, at (q, r, j), the block at (0, q, r, j). -/
theorem drop4_at (v : S1x16x128x512.Idx → α) (q : Fin 16) (r : Fin 128) (j : Fin 512) :
    shapeCast S16x128x512 v shapeCasts_S1x16x128x512_S16x128x512 (ix3 q r j) = v (ix4 (0 : Fin 1) q r j) := by
  refine shapeCast_apply v _ (ix3 q r j) (ix4 (0 : Fin 1) q r j) ?_
  rw [Shape.rowMajor_val_three, Shape.rowMajor_val_four]
  show ((0 * 16 + q.val) * 128 + r.val) * 512 + j.val = (q.val * 128 + r.val) * 512 + j.val
  omega

/-- A [1, 128, 512] block with its unit axis dropped reads, at (r, j), the block at (0, r, j). -/
theorem drop3_at (v : S1x128x512.Idx → α) (r : Fin 128) (j : Fin 512) :
    shapeCast S128x512 v shapeCasts_S1x128x512_S128x512 (ix2 r j) = v (ix3 (0 : Fin 1) r j) := by
  refine shapeCast_apply v _ (ix2 r j) (ix3 (0 : Fin 1) r j) ?_
  rw [Shape.rowMajor_val_three, Shape.rowMajor_val_two]
  show (0 * 128 + r.val) * 512 + j.val = r.val * 512 + j.val
  omega

end Layout

/-- The index over (r, j) with class k inserted on the leading axis is (k, r, j). -/
theorem lift_at (r : Fin 128) (j : Fin 512) (k : Fin 16) :
    reduces_S16x128x512_S128x512.lift (ix2 r j) k = ix3 k r j := by
  funext c
  match c with
  | ⟨0, _⟩ => rfl
  | ⟨1, _⟩ => rfl
  | ⟨2, _⟩ => rfl

variable (X : Cert.Spec.SX.Idx → EReal) (T : Cert.Spec.ST.Idx → BitVec 32) (N : Cert.Spec.SN.Idx → BitVec 32)
variable (b : Fin 8) (h : Fin 4)
variable (x0 : Vec Ideal S1x16x128x512 .f32) (x1 : Vec Ideal S1x128x512 .i32) (w : BitVec 32)

/-- The word of -∞ denotes the least extended real. -/
theorem ofBits_negInf : FloatOps.ofBits (F := Ideal) .f32 0xFF800000#32 = (⊥ : EReal) := by
  show Ideal.ofBits .f32 0xFF800000#32 = ⊥
  simp [Ideal.ofBits, Ideal.ieee]

/-- The maximum over the leading axis of a [16, 128, 512] value, at (r, j): the fold of max from -∞ over the classes. -/
theorem max0_at (v : FVec Ideal S16x128x512 .f32) (r : Fin 128) (j : Fin 512) :
    multiReduction (F := Ideal) .maximumf [0] S128x512 v 0xFF800000#32 reduces_S16x128x512_S128x512 (.inl rfl) rfl (ix2 r j)
      = (Finset.univ : Finset (Fin 16)).fold max (⊥ : EReal) (fun k => v (ix3 k r j)) := by
  have e := Ideal.multiReduction_maximumf_single (φ := .f32) (s := S16x128x512) (t := S128x512) (a := 0) v 0xFF800000#32
      reduces_S16x128x512_S128x512 (.inl rfl) rfl (ix2 r j)
  rw [ofBits_negInf] at e
  refine e.trans ?_
  refine congrArg (fun f => Finset.fold max (⊥ : EReal) f (Finset.univ : Finset (Fin 16))) (funext fun k => ?_)
  exact congrArg v (lift_at r j k)

/-- The sum over the leading axis of a [16, 128, 512] value, at (r, j): the sum over the classes. -/
theorem sum0_at (v : FVec Ideal S16x128x512 .f32) (r : Fin 128) (j : Fin 512) :
    multiReduction (F := Ideal) .add [0] S128x512 v 0x00000000#32 reduces_S16x128x512_S128x512 (.inl rfl) rfl (ix2 r j)
      = ∑ k : Fin 16, v (ix3 k r j) := by
  have e := Ideal.multiReduction_add_single (φ := .f32) (s := S16x128x512) (t := S128x512) (a := 0) v 0x00000000#32
      reduces_S16x128x512_S128x512 (.inl rfl) rfl (ix2 r j)
  refine e.trans ?_
  refine Finset.sum_congr rfl fun k _ => ?_
  exact congrArg v (lift_at r j k)

/-- The softmax's intermediate values over a block: the tile, its maximum over the classes, the shifted exponentials and their sum. -/
def smTile : FVec Ideal S16x128x512 .f32 := shapeCast S16x128x512 x0 shapeCasts_S1x16x128x512_S16x128x512
def smMax : FVec Ideal S128x512 .f32 :=
  multiReduction .maximumf [0] S128x512 (smTile x0) 0xFF800000#32 reduces_S16x128x512_S128x512 (.inl rfl) rfl
def smExp : FVec Ideal S16x128x512 .f32 :=
  exp (subf (smTile x0) (broadcastTo S16x128x512 (shapeCast S1x128x512 (smMax x0) shapeCasts_S128x512_S1x128x512) broadcasts_S1x128x512_S16x128x512))
def smDen : FVec Ideal S128x512 .f32 :=
  multiReduction .add [0] S128x512 (smExp x0) 0x00000000#32 reduces_S16x128x512_S128x512 (.inl rfl) rfl

/-- The softmax payload is the exponentials over their broadcast sum. -/
theorem k0_pay10_eq : k0_pay10 (F := Ideal) x0
    = divf (smExp x0) (broadcastTo S16x128x512 (shapeCast S1x128x512 (smDen x0) shapeCasts_S128x512_S1x128x512) broadcasts_S1x128x512_S16x128x512) := rfl

/-- The softmax of the tile at class q, row r, column j is the softmax of the pixel (b, 128·h + r, j). -/
theorem pay10_at (hx0 : ∀ (q : Fin 16) (r : Fin 128) (j : Fin 512), x0 (ix4 (0 : Fin 1) q r j) = X (ix4 b q (Cert.Spec.row h r) j))
    (q : Fin 16) (r : Fin 128) (j : Fin 512) :
    k0_pay10 (F := Ideal) x0 (ix3 q r j) = Cert.Spec.prob X b q (Cert.Spec.row h r) j := by
  -- the tile's elements are the array's
  have hv4 : ∀ k : Fin 16, smTile x0 (ix3 k r j) = X (ix4 b k (Cert.Spec.row h r) j) :=
    fun k => (drop4_at x0 k r j).trans (hx0 k r j)
  -- the maximum over the classes
  have hmx : smMax x0 (ix2 r j) = Cert.Spec.mx X b (Cert.Spec.row h r) j := by
    unfold smMax Cert.Spec.mx
    rw [max0_at]
    exact congrArg (fun f => Finset.fold max (⊥ : EReal) f (Finset.univ : Finset (Fin 16))) (funext fun k => hv4 k)
  -- the shifted exponentials
  have hex : ∀ k : Fin 16, smExp x0 (ix3 k r j) = Cert.Spec.ex X b k (Cert.Spec.row h r) j := by
    intro k
    show Ideal.exp (smTile x0 (ix3 k r j) - broadcastTo S16x128x512 (shapeCast S1x128x512 (smMax x0) shapeCasts_S128x512_S1x128x512) broadcasts_S1x128x512_S16x128x512 (ix3 k r j)) = _
    rw [bcast_row_at, hmx, hv4]
    rfl
  -- their sum
  have hden : smDen x0 (ix2 r j) = Cert.Spec.den X b (Cert.Spec.row h r) j := by
    unfold smDen Cert.Spec.den
    rw [sum0_at]
    exact Finset.sum_congr rfl fun k _ => hex k
  rw [k0_pay10_eq, divf_apply, bcast_row_at, hden, hex]
  rfl

/-- The comparison word of two 32-bit words, widened and read as a float: one when they agree, zero otherwise. -/
theorem hot_word (a t : BitVec 32) :
    FloatOps.sitofp (F := Ideal) .f32 ((IntOp.cmpi .eq a t).setWidth 32) = if t = a then (1 : EReal) else 0 := by
  show (((((IntOp.cmpi .eq a t).setWidth 32).toInt : ℤ) : ℝ) : EReal) = _
  by_cases hat : a = t
  · rw [StableHlo.Predicate.cmpi_eq_iff.mpr hat, if_pos hat.symm]
    show ((((1 : ℤ) : ℤ) : ℝ) : EReal) = 1
    simp
  · have hc : IntOp.cmpi .eq a t = 0#1 := eq_zero_of_ne_one fun hc => hat (StableHlo.Predicate.cmpi_eq_iff.mp hc)
    rw [hc, if_neg fun e => hat e.symm]
    show ((((0 : ℤ) : ℤ) : ℝ) : EReal) = 0
    simp

/-- The one-hot of the tile's labels at class q, row r, column j. -/
theorem pay11_at (hx1 : ∀ (r : Fin 128) (j : Fin 512), x1 (ix3 (0 : Fin 1) r j) = T (ix3 b (Cert.Spec.row h r) j))
    (q : Fin 16) (r : Fin 128) (j : Fin 512) :
    k0_pay11 (F := Ideal) x1 (ix3 q r j) = Cert.Spec.hot T b q (Cert.Spec.row h r) j := by
  -- the class index along the leading axis
  have hio : iota .tc S16x128x512 32 [0] iota_S16x128x512_d0_w32 (ix3 q r j) = BitVec.ofNat 32 q.val :=
    iota_single_apply .tc S16x128x512 32 0 iota_S16x128x512_d0_w32 (ix3 q r j)
  -- the label under (q, r, j)
  have hlab : broadcastTo S16x128x512 (shapeCast S1x128x512 (k0_pay9 (F := Ideal) x1) shapeCasts_S128x512_S1x128x512) broadcasts_S1x128x512_S16x128x512 (ix3 q r j)
      = T (ix3 b (Cert.Spec.row h r) j) :=
    (bcast_row_at (k0_pay9 (F := Ideal) x1) q r j).trans ((drop3_at x1 r j).trans (hx1 r j))
  show FloatOps.sitofp (F := Ideal) .f32 ((IntOp.cmpi .eq (iota .tc S16x128x512 32 [0] iota_S16x128x512_d0_w32 (ix3 q r j))
      (broadcastTo S16x128x512 (shapeCast S1x128x512 (k0_pay9 (F := Ideal) x1) shapeCasts_S128x512_S1x128x512) broadcasts_S1x128x512_S16x128x512 (ix3 q r j))).setWidth 32) = _
  rw [hio, hlab, hot_word]
  rfl

end Cert.KernelIdeal.Hand

end
-- ==== Proof.KIPayIdx.lean ====
/-
  The body's five stored values, read at an element, at the exact instance: each is what the output held plus the tile's sum of the specification (class sums over the tile's pixels of prob · hot, of prob and of hot; the valid pixels' cross-entropy and their number).
-/
import proofs.«429240_j35107062677770_3_alg».proof.Proof.KIPayBase
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

variable (X : Cert.Spec.SX.Idx → EReal) (T : Cert.Spec.ST.Idx → BitVec 32) (N : Cert.Spec.SN.Idx → BitVec 32)
variable (b : Fin 8) (h : Fin 4)
variable (x0 : Vec Ideal S1x16x128x512 .f32) (x1 : Vec Ideal S1x128x512 .i32) (w : BitVec 32)

variable (hx0 : ∀ (q : Fin 16) (r : Fin 128) (j : Fin 512), x0 (ix4 (0 : Fin 1) q r j) = X (ix4 b q (Cert.Spec.row h r) j))
variable (hx1 : ∀ (r : Fin 128) (j : Fin 512), x1 (ix3 (0 : Fin 1) r j) = T (ix3 b (Cert.Spec.row h r) j))
variable (hw : w = N (ix1 b))

/-! ## Layout and one-axis sums at the payloads' literal shapes -/

/-- The class-sum payload at class q: the sum over the columns of the sum over the rows. -/
theorem pay16_apply (v : FVec Ideal S16x128x512 .f32) (q : Fin 16) :
    k0_pay16 (F := Ideal) v (ix2 q (0 : Fin 1)) = ∑ j : Fin 512, ∑ r : Fin 128, v (ix3 q r j) := by
  unfold k0_pay16
  refine (shapeCast_apply _ _ (ix2 q (0 : Fin 1)) (ix1 q) ?_).trans ?_
  · rw [Shape.rowMajor_val_one, Shape.rowMajor_val_two]
    show q.val = q.val * 1 + 0
    omega
  refine (Ideal.multiReduction_add_single _ _ _ _ _ _).trans ?_
  refine Finset.sum_congr rfl fun (j : Fin 512) _ => ?_
  have e1 : reduces_S16x512_S16.lift (ix1 q) j = ix2 q j :=
    funext fun a => match a with | ⟨0, _⟩ => Fin.ext rfl | ⟨1, _⟩ => Fin.ext rfl
  rw [e1]
  refine (Ideal.multiReduction_add_single _ _ _ _ _ _).trans ?_
  refine Finset.sum_congr rfl fun (r : Fin 128) _ => ?_
  exact congrArg v (funext fun a => match a with
    | ⟨0, _⟩ => Fin.ext rfl | ⟨1, _⟩ => Fin.ext rfl | ⟨2, _⟩ => Fin.ext rfl)

/-- The stored class row: what the output held plus the class sums, transposed into the row. -/
theorem pay1_apply (u : FVec Ideal S16x1 .f32) (prev : Vec Ideal S1x1x16 .f32) (q : Fin 16) :
    k0_pay1 (F := Ideal) u prev (ix3 (0 : Fin 1) (0 : Fin 1) q)
      = prev (ix3 (0 : Fin 1) (0 : Fin 1) q) + u (ix2 q (0 : Fin 1)) := by
  unfold k0_pay1
  rw [addf_apply, shapeCast_self]
  congr 1
  refine (shapeCast_ab_1ab_apply _ _ (0 : Fin 1) (0 : Fin 1) q).trans ?_
  exact transpose_ix2_apply _ _ (0 : Fin 1) q

/-- The two other class-row payloads are the same store over their own class sums. -/
theorem pay17_eq (a c : FVec Ideal S16x128x512 .f32) (prev : Vec Ideal S1x1x16 .f32) :
    k0_pay17 (F := Ideal) a c prev = k0_pay1 (k0_pay16 (mulf a c)) prev := rfl
theorem pay18_eq (a : FVec Ideal S16x128x512 .f32) (prev : Vec Ideal S1x1x16 .f32) :
    k0_pay18 (F := Ideal) a prev = k0_pay1 (k0_pay16 a) prev := rfl

/-- The tile's total of a [128, 512] value as the payloads form it: each row summed over its columns, the rows' sums
    summed, read at the one element of the [1, 1] result. -/
theorem tileSum_apply (u : FVec Ideal S128x512 .f32) :
    shapeCast S1x1 (multiReduction .add [0] S1 (shapeCast S128x1
        (multiReduction .add [1] S128 u 0x00000000#32 reduces_S128x512_S128 (.inl rfl) rfl) shapeCasts_S128_S128x1)
        0x00000000#32 reduces_S128x1_S1 (.inl rfl) rfl) shapeCasts_S1_S1x1 (ix2 (0 : Fin 1) (0 : Fin 1))
      = ∑ r : Fin 128, ∑ j : Fin 512, u (ix2 r j) := by
  refine (shapeCast_apply _ _ (ix2 (0 : Fin 1) (0 : Fin 1)) (ix1 (0 : Fin 1)) ?_).trans ?_
  · rw [Shape.rowMajor_val_one, Shape.rowMajor_val_two]
    rfl
  refine (Ideal.multiReduction_add_single _ _ _ _ _ _).trans ?_
  refine Finset.sum_congr rfl fun (r : Fin 128) _ => ?_
  have e1 : reduces_S128x1_S1.lift (ix1 (0 : Fin 1)) r = ix2 r (0 : Fin 1) :=
    funext fun a => match a with | ⟨0, _⟩ => Fin.ext rfl | ⟨1, _⟩ => Fin.ext rfl
  rw [e1]
  refine (shapeCast_apply _ _ (ix2 r (0 : Fin 1)) (ix1 r) ?_).trans ?_
  · rw [Shape.rowMajor_val_one, Shape.rowMajor_val_two]
    show r.val = r.val * 1 + 0
    omega
  refine (Ideal.multiReduction_add_single _ _ _ _ _ _).trans ?_
  refine Finset.sum_congr rfl fun (j : Fin 512) _ => ?_
  exact congrArg u (funext fun a => match a with | ⟨0, _⟩ => Fin.ext rfl | ⟨1, _⟩ => Fin.ext rfl)

/-- The two stored scalars: what the output held plus the tile's total. -/
theorem pay2_apply (u : FVec Ideal S1x1 .f32) (prev : Vec Ideal S1x1x1 .f32) :
    k0_pay2 (F := Ideal) u prev (ix3 (0 : Fin 1) (0 : Fin 1) (0 : Fin 1))
      = prev (ix3 (0 : Fin 1) (0 : Fin 1) (0 : Fin 1)) + u (ix2 (0 : Fin 1) (0 : Fin 1)) := by
  unfold k0_pay2
  rw [addf_apply, shapeCast_self]
  congr 1
  exact shapeCast_ab_1ab_apply _ _ (0 : Fin 1) (0 : Fin 1) (0 : Fin 1)
theorem pay3_apply (u : FVec Ideal S1x1 .f32) (prev : Vec Ideal S1x1x1 .f32) :
    k0_pay3 (F := Ideal) u prev (ix3 (0 : Fin 1) (0 : Fin 1) (0 : Fin 1))
      = prev (ix3 (0 : Fin 1) (0 : Fin 1) (0 : Fin 1)) + u (ix2 (0 : Fin 1) (0 : Fin 1)) := by
  unfold k0_pay3
  rw [addf_apply, shapeCast_self]
  congr 1
  exact shapeCast_ab_1ab_apply _ _ (0 : Fin 1) (0 : Fin 1) (0 : Fin 1)

/-! ## The validity bit, the count and the masked cross-entropy at a pixel -/

/-- A one-bit word made from a Boolean is 1 exactly when the Boolean is true. -/
theorem ofBool_one_iff (c : Bool) : BitVec.ofBool c = 1#1 ↔ c = true := by cases c <;> decide

/-- The validity bit at a pixel of the tile: the label positive and at most the count, both signed. -/
theorem pay13_apply (r : Fin 128) (j : Fin 512) :
    k0_pay13 (F := Ideal) x1 w (ix2 r j)
      = IntOp.andi (IntOp.cmpi .sgt (x1 (ix3 (0 : Fin 1) r j)) 0#32) (IntOp.cmpi .sle (x1 (ix3 (0 : Fin 1) r j)) w) := by
  unfold k0_pay13 k0_pay9
  show IntOp.andi (IntOp.cmpi .sgt (shapeCast S128x512 x1 shapeCasts_S1x128x512_S128x512 (ix2 r j)) 0#32)
      (IntOp.cmpi .sle (shapeCast S128x512 x1 shapeCasts_S1x128x512_S128x512 (ix2 r j)) w) = _
  rw [shapeCast_1ab_ab_apply]

include hx1 hw in
/-- The bit is 1 exactly at the specification's valid pixels. -/
theorem pay13_iff (r : Fin 128) (j : Fin 512) :
    k0_pay13 (F := Ideal) x1 w (ix2 r j) = 1#1 ↔ Cert.Spec.valid T N b (Cert.Spec.row h r) j := by
  rw [pay13_apply, IntOp.andi_eq_one, hx1 r j, hw]
  unfold Cert.Spec.valid
  simp only [IntOp.cmpi, ofBool_one_iff]

/-- The count payload: the number of pixels whose bit is 1, as a sum of ones. -/
theorem pay15_apply (c : IVec S128x512 1) :
    k0_pay15 (F := Ideal) c (ix2 (0 : Fin 1) (0 : Fin 1))
      = ∑ r : Fin 128, ∑ j : Fin 512, (if c (ix2 r j) = 1#1 then (1 : EReal) else 0) := by
  unfold k0_pay15
  refine (tileSum_apply _).trans ?_
  refine Finset.sum_congr rfl fun r _ => Finset.sum_congr rfl fun j _ => ?_
  rw [sitofp_apply, extui_apply]
  by_cases hc : c (ix2 r j) = 1#1
  · rw [if_pos hc, hc]
    show ((((1#1 : BitVec 1).setWidth 32).toInt : ℝ) : EReal) = 1
    rw [show ((1#1 : BitVec 1).setWidth 32).toInt = 1 from by decide]
    simp
  · rw [if_neg hc, eq_zero_of_ne_one hc]
    show ((((0#1 : BitVec 1).setWidth 32).toInt : ℝ) : EReal) = 0
    rw [show ((0#1 : BitVec 1).setWidth 32).toInt = 0 from by decide]
    simp

/-- The masked total: the value at the pixels whose bit is 1, zero elsewhere, summed over the tile. -/
theorem pay14_apply (u : FVec Ideal S128x512 .f32) (c : IVec S128x512 1) :
    k0_pay14 (F := Ideal) u c (ix2 (0 : Fin 1) (0 : Fin 1))
      = ∑ r : Fin 128, ∑ j : Fin 512, (if c (ix2 r j) = 1#1 then u (ix2 r j) else 0) := by
  unfold k0_pay14
  refine (tileSum_apply _).trans ?_
  refine Finset.sum_congr rfl fun r _ => Finset.sum_congr rfl fun j _ => ?_
  rw [select_apply, broadcast_apply]
  by_cases hc : c (ix2 r j) = 1#1
  · rw [if_pos hc, hc, select_one]
  · rw [if_neg hc, eq_zero_of_ne_one hc, select_zero]
    exact Ideal.ofBits_zero_f32

include hx0 hx1 in
/-- The cross-entropy payload at a pixel of the tile is the specification's, through the one-hot. -/
theorem pay12_at (r : Fin 128) (j : Fin 512) :
    k0_pay12 (F := Ideal) x0 x1 (ix2 r j) = Cert.Spec.ceHot X T b (Cert.Spec.row h r) j := by
  unfold k0_pay12
  rw [subf_apply, broadcast_apply]
  unfold Cert.Spec.ceHot
  congr 1
  · exact Ideal.ofBits_zero_f32
  refine (Ideal.multiReduction_add_single _ _ _ _ _ _).trans ?_
  refine Finset.sum_congr rfl fun (q : Fin 16) _ => ?_
  have e1 : reduces_S16x128x512_S128x512.lift (ix2 r j) q = ix3 q r j :=
    funext fun a => match a with | ⟨0, _⟩ => Fin.ext rfl | ⟨1, _⟩ => Fin.ext rfl | ⟨2, _⟩ => Fin.ext rfl
  rw [e1, mulf_apply, minimumf_apply, maximumf_apply, broadcast_apply, broadcast_apply,
    pay11_at T b h x1 hx1 q r j]
  congr 1
  unfold Cert.Spec.logp Cert.Spec.eps Cert.Spec.negEps Cert.Spec.minLog
  rw [← pay10_at X b h x0 hx0 q r j]
  rfl

include hx0 hx1 in
theorem pay17_at (prev : Vec Ideal S1x1x16 .f32) (q : Fin 16) :
    k0_pay17 (F := Ideal) (k0_pay10 x0) (k0_pay11 x1) prev (ix3 (0 : Fin 1) (0 : Fin 1) q)
      = prev (ix3 (0 : Fin 1) (0 : Fin 1) q) + Cert.Spec.interTile X T b q h := by
  rw [pay17_eq, pay1_apply, pay16_apply]
  unfold Cert.Spec.interTile
  congr 1
  refine Finset.sum_congr rfl fun j _ => Finset.sum_congr rfl fun r _ => ?_
  rw [mulf_apply, pay10_at X b h x0 hx0 q r j, pay11_at T b h x1 hx1 q r j]

include hx0 in
theorem pay18_at (prev : Vec Ideal S1x1x16 .f32) (q : Fin 16) :
    k0_pay18 (F := Ideal) (k0_pay10 x0) prev (ix3 (0 : Fin 1) (0 : Fin 1) q)
      = prev (ix3 (0 : Fin 1) (0 : Fin 1) q) + Cert.Spec.psumTile X b q h := by
  rw [pay18_eq, pay1_apply, pay16_apply]
  unfold Cert.Spec.psumTile
  congr 1
  exact Finset.sum_congr rfl fun j _ => Finset.sum_congr rfl fun r _ => pay10_at X b h x0 hx0 q r j

include hx1 in
theorem pay1_at (prev : Vec Ideal S1x1x16 .f32) (q : Fin 16) :
    k0_pay1 (F := Ideal) (k0_pay16 (k0_pay11 x1)) prev (ix3 (0 : Fin 1) (0 : Fin 1) q)
      = prev (ix3 (0 : Fin 1) (0 : Fin 1) q) + Cert.Spec.tsumTile T b q h := by
  rw [pay1_apply, pay16_apply]
  unfold Cert.Spec.tsumTile
  congr 1
  exact Finset.sum_congr rfl fun j _ => Finset.sum_congr rfl fun r _ => pay11_at T b h x1 hx1 q r j

include hx0 hx1 hw in
theorem pay2_at (prev : Vec Ideal S1x1x1 .f32) :
    k0_pay2 (F := Ideal) (k0_pay14 (k0_pay12 x0 x1) (k0_pay13 x1 w)) prev (ix3 (0 : Fin 1) (0 : Fin 1) (0 : Fin 1))
      = prev (ix3 (0 : Fin 1) (0 : Fin 1) (0 : Fin 1)) + Cert.Spec.ceTile X T N b h := by
  rw [pay2_apply, pay14_apply]
  unfold Cert.Spec.ceTile
  congr 1
  refine Finset.sum_congr rfl fun r _ => Finset.sum_congr rfl fun j _ => ?_
  rw [pay12_at X T b h x0 x1 hx0 hx1 r j]
  exact if_congr (pay13_iff T N b h x1 w hx1 hw r j) rfl rfl

include hx1 hw in
theorem pay3_at (prev : Vec Ideal S1x1x1 .f32) :
    k0_pay3 (F := Ideal) (k0_pay15 (k0_pay13 (F := Ideal) x1 w)) prev (ix3 (0 : Fin 1) (0 : Fin 1) (0 : Fin 1))
      = prev (ix3 (0 : Fin 1) (0 : Fin 1) (0 : Fin 1)) + Cert.Spec.cntTile T N b h := by
  rw [pay3_apply, pay15_apply]
  unfold Cert.Spec.cntTile
  congr 1
  refine Finset.sum_congr rfl fun r _ => Finset.sum_congr rfl fun j _ => ?_
  exact if_congr (pay13_iff T N b h x1 w hx1 hw r j) rfl rfl

/-- The five values a first tile stores before adding are zero everywhere. -/
theorem pay4_zero (k : S1x1x16.Idx) : k0_pay4 (F := Ideal) k = 0 := by exact Ideal.ofBits_zero_f32
theorem pay5_zero (k : S1x1x16.Idx) : k0_pay5 (F := Ideal) k = 0 := by exact Ideal.ofBits_zero_f32
theorem pay6_zero (k : S1x1x16.Idx) : k0_pay6 (F := Ideal) k = 0 := by exact Ideal.ofBits_zero_f32
theorem pay7_zero (k : S1x1x1.Idx) : k0_pay7 (F := Ideal) k = 0 := by exact Ideal.ofBits_zero_f32
theorem pay8_zero (k : S1x1x1.Idx) : k0_pay8 (F := Ideal) k = 0 := by exact Ideal.ofBits_zero_f32

end Cert.KernelIdeal.Hand

end
-- ==== Proof.KIFinal.lean ====
/-
  What the five output arrays hold when the region ends, at the exact instance: each batch entry's block is written
  back once, after its fourth tile, holding the running total of the four tiles' sums of the specification.

  Three steps.  The blocks the body reads at the point of batch entry b, tile h are the argument arrays' elements at
  batch entry b and rows 128·h … 128·h + 127, and the table word it reads is entry b's object count (a block's
  coordinate in its array is block index × block size + the coordinate inside the block, and the index maps are decided
  once over the 32 grid points).  By induction on the tile, the five outputs' buffers after that point hold the running
  totals 0 + f 0 + … + f h of the tile sums f: a first tile adds to the zeros the body has just stored, a later one
  to what the point before left.  Last, every write-back (the points with t % 4 = 3) writes its block of one array
  of totals, so the element (b, 0, q) of the final array, which the block of point 4·b + 3 covers, is that array's.
-/
import proofs.«429240_j35107062677770_3_alg».proof.Proof.KICarried
import proofs.«429240_j35107062677770_3_alg».proof.Proof.KIPieces
import proofs.«429240_j35107062677770_3_alg».proof.Proof.KIPayIdx
import proofs.«429240_j35107062677770_3_alg».proof.Proof.Spec
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The three argument arrays at launch, as the specification's functions. -/
abbrev XofM (c : Dev nD) : Cert.Spec.SX.Idx → EReal := m ((c : Thread nD τ).loc main_arg0)
abbrev TofM (c : Dev nD) : Cert.Spec.ST.Idx → BitVec 32 := m ((c : Thread nD τ).loc main_arg1)
abbrev NofM (c : Dev nD) : Cert.Spec.SN.Idx → BitVec 32 := m ((c : Thread nD τ).loc main_arg2)

/-! ## The blocks the body reads, as elements of the argument arrays -/

/-- The logits' block index at each grid point: (batch entry, 0, tile, 0). -/
theorem idxX : ∀ t : Fin grid0.N, cc0_transform_0 (grid0.coords t) 0 = t.val / 4 ∧ cc0_transform_0 (grid0.coords t) 1 = 0
    ∧ cc0_transform_0 (grid0.coords t) 2 = t.val % 4 ∧ cc0_transform_0 (grid0.coords t) 3 = 0 := by decide +kernel

/-- The labels' block index at each grid point: (batch entry, tile, 0). -/
theorem idxT : ∀ t : Fin grid0.N, cc0_transform_1 (grid0.coords t) 0 = t.val / 4 ∧ cc0_transform_1 (grid0.coords t) 1 = t.val % 4
    ∧ cc0_transform_1 (grid0.coords t) 2 = 0 := by decide +kernel

/-- The table word the body loads at each grid point is the batch entry's. -/
theorem offN : ∀ t : Fin grid0.N, k0_off1 (grid0.coords t) 0 = t.val / 4 := by decide +kernel

/-- An element of the logits' block at point `t` is the array's element at batch entry `t / 4`, the same class,
    row `128 · (t % 4) + r` and the same column: on each axis, block index times block size plus the offset inside. -/
theorem iblk0_at (c : Dev nD) (t : Fin (cfgM m).N) (q : Fin 16) (r : Fin 128) (j : Fin 512) (i : Cert.Spec.SX.Idx)
    (h0 : (i 0).val = t.val / 4) (h1 : (i 1).val = q.val) (h2 : (i 2).val = 128 * (t.val % 4) + r.val) (h3 : (i 3).val = j.val) :
    (iblk m c 0 t : Vec Ideal S1x16x128x512 .f32) (ix4 (0 : Fin 1) q r j) = XofM m c i := by
  unfold iblk
  show V m c main_arg0 ((((cfgM m).win 0).blk t).view.emb (ix4 (0 : Fin 1) q r j)) = V m c main_arg0 i
  refine congrArg _ (funext fun a => Fin.ext ?_)
  obtain ⟨e0, e1, e2, e3⟩ := idxX t
  match a with
  | ⟨0, _⟩ => show cc0_transform_0 (grid0.coords t) 0 * 1 + 1 * 0 = (i 0).val; rw [e0, h0]; omega
  | ⟨1, _⟩ => show cc0_transform_0 (grid0.coords t) 1 * 16 + 1 * q.val = (i 1).val; rw [e1, h1]; omega
  | ⟨2, _⟩ => show cc0_transform_0 (grid0.coords t) 2 * 128 + 1 * r.val = (i 2).val; rw [e2, h2]; omega
  | ⟨3, _⟩ => show cc0_transform_0 (grid0.coords t) 3 * 512 + 1 * j.val = (i 3).val; rw [e3, h3]; omega

/-- Likewise an element of the labels' block. -/
theorem iblk1_at (c : Dev nD) (t : Fin (cfgM m).N) (r : Fin 128) (j : Fin 512) (i : Cert.Spec.ST.Idx)
    (h0 : (i 0).val = t.val / 4) (h1 : (i 1).val = 128 * (t.val % 4) + r.val) (h2 : (i 2).val = j.val) :
    (iblk m c 1 t : Vec Ideal S1x128x512 .i32) (ix3 (0 : Fin 1) r j) = TofM m c i := by
  unfold iblk
  show V m c main_arg1 ((((cfgM m).win 1).blk t).view.emb (ix3 (0 : Fin 1) r j)) = V m c main_arg1 i
  refine congrArg _ (funext fun a => Fin.ext ?_)
  obtain ⟨e0, e1, e2⟩ := idxT t
  match a with
  | ⟨0, _⟩ => show cc0_transform_1 (grid0.coords t) 0 * 1 + 1 * 0 = (i 0).val; rw [e0, h0]; omega
  | ⟨1, _⟩ => show cc0_transform_1 (grid0.coords t) 1 * 128 + 1 * r.val = (i 1).val; rw [e1, h1]; omega
  | ⟨2, _⟩ => show cc0_transform_1 (grid0.coords t) 2 * 512 + 1 * j.val = (i 2).val; rw [e2, h2]; omega

/-- The object-count word the body reads at point `t` is the table's entry of batch entry `t / 4`. -/
theorem word_at (c : Dev nD) (t : Fin (cfgM m).N) (k : Cert.Spec.SN.Idx) (hk : (k 0).val = t.val / 4) :
    word (F := Ideal) c (grid0.coords t) (tbl m 0) = NofM m c k := by
  obtain rfl : c = 0 := Subsingleton.elim _ _
  unfold word tbl
  show V m (0 : Dev nD) main_arg2 _ = V m (0 : Dev nD) main_arg2 k
  refine congrArg _ (funext fun a => Fin.ext ?_)
  match a with
  | ⟨0, _⟩ => show k0_off1 (grid0.coords t) 0 + 1 * 0 = (k 0).val; rw [offN t, hk]; omega

/-! ## The running total over a batch entry's four points -/

/-- The running total after tiles 0 … n: zero, then each tile's sum added in turn. -/
def part (f : Fin 4 → EReal) : ℕ → EReal
  | 0 => 0 + f 0
  | n + 1 => part f n + (if h : n + 1 < 4 then f ⟨n + 1, h⟩ else 0)

theorem part_succ (f : Fin 4 → EReal) (n : ℕ) (h : n + 1 < 4) : part f (n + 1) = part f n + f ⟨n + 1, h⟩ := by
  show part f n + (if h : n + 1 < 4 then f ⟨n + 1, h⟩ else 0) = _
  rw [dif_pos h]

/-- After the fourth tile it is the specification's total. -/
theorem acc4_eq_part (f : Fin 4 → EReal) : Cert.Spec.acc4 f = part f 3 := rfl

/-- The five outputs' buffers hold the running totals of batch entry `bb` after its tile `n`. -/
def Totals (c : Dev nD) (bb : Fin 8) (n : ℕ) (o : Outs (F := Ideal)) : Prop :=
  (∀ q : Fin 16, o.1 (ix3 (0 : Fin 1) (0 : Fin 1) q) = part (Cert.Spec.interTile (XofM m c) (TofM m c) bb q) n)
  ∧ (∀ q : Fin 16, o.2.1 (ix3 (0 : Fin 1) (0 : Fin 1) q) = part (Cert.Spec.psumTile (XofM m c) bb q) n)
  ∧ (∀ q : Fin 16, o.2.2.1 (ix3 (0 : Fin 1) (0 : Fin 1) q) = part (Cert.Spec.tsumTile (TofM m c) bb q) n)
  ∧ o.2.2.2.1 (ix3 (0 : Fin 1) (0 : Fin 1) (0 : Fin 1)) = part (Cert.Spec.ceTile (XofM m c) (TofM m c) (NofM m c) bb) n
  ∧ o.2.2.2.2 (ix3 (0 : Fin 1) (0 : Fin 1) (0 : Fin 1)) = part (Cert.Spec.cntTile (TofM m c) (NofM m c) bb) n

/-- The first tile: its sums added to the zeros the body has just stored. -/
theorem totals_first (c : Dev nD) (bb : Fin 8) (x0 : Vec Ideal S1x16x128x512 .f32) (x1 : Vec Ideal S1x128x512 .i32) (w : BitVec 32)
    (hx0 : ∀ (q : Fin 16) (r : Fin 128) (j : Fin 512), x0 (ix4 (0 : Fin 1) q r j) = XofM m c (ix4 bb q (Cert.Spec.row 0 r) j))
    (hx1 : ∀ (r : Fin 128) (j : Fin 512), x1 (ix3 (0 : Fin 1) r j) = TofM m c (ix3 bb (Cert.Spec.row 0 r) j))
    (hw : w = NofM m c (ix1 bb)) :
    Totals m c bb 0 (tileOuts (F := Ideal) x0 x1 w (k0_pay4 (F := Ideal)) (k0_pay5 (F := Ideal)) (k0_pay6 (F := Ideal)) (k0_pay7 (F := Ideal)) (k0_pay8 (F := Ideal))) := by
  unfold Totals tileOuts
  dsimp only
  refine ⟨fun q => ?_, fun q => ?_, fun q => ?_, ?_, ?_⟩
  · rw [pay17_at (XofM m c) (TofM m c) bb 0 x0 x1 hx0 hx1, pay4_zero]; rfl
  · rw [pay18_at (XofM m c) bb 0 x0 hx0, pay5_zero]; rfl
  · rw [pay1_at (TofM m c) bb 0 x1 hx1, pay6_zero]; rfl
  · rw [pay2_at (XofM m c) (TofM m c) (NofM m c) bb 0 x0 x1 w hx0 hx1 hw, pay7_zero]; rfl
  · rw [pay3_at (TofM m c) (NofM m c) bb 0 x1 w hx1 hw, pay8_zero]; rfl

/-- A later tile: its sums added to what the buffers held. -/
theorem totals_later (c : Dev nD) (bb : Fin 8) (n : ℕ) (hn : n + 1 < 4) (x0 : Vec Ideal S1x16x128x512 .f32) (x1 : Vec Ideal S1x128x512 .i32) (w : BitVec 32)
    (hx0 : ∀ (q : Fin 16) (r : Fin 128) (j : Fin 512), x0 (ix4 (0 : Fin 1) q r j) = XofM m c (ix4 bb q (Cert.Spec.row ⟨n + 1, hn⟩ r) j))
    (hx1 : ∀ (r : Fin 128) (j : Fin 512), x1 (ix3 (0 : Fin 1) r j) = TofM m c (ix3 bb (Cert.Spec.row ⟨n + 1, hn⟩ r) j))
    (hw : w = NofM m c (ix1 bb)) (p2 p3 p4 : Vec Ideal S1x1x16 .f32) (p5 p6 : Vec Ideal S1x1x1 .f32)
    (hp : Totals m c bb n (p2, p3, p4, p5, p6)) :
    Totals m c bb (n + 1) (tileOuts (F := Ideal) x0 x1 w p2 p3 p4 p5 p6) := by
  obtain ⟨i1, i2, i3, i4, i5⟩ := hp
  dsimp only at i1 i2 i3 i4 i5
  unfold Totals tileOuts
  dsimp only
  refine ⟨fun q => ?_, fun q => ?_, fun q => ?_, ?_, ?_⟩
  · rw [pay17_at (XofM m c) (TofM m c) bb ⟨n + 1, hn⟩ x0 x1 hx0 hx1, part_succ _ _ hn, i1 q]
  · rw [pay18_at (XofM m c) bb ⟨n + 1, hn⟩ x0 hx0, part_succ _ _ hn, i2 q]
  · rw [pay1_at (TofM m c) bb ⟨n + 1, hn⟩ x1 hx1, part_succ _ _ hn, i3 q]
  · rw [pay2_at (XofM m c) (TofM m c) (NofM m c) bb ⟨n + 1, hn⟩ x0 x1 w hx0 hx1 hw, part_succ _ _ hn, i4]
  · rw [pay3_at (TofM m c) (NofM m c) bb ⟨n + 1, hn⟩ x1 w hx1 hw, part_succ _ _ hn, i5]

/-- The blocks and the word at the point of batch entry `bb`, tile `hh`. -/
theorem reads_at (c : Dev nD) (bb : Fin 8) (hh : Fin 4) (t : Fin (cfgM m).N) (ht : t.val = 4 * bb.val + hh.val) :
    (∀ (q : Fin 16) (r : Fin 128) (j : Fin 512), (iblk m c 0 t : Vec Ideal S1x16x128x512 .f32) (ix4 (0 : Fin 1) q r j) = XofM m c (ix4 bb q (Cert.Spec.row hh r) j))
    ∧ (∀ (r : Fin 128) (j : Fin 512), (iblk m c 1 t : Vec Ideal S1x128x512 .i32) (ix3 (0 : Fin 1) r j) = TofM m c (ix3 bb (Cert.Spec.row hh r) j))
    ∧ word (F := Ideal) c (grid0.coords t) (tbl m 0) = NofM m c (ix1 bb) := by
  have hb := bb.isLt
  have hh' := hh.isLt
  refine ⟨fun q r j => iblk0_at m c t q r j _ ?_ rfl ?_ rfl, fun r j => iblk1_at m c t r j _ ?_ ?_ rfl, word_at m c t _ ?_⟩
  · show bb.val = t.val / 4; omega
  · show 128 * hh.val + r.val = 128 * (t.val % 4) + r.val; omega
  · show bb.val = t.val / 4; omega
  · show 128 * hh.val + r.val = 128 * (t.val % 4) + r.val; omega
  · show bb.val = t.val / 4; omega

/-- What the five outputs' buffers hold after the point of batch entry `bb`, tile `hh`: the running totals of the
    tiles' sums so far.  By induction on the tile: the first tile starts afresh, a later one builds on what the
    point before left. -/
theorem outs_at (c : Dev nD) (bb : Fin 8) : ∀ (hh : ℕ) (hlt : hh < 4) (t : Fin (cfgM m).N), t.val = 4 * bb.val + hh →
    Totals m c bb hh (outsAt m c t.val t.isLt)
  | 0, hlt, t, ht => by
    obtain ⟨hx0, hx1, hw⟩ := reads_at m c bb (0 : Fin 4) t ht
    have h0 : t.val % 4 = 0 := by omega
    have e := (outsAt_first m c t h0).trans (outA_eq c _ _ _ _ _ _ _ _ _ _ _ _ _ _ _ _ _ _ _)
    rw [e]
    exact totals_first m c bb _ _ _ hx0 hx1 hw
  | hh + 1, hlt, t, ht => by
    obtain ⟨hx0, hx1, hw⟩ := reads_at m c bb (⟨hh + 1, hlt⟩ : Fin 4) t ht
    have h0 : ¬t.val % 4 = 0 := by omega
    have ih := outs_at c bb hh (by omega) ⟨t.val - 1, Nat.lt_of_le_of_lt (Nat.sub_le _ _) t.isLt⟩ (by show t.val - 1 = _; omega)
    have e := (outsAt_later m c t h0).trans (outB_eq c _ _ _ _ _ _ _ _ _ _ _ _ _ _ _ _ _ _ _ _ _ _ _ _)
    rw [e]
    exact totals_later m c bb hh hlt _ _ _ hx0 hx1 hw _ _ _ _ _ ih

/-! ## From the write-backs to the arrays

Each output's block (b, 0, ·) is written back once, by the fourth point of batch entry `b`, with the running total
after the fourth tile; every write-back therefore writes its block of ONE array of totals, and the element (b, 0, q)
of the final array, which that block covers, is that array's.  One paragraph per output: the block index at each
point, the array of totals, the written-back buffer as an element of it, the write-back as its block, the element's
block, the final element. -/

/-- The block index of output 2 at each grid point: (batch entry, 0, 0). -/
theorem idxO2 : ∀ t : Fin grid0.N, cc0_transform_2 (grid0.coords t) 0 = t.val / 4 ∧ cc0_transform_2 (grid0.coords t) 1 = 0
    ∧ cc0_transform_2 (grid0.coords t) 2 = 0 := by decide +kernel

/-- The array the overlap's write-backs assemble: at (b, ·, q) batch entry \`b\`'s total for class \`q\`. -/
def Ginter (c : Dev nD) : S8x1x16.Idx → EReal := fun i => part (Cert.Spec.interTile (XofM m c) (TofM m c) (i 0) (i 2)) 3

/-- What the fourth point of a batch entry leaves in the overlap's buffer, as an element of that array. -/
theorem flushed2_at (c : Dev nD) (t : Fin (cfgM m).N) (h3 : t.val % 4 = 3) (q : Fin 16) (i : S8x1x16.Idx)
    (hi0 : (i 0).val = t.val / 4) (hi2 : (i 2).val = q.val) :
    (outsAt m c t.val t.isLt).1 (ix3 (0 : Fin 1) (0 : Fin 1) q) = Ginter m c i := by
  have hN : t.val < 32 := lt_of_lt_of_eq t.isLt (show (cfgM m).N = 32 from N_0)
  obtain ⟨bb, hbb⟩ : ∃ bb : Fin 8, bb.val = t.val / 4 := ⟨⟨t.val / 4, by omega⟩, rfl⟩
  have e0 : (i 0 : Fin 8) = bb := Fin.ext (hi0.trans hbb.symm)
  have e2 : (i 2 : Fin 16) = q := Fin.ext hi2
  refine ((outs_at m c bb 3 (by decide) t (by omega)).1 q).trans ?_
  show _ = part (Cert.Spec.interTile (XofM m c) (TofM m c) (i 0) (i 2)) 3
  rw [e0, e2]

/-- Every write-back of the overlap writes its block of that array. -/
theorem flushed2_eq (c : Dev nD) (t : Fin (cfgM m).N) (hf : ((cfgM m).win 2).flush t = true) :
    (dat m c).flushed 2 t = (((cfgM m).win 2).blk t).view.read (Elt Ideal) (Ginter m c) := by
  have h3 := (flush2 m t).mp hf
  obtain ⟨e0, e1, e2⟩ := idxO2 t
  refine funext fun (y : S1x1x16.Idx) => ?_
  have y0 : (y 0).val = 0 := Nat.lt_one_iff.mp (show (y 0).val < 1 from (y 0).isLt)
  have y1 : (y 1).val = 0 := Nat.lt_one_iff.mp (show (y 1).val < 1 from (y 1).isLt)
  have ey : y = ix3 (0 : Fin 1) (0 : Fin 1) (y 2) :=
    funext fun a => match a with | ⟨0, _⟩ => Fin.ext y0 | ⟨1, _⟩ => Fin.ext y1 | ⟨2, _⟩ => rfl
  show (dat m c).after 2 t y = Ginter m c ((((cfgM m).win 2).blk t).view.emb y)
  rw [after_2]
  refine (congrArg _ ey).trans (flushed2_at m c t h3 (y 2) _ ?_ ?_)
  · show cc0_transform_2 (grid0.coords t) 0 * 1 + 1 * (y 0).val = t.val / 4; rw [e0, y0]; omega
  · show cc0_transform_2 (grid0.coords t) 2 * 16 + 1 * (y 2).val = (y 2).val; rw [e2]; omega

/-- The element (b, 0, q) of output 2's array lies in the block of batch entry `b`'s fourth point. -/
theorem mem2 (bb : Fin 8) (q : Fin 16) (ht : 4 * bb.val + 3 < (cfgM m).N) :
    (ix3 bb (0 : Fin 1) q : S8x1x16.Idx) ∈ (((cfgM m).win 2).blk ⟨4 * bb.val + 3, ht⟩).view.set := by
  have hb := bb.isLt
  obtain ⟨e0, e1, e2⟩ := idxO2 ⟨4 * bb.val + 3, ht⟩
  have hemb : (((cfgM m).win 2).blk ⟨4 * bb.val + 3, ht⟩).view.emb (ix3 (0 : Fin 1) (0 : Fin 1) q) = (ix3 bb (0 : Fin 1) q : S8x1x16.Idx) :=
    funext fun a => Fin.ext (by
      match a with
      | ⟨0, _⟩ => show cc0_transform_2 (grid0.coords ⟨4 * bb.val + 3, ht⟩) 0 * 1 + 1 * 0 = bb.val; rw [e0]; show (4 * bb.val + 3) / 4 * 1 + 1 * 0 = bb.val; omega
      | ⟨1, _⟩ => show cc0_transform_2 (grid0.coords ⟨4 * bb.val + 3, ht⟩) 1 * 1 + 1 * 0 = 0; rw [e1]
      | ⟨2, _⟩ => show cc0_transform_2 (grid0.coords ⟨4 * bb.val + 3, ht⟩) 2 * 16 + 1 * q.val = q.val; rw [e2]; omega)
  exact hemb ▸ View.emb_mem_set _ _

theorem final_inter (c : Dev nD) (bb : Fin 8) (q : Fin 16) :
    ((dat m c).arrAt 2 (cfgM m).N : S8x1x16.Idx → EReal) (ix3 bb (0 : Fin 1) q)
      = Cert.Spec.acc4 (Cert.Spec.interTile (XofM m c) (TofM m c) bb q) := by
  have hb := bb.isLt
  have ht : 4 * bb.val + 3 < (cfgM m).N := by rw [show (cfgM m).N = 32 from N_0]; omega
  have hf : ((cfgM m).win 2).flush ⟨4 * bb.val + 3, ht⟩ = true := (flush2 m _).mpr (by show (4 * bb.val + 3) % 4 = 3; omega)
  exact ((dat m c).arrAt_apply_of_mem 2 (Ginter m c) (flushed2_eq m c) (cfgM m).N ⟨4 * bb.val + 3, ht⟩ (ix3 bb (0 : Fin 1) q) ht hf (mem2 m bb q ht)).trans rfl

/-- The block index of output 3 at each grid point: (batch entry, 0, 0). -/
theorem idxO3 : ∀ t : Fin grid0.N, cc0_transform_3 (grid0.coords t) 0 = t.val / 4 ∧ cc0_transform_3 (grid0.coords t) 1 = 0
    ∧ cc0_transform_3 (grid0.coords t) 2 = 0 := by decide +kernel

/-- The array the probability mass's write-backs assemble. -/
def Gpsum (c : Dev nD) : S8x1x16.Idx → EReal := fun i => part (Cert.Spec.psumTile (XofM m c) (i 0) (i 2)) 3

/-- What the fourth point of a batch entry leaves in the probability mass's buffer, as an element of that array. -/
theorem flushed3_at (c : Dev nD) (t : Fin (cfgM m).N) (h3 : t.val % 4 = 3) (q : Fin 16) (i : S8x1x16.Idx)
    (hi0 : (i 0).val = t.val / 4) (hi2 : (i 2).val = q.val) :
    (outsAt m c t.val t.isLt).2.1 (ix3 (0 : Fin 1) (0 : Fin 1) q) = Gpsum m c i := by
  have hN : t.val < 32 := lt_of_lt_of_eq t.isLt (show (cfgM m).N = 32 from N_0)
  obtain ⟨bb, hbb⟩ : ∃ bb : Fin 8, bb.val = t.val / 4 := ⟨⟨t.val / 4, by omega⟩, rfl⟩
  have e0 : (i 0 : Fin 8) = bb := Fin.ext (hi0.trans hbb.symm)
  have e2 : (i 2 : Fin 16) = q := Fin.ext hi2
  refine ((outs_at m c bb 3 (by decide) t (by omega)).2.1 q).trans ?_
  show _ = part (Cert.Spec.psumTile (XofM m c) (i 0) (i 2)) 3
  rw [e0, e2]

/-- Every write-back of the probability mass writes its block of that array. -/
theorem flushed3_eq (c : Dev nD) (t : Fin (cfgM m).N) (hf : ((cfgM m).win 3).flush t = true) :
    (dat m c).flushed 3 t = (((cfgM m).win 3).blk t).view.read (Elt Ideal) (Gpsum m c) := by
  have h3 := (flush3 m t).mp hf
  obtain ⟨e0, e1, e2⟩ := idxO3 t
  refine funext fun (y : S1x1x16.Idx) => ?_
  have y0 : (y 0).val = 0 := Nat.lt_one_iff.mp (show (y 0).val < 1 from (y 0).isLt)
  have y1 : (y 1).val = 0 := Nat.lt_one_iff.mp (show (y 1).val < 1 from (y 1).isLt)
  have ey : y = ix3 (0 : Fin 1) (0 : Fin 1) (y 2) :=
    funext fun a => match a with | ⟨0, _⟩ => Fin.ext y0 | ⟨1, _⟩ => Fin.ext y1 | ⟨2, _⟩ => rfl
  show (dat m c).after 3 t y = Gpsum m c ((((cfgM m).win 3).blk t).view.emb y)
  rw [after_3]
  refine (congrArg _ ey).trans (flushed3_at m c t h3 (y 2) _ ?_ ?_)
  · show cc0_transform_3 (grid0.coords t) 0 * 1 + 1 * (y 0).val = t.val / 4; rw [e0, y0]; omega
  · show cc0_transform_3 (grid0.coords t) 2 * 16 + 1 * (y 2).val = (y 2).val; rw [e2]; omega

/-- The element (b, 0, q) of output 3's array lies in the block of batch entry `b`'s fourth point. -/
theorem mem3 (bb : Fin 8) (q : Fin 16) (ht : 4 * bb.val + 3 < (cfgM m).N) :
    (ix3 bb (0 : Fin 1) q : S8x1x16.Idx) ∈ (((cfgM m).win 3).blk ⟨4 * bb.val + 3, ht⟩).view.set := by
  have hb := bb.isLt
  obtain ⟨e0, e1, e2⟩ := idxO3 ⟨4 * bb.val + 3, ht⟩
  have hemb : (((cfgM m).win 3).blk ⟨4 * bb.val + 3, ht⟩).view.emb (ix3 (0 : Fin 1) (0 : Fin 1) q) = (ix3 bb (0 : Fin 1) q : S8x1x16.Idx) :=
    funext fun a => Fin.ext (by
      match a with
      | ⟨0, _⟩ => show cc0_transform_3 (grid0.coords ⟨4 * bb.val + 3, ht⟩) 0 * 1 + 1 * 0 = bb.val; rw [e0]; show (4 * bb.val + 3) / 4 * 1 + 1 * 0 = bb.val; omega
      | ⟨1, _⟩ => show cc0_transform_3 (grid0.coords ⟨4 * bb.val + 3, ht⟩) 1 * 1 + 1 * 0 = 0; rw [e1]
      | ⟨2, _⟩ => show cc0_transform_3 (grid0.coords ⟨4 * bb.val + 3, ht⟩) 2 * 16 + 1 * q.val = q.val; rw [e2]; omega)
  exact hemb ▸ View.emb_mem_set _ _

theorem final_psum (c : Dev nD) (bb : Fin 8) (q : Fin 16) :
    ((dat m c).arrAt 3 (cfgM m).N : S8x1x16.Idx → EReal) (ix3 bb (0 : Fin 1) q)
      = Cert.Spec.acc4 (Cert.Spec.psumTile (XofM m c) bb q) := by
  have hb := bb.isLt
  have ht : 4 * bb.val + 3 < (cfgM m).N := by rw [show (cfgM m).N = 32 from N_0]; omega
  have hf : ((cfgM m).win 3).flush ⟨4 * bb.val + 3, ht⟩ = true := (flush3 m _).mpr (by show (4 * bb.val + 3) % 4 = 3; omega)
  exact ((dat m c).arrAt_apply_of_mem 3 (Gpsum m c) (flushed3_eq m c) (cfgM m).N ⟨4 * bb.val + 3, ht⟩ (ix3 bb (0 : Fin 1) q) ht hf (mem3 m bb q ht)).trans rfl

/-- The block index of output 4 at each grid point: (batch entry, 0, 0). -/
theorem idxO4 : ∀ t : Fin grid0.N, cc0_transform_4 (grid0.coords t) 0 = t.val / 4 ∧ cc0_transform_4 (grid0.coords t) 1 = 0
    ∧ cc0_transform_4 (grid0.coords t) 2 = 0 := by decide +kernel

/-- The array the label mass's write-backs assemble. -/
def Gtsum (c : Dev nD) : S8x1x16.Idx → EReal := fun i => part (Cert.Spec.tsumTile (TofM m c) (i 0) (i 2)) 3

/-- What the fourth point of a batch entry leaves in the label mass's buffer, as an element of that array. -/
theorem flushed4_at (c : Dev nD) (t : Fin (cfgM m).N) (h3 : t.val % 4 = 3) (q : Fin 16) (i : S8x1x16.Idx)
    (hi0 : (i 0).val = t.val / 4) (hi2 : (i 2).val = q.val) :
    (outsAt m c t.val t.isLt).2.2.1 (ix3 (0 : Fin 1) (0 : Fin 1) q) = Gtsum m c i := by
  have hN : t.val < 32 := lt_of_lt_of_eq t.isLt (show (cfgM m).N = 32 from N_0)
  obtain ⟨bb, hbb⟩ : ∃ bb : Fin 8, bb.val = t.val / 4 := ⟨⟨t.val / 4, by omega⟩, rfl⟩
  have e0 : (i 0 : Fin 8) = bb := Fin.ext (hi0.trans hbb.symm)
  have e2 : (i 2 : Fin 16) = q := Fin.ext hi2
  refine ((outs_at m c bb 3 (by decide) t (by omega)).2.2.1 q).trans ?_
  show _ = part (Cert.Spec.tsumTile (TofM m c) (i 0) (i 2)) 3
  rw [e0, e2]

/-- Every write-back of the label mass writes its block of that array. -/
theorem flushed4_eq (c : Dev nD) (t : Fin (cfgM m).N) (hf : ((cfgM m).win 4).flush t = true) :
    (dat m c).flushed 4 t = (((cfgM m).win 4).blk t).view.read (Elt Ideal) (Gtsum m c) := by
  have h3 := (flush4 m t).mp hf
  obtain ⟨e0, e1, e2⟩ := idxO4 t
  refine funext fun (y : S1x1x16.Idx) => ?_
  have y0 : (y 0).val = 0 := Nat.lt_one_iff.mp (show (y 0).val < 1 from (y 0).isLt)
  have y1 : (y 1).val = 0 := Nat.lt_one_iff.mp (show (y 1).val < 1 from (y 1).isLt)
  have ey : y = ix3 (0 : Fin 1) (0 : Fin 1) (y 2) :=
    funext fun a => match a with | ⟨0, _⟩ => Fin.ext y0 | ⟨1, _⟩ => Fin.ext y1 | ⟨2, _⟩ => rfl
  show (dat m c).after 4 t y = Gtsum m c ((((cfgM m).win 4).blk t).view.emb y)
  rw [after_4]
  refine (congrArg _ ey).trans (flushed4_at m c t h3 (y 2) _ ?_ ?_)
  · show cc0_transform_4 (grid0.coords t) 0 * 1 + 1 * (y 0).val = t.val / 4; rw [e0, y0]; omega
  · show cc0_transform_4 (grid0.coords t) 2 * 16 + 1 * (y 2).val = (y 2).val; rw [e2]; omega

/-- The element (b, 0, q) of output 4's array lies in the block of batch entry `b`'s fourth point. -/
theorem mem4 (bb : Fin 8) (q : Fin 16) (ht : 4 * bb.val + 3 < (cfgM m).N) :
    (ix3 bb (0 : Fin 1) q : S8x1x16.Idx) ∈ (((cfgM m).win 4).blk ⟨4 * bb.val + 3, ht⟩).view.set := by
  have hb := bb.isLt
  obtain ⟨e0, e1, e2⟩ := idxO4 ⟨4 * bb.val + 3, ht⟩
  have hemb : (((cfgM m).win 4).blk ⟨4 * bb.val + 3, ht⟩).view.emb (ix3 (0 : Fin 1) (0 : Fin 1) q) = (ix3 bb (0 : Fin 1) q : S8x1x16.Idx) :=
    funext fun a => Fin.ext (by
      match a with
      | ⟨0, _⟩ => show cc0_transform_4 (grid0.coords ⟨4 * bb.val + 3, ht⟩) 0 * 1 + 1 * 0 = bb.val; rw [e0]; show (4 * bb.val + 3) / 4 * 1 + 1 * 0 = bb.val; omega
      | ⟨1, _⟩ => show cc0_transform_4 (grid0.coords ⟨4 * bb.val + 3, ht⟩) 1 * 1 + 1 * 0 = 0; rw [e1]
      | ⟨2, _⟩ => show cc0_transform_4 (grid0.coords ⟨4 * bb.val + 3, ht⟩) 2 * 16 + 1 * q.val = q.val; rw [e2]; omega)
  exact hemb ▸ View.emb_mem_set _ _

theorem final_tsum (c : Dev nD) (bb : Fin 8) (q : Fin 16) :
    ((dat m c).arrAt 4 (cfgM m).N : S8x1x16.Idx → EReal) (ix3 bb (0 : Fin 1) q)
      = Cert.Spec.acc4 (Cert.Spec.tsumTile (TofM m c) bb q) := by
  have hb := bb.isLt
  have ht : 4 * bb.val + 3 < (cfgM m).N := by rw [show (cfgM m).N = 32 from N_0]; omega
  have hf : ((cfgM m).win 4).flush ⟨4 * bb.val + 3, ht⟩ = true := (flush4 m _).mpr (by show (4 * bb.val + 3) % 4 = 3; omega)
  exact ((dat m c).arrAt_apply_of_mem 4 (Gtsum m c) (flushed4_eq m c) (cfgM m).N ⟨4 * bb.val + 3, ht⟩ (ix3 bb (0 : Fin 1) q) ht hf (mem4 m bb q ht)).trans rfl

/-- The block index of output 5 at each grid point: (batch entry, 0, 0). -/
theorem idxO5 : ∀ t : Fin grid0.N, cc0_transform_5 (grid0.coords t) 0 = t.val / 4 ∧ cc0_transform_5 (grid0.coords t) 1 = 0
    ∧ cc0_transform_5 (grid0.coords t) 2 = 0 := by decide +kernel

/-- The array the cross-entropy's write-backs assemble: at (b, ·, ·) batch entry \`b\`'s total. -/
def Gce (c : Dev nD) : S8x1x1.Idx → EReal := fun i => part (Cert.Spec.ceTile (XofM m c) (TofM m c) (NofM m c) (i 0)) 3

/-- What the fourth point of a batch entry leaves in the cross-entropy's buffer, as an element of that array. -/
theorem flushed5_at (c : Dev nD) (t : Fin (cfgM m).N) (h3 : t.val % 4 = 3) (i : S8x1x1.Idx)
    (hi0 : (i 0).val = t.val / 4) :
    (outsAt m c t.val t.isLt).2.2.2.1 (ix3 (0 : Fin 1) (0 : Fin 1) (0 : Fin 1)) = Gce m c i := by
  have hN : t.val < 32 := lt_of_lt_of_eq t.isLt (show (cfgM m).N = 32 from N_0)
  obtain ⟨bb, hbb⟩ : ∃ bb : Fin 8, bb.val = t.val / 4 := ⟨⟨t.val / 4, by omega⟩, rfl⟩
  have e0 : (i 0 : Fin 8) = bb := Fin.ext (hi0.trans hbb.symm)
  refine ((outs_at m c bb 3 (by decide) t (by omega)).2.2.2.1).trans ?_
  show _ = part (Cert.Spec.ceTile (XofM m c) (TofM m c) (NofM m c) (i 0)) 3
  rw [e0]

/-- Every write-back of the cross-entropy writes its block of that array. -/
theorem flushed5_eq (c : Dev nD) (t : Fin (cfgM m).N) (hf : ((cfgM m).win 5).flush t = true) :
    (dat m c).flushed 5 t = (((cfgM m).win 5).blk t).view.read (Elt Ideal) (Gce m c) := by
  have h3 := (flush5 m t).mp hf
  obtain ⟨e0, e1, e2⟩ := idxO5 t
  refine funext fun (y : S1x1x1.Idx) => ?_
  have y0 : (y 0).val = 0 := Nat.lt_one_iff.mp (show (y 0).val < 1 from (y 0).isLt)
  have y1 : (y 1).val = 0 := Nat.lt_one_iff.mp (show (y 1).val < 1 from (y 1).isLt)
  have y2 : (y 2).val = 0 := Nat.lt_one_iff.mp (show (y 2).val < 1 from (y 2).isLt)
  have ey : y = ix3 (0 : Fin 1) (0 : Fin 1) (0 : Fin 1) :=
    funext fun a => match a with | ⟨0, _⟩ => Fin.ext y0 | ⟨1, _⟩ => Fin.ext y1 | ⟨2, _⟩ => Fin.ext y2
  show (dat m c).after 5 t y = Gce m c ((((cfgM m).win 5).blk t).view.emb y)
  rw [after_5]
  refine (congrArg _ ey).trans (flushed5_at m c t h3 _ ?_)
  show cc0_transform_5 (grid0.coords t) 0 * 1 + 1 * (y 0).val = t.val / 4; rw [e0, y0]; omega

/-- The element (b, 0, 0) of output 5's array lies in the block of batch entry `b`'s fourth point. -/
theorem mem5 (bb : Fin 8) (ht : 4 * bb.val + 3 < (cfgM m).N) :
    (ix3 bb (0 : Fin 1) (0 : Fin 1) : S8x1x1.Idx) ∈ (((cfgM m).win 5).blk ⟨4 * bb.val + 3, ht⟩).view.set := by
  have hb := bb.isLt
  obtain ⟨e0, e1, e2⟩ := idxO5 ⟨4 * bb.val + 3, ht⟩
  have hemb : (((cfgM m).win 5).blk ⟨4 * bb.val + 3, ht⟩).view.emb (ix3 (0 : Fin 1) (0 : Fin 1) (0 : Fin 1)) = (ix3 bb (0 : Fin 1) (0 : Fin 1) : S8x1x1.Idx) :=
    funext fun a => Fin.ext (by
      match a with
      | ⟨0, _⟩ => show cc0_transform_5 (grid0.coords ⟨4 * bb.val + 3, ht⟩) 0 * 1 + 1 * 0 = bb.val; rw [e0]; show (4 * bb.val + 3) / 4 * 1 + 1 * 0 = bb.val; omega
      | ⟨1, _⟩ => show cc0_transform_5 (grid0.coords ⟨4 * bb.val + 3, ht⟩) 1 * 1 + 1 * 0 = 0; rw [e1]
      | ⟨2, _⟩ => show cc0_transform_5 (grid0.coords ⟨4 * bb.val + 3, ht⟩) 2 * 1 + 1 * 0 = 0; rw [e2])
  exact hemb ▸ View.emb_mem_set _ _

theorem final_ce (c : Dev nD) (bb : Fin 8) :
    ((dat m c).arrAt 5 (cfgM m).N : S8x1x1.Idx → EReal) (ix3 bb (0 : Fin 1) (0 : Fin 1))
      = Cert.Spec.acc4 (Cert.Spec.ceTile (XofM m c) (TofM m c) (NofM m c) bb) := by
  have hb := bb.isLt
  have ht : 4 * bb.val + 3 < (cfgM m).N := by rw [show (cfgM m).N = 32 from N_0]; omega
  have hf : ((cfgM m).win 5).flush ⟨4 * bb.val + 3, ht⟩ = true := (flush5 m _).mpr (by show (4 * bb.val + 3) % 4 = 3; omega)
  exact ((dat m c).arrAt_apply_of_mem 5 (Gce m c) (flushed5_eq m c) (cfgM m).N ⟨4 * bb.val + 3, ht⟩ (ix3 bb (0 : Fin 1) (0 : Fin 1)) ht hf (mem5 m bb ht)).trans rfl

/-- The block index of output 6 at each grid point: (batch entry, 0, 0). -/
theorem idxO6 : ∀ t : Fin grid0.N, cc0_transform_6 (grid0.coords t) 0 = t.val / 4 ∧ cc0_transform_6 (grid0.coords t) 1 = 0
    ∧ cc0_transform_6 (grid0.coords t) 2 = 0 := by decide +kernel

/-- The array the valid-pixel count's write-backs assemble. -/
def Gcnt (c : Dev nD) : S8x1x1.Idx → EReal := fun i => part (Cert.Spec.cntTile (TofM m c) (NofM m c) (i 0)) 3

/-- What the fourth point of a batch entry leaves in the count's buffer, as an element of that array. -/
theorem flushed6_at (c : Dev nD) (t : Fin (cfgM m).N) (h3 : t.val % 4 = 3) (i : S8x1x1.Idx)
    (hi0 : (i 0).val = t.val / 4) :
    (outsAt m c t.val t.isLt).2.2.2.2 (ix3 (0 : Fin 1) (0 : Fin 1) (0 : Fin 1)) = Gcnt m c i := by
  have hN : t.val < 32 := lt_of_lt_of_eq t.isLt (show (cfgM m).N = 32 from N_0)
  obtain ⟨bb, hbb⟩ : ∃ bb : Fin 8, bb.val = t.val / 4 := ⟨⟨t.val / 4, by omega⟩, rfl⟩
  have e0 : (i 0 : Fin 8) = bb := Fin.ext (hi0.trans hbb.symm)
  refine ((outs_at m c bb 3 (by decide) t (by omega)).2.2.2.2).trans ?_
  show _ = part (Cert.Spec.cntTile (TofM m c) (NofM m c) (i 0)) 3
  rw [e0]

/-- Every write-back of the count writes its block of that array. -/
theorem flushed6_eq (c : Dev nD) (t : Fin (cfgM m).N) (hf : ((cfgM m).win 6).flush t = true) :
    (dat m c).flushed 6 t = (((cfgM m).win 6).blk t).view.read (Elt Ideal) (Gcnt m c) := by
  have h3 := (flush6 m t).mp hf
  obtain ⟨e0, e1, e2⟩ := idxO6 t
  refine funext fun (y : S1x1x1.Idx) => ?_
  have y0 : (y 0).val = 0 := Nat.lt_one_iff.mp (show (y 0).val < 1 from (y 0).isLt)
  have y1 : (y 1).val = 0 := Nat.lt_one_iff.mp (show (y 1).val < 1 from (y 1).isLt)
  have y2 : (y 2).val = 0 := Nat.lt_one_iff.mp (show (y 2).val < 1 from (y 2).isLt)
  have ey : y = ix3 (0 : Fin 1) (0 : Fin 1) (0 : Fin 1) :=
    funext fun a => match a with | ⟨0, _⟩ => Fin.ext y0 | ⟨1, _⟩ => Fin.ext y1 | ⟨2, _⟩ => Fin.ext y2
  show (dat m c).after 6 t y = Gcnt m c ((((cfgM m).win 6).blk t).view.emb y)
  rw [after_6]
  refine (congrArg _ ey).trans (flushed6_at m c t h3 _ ?_)
  show cc0_transform_6 (grid0.coords t) 0 * 1 + 1 * (y 0).val = t.val / 4; rw [e0, y0]; omega

/-- The element (b, 0, 0) of output 6's array lies in the block of batch entry `b`'s fourth point. -/
theorem mem6 (bb : Fin 8) (ht : 4 * bb.val + 3 < (cfgM m).N) :
    (ix3 bb (0 : Fin 1) (0 : Fin 1) : S8x1x1.Idx) ∈ (((cfgM m).win 6).blk ⟨4 * bb.val + 3, ht⟩).view.set := by
  have hb := bb.isLt
  obtain ⟨e0, e1, e2⟩ := idxO6 ⟨4 * bb.val + 3, ht⟩
  have hemb : (((cfgM m).win 6).blk ⟨4 * bb.val + 3, ht⟩).view.emb (ix3 (0 : Fin 1) (0 : Fin 1) (0 : Fin 1)) = (ix3 bb (0 : Fin 1) (0 : Fin 1) : S8x1x1.Idx) :=
    funext fun a => Fin.ext (by
      match a with
      | ⟨0, _⟩ => show cc0_transform_6 (grid0.coords ⟨4 * bb.val + 3, ht⟩) 0 * 1 + 1 * 0 = bb.val; rw [e0]; show (4 * bb.val + 3) / 4 * 1 + 1 * 0 = bb.val; omega
      | ⟨1, _⟩ => show cc0_transform_6 (grid0.coords ⟨4 * bb.val + 3, ht⟩) 1 * 1 + 1 * 0 = 0; rw [e1]
      | ⟨2, _⟩ => show cc0_transform_6 (grid0.coords ⟨4 * bb.val + 3, ht⟩) 2 * 1 + 1 * 0 = 0; rw [e2])
  exact hemb ▸ View.emb_mem_set _ _

theorem final_cnt (c : Dev nD) (bb : Fin 8) :
    ((dat m c).arrAt 6 (cfgM m).N : S8x1x1.Idx → EReal) (ix3 bb (0 : Fin 1) (0 : Fin 1))
      = Cert.Spec.acc4 (Cert.Spec.cntTile (TofM m c) (NofM m c) bb) := by
  have hb := bb.isLt
  have ht : 4 * bb.val + 3 < (cfgM m).N := by rw [show (cfgM m).N = 32 from N_0]; omega
  have hf : ((cfgM m).win 6).flush ⟨4 * bb.val + 3, ht⟩ = true := (flush6 m _).mpr (by show (4 * bb.val + 3) % 4 = 3; omega)
  exact ((dat m c).arrAt_apply_of_mem 6 (Gcnt m c) (flushed6_eq m c) (cfgM m).N ⟨4 * bb.val + 3, ht⟩ (ix3 bb (0 : Fin 1) (0 : Fin 1)) ht hf (mem6 m bb ht)).trans rfl

end Cert.KernelIdeal.Hand

end
-- ==== Proof.KIResult.lean ====
/-
  The kernel program's result is the specification's loss: the five arrays the region leaves, with their unit middle
  axis dropped, are the specification's per-(batch entry, class) sums and per-batch-entry partial sums, and summing the
  latter over the eight batch entries gives the cross-entropy numerator and the valid-pixel count.
-/
import proofs.«429240_j35107062677770_3_alg».proof.Proof.SpecArr
import proofs.«429240_j35107062677770_3_alg».proof.Proof.KIFinal
import Idealize.ShloMosaic.Lib.Pipeline.Value
import Idealize.ShloMosaic.PureOps.Ideal.Laws
import Idealize.ShloMosaic.Lib.IdealHost

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable [Cert.KernelIdeal.Facts]
variable (m : (ℓ : Loc nD τ sig) → Buf (Elt Ideal) ℓ)

/-! ## Reading the reshapes that drop the unit axes -/

/-- Dropping the unit middle axis of an [8, 1, 16] array: entry (b, q) is entry (b, 0, q). -/
theorem cast_row (a : FVec Ideal S8x1x16 .f32) (bb : Fin 8) (q : Fin 16) :
    shapeCast S8x16 a shapeCasts_S8x1x16_S8x16 (ix2 bb q) = a (ix3 bb (0 : Fin 1) q) := by
  refine shapeCast_apply a _ (ix2 bb q) (ix3 bb (0 : Fin 1) q) ?_
  rw [Shape.rowMajor_val_three, Shape.rowMajor_val_two]
  show (bb.val * 1 + 0) * 16 + q.val = bb.val * 16 + q.val
  omega

/-- Dropping the two unit axes of an [8, 1, 1] array: entry b is entry (b, 0, 0). -/
theorem cast_cell (a : FVec Ideal S8x1x1 .f32) (bb : Fin 8) :
    shapeCast S8 a shapeCasts_S8x1x1_S8 (ix1 bb) = a (ix3 bb (0 : Fin 1) (0 : Fin 1)) := by
  refine shapeCast_apply a _ (ix1 bb) (ix3 bb (0 : Fin 1) (0 : Fin 1)) ?_
  rw [Shape.rowMajor_val_three, Shape.rowMajor_val_one]
  show (bb.val * 1 + 0) * 1 + 0 = bb.val
  omega

/-- The indices of a one-axis shape are its coordinates. -/
def ix1Equiv (n : ℕ) : Fin n ≃ (⟨1, ![n]⟩ : Shape).Idx where
  toFun := ix1
  invFun j := j 0
  left_inv _ := rfl
  right_inv j := (eq_ix1 j).symm

/-- A sum over the indices of a one-axis shape is the sum over the coordinate. -/
theorem sum_idx1 {M : Type*} [AddCommMonoid M] {n : ℕ} (f : (⟨1, ![n]⟩ : Shape).Idx → M) :
    ∑ j, f j = ∑ b : Fin n, f (ix1 b) :=
  (Equiv.sum_comp (ix1Equiv n) f).symm

/-! ## The five ingredients -/

section pieces

variable (X : Cert.Spec.SX.Idx → EReal) (T : Cert.Spec.ST.Idx → BitVec 32) (N : Cert.Spec.SN.Idx → BitVec 32)

/-- An [8, 1, 16] array holding each (batch entry, class)'s four-tile running total of the overlap is, with its unit
    axis dropped, the specification's overlap array; likewise the probability mass and the label mass. -/
theorem inter_of_pieces (a : FVec Ideal S8x1x16 .f32)
    (h : ∀ (bb : Fin 8) (q : Fin 16), a (ix3 bb (0 : Fin 1) q) = Cert.Spec.acc4 (Cert.Spec.interTile X T bb q)) :
    shapeCast S8x16 a shapeCasts_S8x1x16_S8x16 = interArr X T := by
  funext k
  obtain ⟨bb, q, rfl⟩ : ∃ (bb : Fin 8) (q : Fin 16), k = ix2 bb q := ⟨k 0, k 1, eq_ix2 k⟩
  rw [cast_row, h, Cert.Spec.acc_inter]
  rfl
theorem psum_of_pieces (a : FVec Ideal S8x1x16 .f32)
    (h : ∀ (bb : Fin 8) (q : Fin 16), a (ix3 bb (0 : Fin 1) q) = Cert.Spec.acc4 (Cert.Spec.psumTile X bb q)) :
    shapeCast S8x16 a shapeCasts_S8x1x16_S8x16 = psumArr X := by
  funext k
  obtain ⟨bb, q, rfl⟩ : ∃ (bb : Fin 8) (q : Fin 16), k = ix2 bb q := ⟨k 0, k 1, eq_ix2 k⟩
  rw [cast_row, h, Cert.Spec.acc_psum]
  rfl
theorem tsum_of_pieces (a : FVec Ideal S8x1x16 .f32)
    (h : ∀ (bb : Fin 8) (q : Fin 16), a (ix3 bb (0 : Fin 1) q) = Cert.Spec.acc4 (Cert.Spec.tsumTile T bb q)) :
    shapeCast S8x16 a shapeCasts_S8x1x16_S8x16 = tsumArr T := by
  funext k
  obtain ⟨bb, q, rfl⟩ : ∃ (bb : Fin 8) (q : Fin 16), k = ix2 bb q := ⟨k 0, k 1, eq_ix2 k⟩
  rw [cast_row, h, Cert.Spec.acc_tsum]
  rfl

/-- The cross-entropy term: the two columns' sums over the eight batch entries are the numerator and the count. -/
theorem ceLoss_of_pieces (hT : ∀ k, (T k).toNat < 16) (a5 a6 : FVec Ideal S8x1x1 .f32)
    (h5 : ∀ bb : Fin 8, a5 (ix3 bb (0 : Fin 1) (0 : Fin 1)) = Cert.Spec.acc4 (Cert.Spec.ceTile X T N bb))
    (h6 : ∀ bb : Fin 8, a6 (ix3 bb (0 : Fin 1) (0 : Fin 1)) = Cert.Spec.acc4 (Cert.Spec.cntTile T N bb)) :
    ceLossK (F := Ideal) (shapeCast S8 a5 shapeCasts_S8x1x1_S8) (shapeCast S8 a6 shapeCasts_S8x1x1_S8) = ceLossSpec X T N := by
  funext j
  unfold ceLossK ceLossSpec
  dsimp only
  rw [hostDivf_apply, addf_apply, hostReduceAdd_apply, hostReduceAdd_apply, constant_apply, constant_apply,
    Ideal.hostReduceAdd_total _ (fun b => b.elim0), Ideal.hostReduceAdd_total _ (fun b => b.elim0),
    Ideal.ofBits_zero_f32, Ideal.ofBits_one_f32, zero_add, zero_add, sum_idx1, sum_idx1]
  simp only [cast_cell, h5, h6]
  rw [Cert.Spec.acc_ce X T N hT, Cert.Spec.acc_cnt T N]

/-- The kernel program's result from five arrays that hold the four-tile running totals is the specification's loss:
    the shared tail is applied to equal ingredients. -/
theorem result_of_pieces (hT : ∀ k, (T k).toNat < 16) (a2 a3 a4 : FVec Ideal S8x1x16 .f32) (a5 a6 : FVec Ideal S8x1x1 .f32)
    (h2 : ∀ (bb : Fin 8) (q : Fin 16), a2 (ix3 bb (0 : Fin 1) q) = Cert.Spec.acc4 (Cert.Spec.interTile X T bb q))
    (h3 : ∀ (bb : Fin 8) (q : Fin 16), a3 (ix3 bb (0 : Fin 1) q) = Cert.Spec.acc4 (Cert.Spec.psumTile X bb q))
    (h4 : ∀ (bb : Fin 8) (q : Fin 16), a4 (ix3 bb (0 : Fin 1) q) = Cert.Spec.acc4 (Cert.Spec.tsumTile T bb q))
    (h5 : ∀ bb : Fin 8, a5 (ix3 bb (0 : Fin 1) (0 : Fin 1)) = Cert.Spec.acc4 (Cert.Spec.ceTile X T N bb))
    (h6 : ∀ bb : Fin 8, a6 (ix3 bb (0 : Fin 1) (0 : Fin 1)) = Cert.Spec.acc4 (Cert.Spec.cntTile T N bb)) :
    kernelResult (F := Ideal) a2 a3 a4 a5 a6 N = specResult X T N := by
  unfold kernelResult specResult
  rw [inter_of_pieces X T a2 h2, psum_of_pieces X a3 h3, tsum_of_pieces T a4 h4, ceLoss_of_pieces X T N hT a5 a6 h5 h6]

end pieces

/-- Under the label range the kernel program's result is the specification's loss. -/
theorem kernel_value (c : Dev nD) (hT : ∀ k, ((TofM m c) k).toNat < 16) :
    kernelResult (F := Ideal) ((dat m c).arrAt 2 (cfgM m).N) ((dat m c).arrAt 3 (cfgM m).N) ((dat m c).arrAt 4 (cfgM m).N)
        ((dat m c).arrAt 5 (cfgM m).N) ((dat m c).arrAt 6 (cfgM m).N) (NofM m c)
      = specResult (XofM m c) (TofM m c) (NofM m c) := by
  exact result_of_pieces (XofM m c) (TofM m c) (NofM m c) hT
    ((dat m c).arrAt 2 (cfgM m).N) ((dat m c).arrAt 3 (cfgM m).N) ((dat m c).arrAt 4 (cfgM m).N)
    ((dat m c).arrAt 5 (cfgM m).N) ((dat m c).arrAt 6 (cfgM m).N)
    (final_inter m c) (final_psum m c) (final_tsum m c) (final_ce m c) (final_cnt m c)

end Cert.KernelIdeal.Hand

end
-- ==== Proof.RefSoftmax.lean ====
/-
  The reference's softmax and its clipped logarithm, read at an element, at the exact instance: they are the specification's.
-/
import proofs.«429240_j35107062677770_3_alg».proof.Proof.RefRead
import proofs.«429240_j35107062677770_3_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.RefValue

open Cert.ReferenceIdeal Cert.ReferenceIdeal.ReadP Cert.ReferenceIdeal.Gen
open Idealize.ShloMosaic Idealize.ShloMosaic.ValueIdx

variable [Cert.ReferenceIdeal.Facts]

variable (X : FVec Ideal S8x16x512x512 .f32)

/-- The word of −∞ reads the bottom element. -/
theorem ofBits_neg_inf : Ideal.ofBits .f32 0xFF800000#32 = (⊥ : EReal) := by
  simp [Ideal.ofBits, Ideal.ieee]

/-- The running maximum over the class axis, started from −∞ and then joined once more with −∞, is the
    fold of `max` over the sixteen classes. -/
theorem ref_mx (b : Fin 8) (i j : Fin 512) :
    val_main_v2 (F := Ideal) X (ix3 b i j) = Cert.Spec.mx X b i j := by
  rw [val_main_v2_apply, val_main_v1_apply, val_main_cst_0_apply]
  unfold val_main_v0
  rw [Host.reduce_eq_fold_single (FloatOps.maximumf) X _ reducesTo_S8x16x512x512_S8x512x512_d1 (by decide) h_S_]
  rw [val_main_cst_apply]
  simp only [Ideal.ofBits_def, ofBits_neg_inf, Ideal.maximumf_def]
  rw [max_eq_right bot_le]
  unfold Cert.Spec.mx
  refine congrArg (fun f => Finset.fold max ⊥ f (Finset.univ : Finset (Fin 16))) (funext fun q => congrArg X (funext fun a => ?_))
  match a with
  | ⟨0, _⟩ => rfl
  | ⟨1, _⟩ => rfl
  | ⟨2, _⟩ => rfl
  | ⟨3, _⟩ => rfl

/-- The two broadcasts back to the full shape read the per-pixel array at the pixel. -/
theorem idx_v3_v4 (b : Fin 8) (q : Fin 16) (i j : Fin 512) :
    idx_main_v3 (idx_main_v4 (ix4 b q i j)) = ix3 b i j := by
  funext a
  match a with
  | ⟨0, _⟩ => rfl
  | ⟨1, _⟩ => rfl
  | ⟨2, _⟩ => rfl

theorem idx_v8_v9 (b : Fin 8) (q : Fin 16) (i j : Fin 512) :
    idx_main_v8 (idx_main_v9 (ix4 b q i j)) = ix3 b i j := by
  funext a
  match a with
  | ⟨0, _⟩ => rfl
  | ⟨1, _⟩ => rfl
  | ⟨2, _⟩ => rfl

/-- The shifted exponential at (b, q, i, j). -/
theorem ref_ex (b : Fin 8) (q : Fin 16) (i j : Fin 512) :
    val_main_v6 (F := Ideal) X (ix4 b q i j) = Cert.Spec.ex X b q i j := by
  rw [val_main_v6_apply, val_main_v5_apply, val_main_v4_apply, val_main_v3_apply, idx_v3_v4, ref_mx]
  rfl

/-- The sum of the shifted exponentials over the classes, from the initial value zero. -/
theorem ref_den (b : Fin 8) (i j : Fin 512) :
    val_main_v7 (F := Ideal) X (ix3 b i j) = Cert.Spec.den X b i j := by
  rw [val_main_v7_apply, val_main_cst_1_apply]
  simp only [Ideal.ofBits_def, Ideal.ofBits_zero_f32, zero_add]
  unfold Cert.Spec.den
  refine Finset.sum_congr rfl fun k _ => ?_
  have hk : idx_main_v7 (ix3 b i j) k = ix4 b k i j := by
    funext a
    match a with
    | ⟨0, _⟩ => rfl
    | ⟨1, _⟩ => rfl
    | ⟨2, _⟩ => rfl
    | ⟨3, _⟩ => rfl
  rw [hk, ref_ex]

/-- The reference's softmax at (b, q, i, j). -/
theorem ref_prob (b : Fin 8) (q : Fin 16) (i j : Fin 512) :
    val_main_v10 (F := Ideal) X (ix4 b q i j) = Cert.Spec.prob X b q i j := by
  rw [val_main_v10_apply, val_main_v9_apply, val_main_v8_apply, idx_v8_v9, ref_ex, ref_den]
  rfl

/-- The reference's clipped logarithm of the softmax at (b, q, i, j). -/
theorem ref_logp (b : Fin 8) (q : Fin 16) (i j : Fin 512) :
    val_main_v14 (F := Ideal) X (ix4 b q i j) = Cert.Spec.logp X b q i j := by
  rw [val_main_v14_apply, val_main_call0_v4_apply, val_main_call0_v3_apply, val_main_cst_4_apply,
    val_main_call0_v2_apply, val_main_call0_v1_apply, val_main_call0_v0_apply, val_main_cst_3_apply,
    val_main_v13_apply, val_main_v12_apply, val_main_v11_apply, val_main_cst_2_apply, ref_prob]
  rfl

end Cert.RefValue

end
-- ==== Proof.RefCE.lean ====
/-
  The reference's cross-entropy term is the specification's: the gather at the label reads the label's own class when every label is a class index, the sum over every pixel of the masked values is the specification's sum, and the 32-bit count of valid pixels plus one, read as a float, is the count plus one (there are at most 2^21 pixels).
-/
import proofs.«429240_j35107062677770_3_alg».proof.Proof.RefSoftmax
import proofs.«429240_j35107062677770_3_alg».proof.Proof.SpecArr
import Idealize.ShloMosaic.Lib.StableHlo.Predicate
import Idealize.ShloMosaic.Lib.ValueIdx
import Idealize.ShloMosaic.Lib.Pipeline.Value
import Idealize.ShloMosaic.PureOps.Ideal.Laws

set_option maxRecDepth 16384

noncomputable section

open scoped BigOperators

namespace Cert.RefValue

open Cert.ReferenceIdeal Cert.ReferenceIdeal.ReadP
open Idealize.ShloMosaic Idealize.ShloMosaic.ValueIdx

variable [Cert.ReferenceIdeal.Facts]

variable [Cert.KernelIdeal.Facts]
variable (X : FVec Ideal S8x16x512x512 .f32) (T : IVec S8x512x512 32) (N : IVec S8 32)

namespace CE

/-! ## The gather at the label -/

abbrev gd := gather_S8x16x512x512_S8x1x512x512x1_S8x1x512x512_n_1_023_023_1_4_1111

/-- The gather read at `(b, 0, i, j)`: the operand at `(b, q, i, j)`, `q` the start index at `(b, 0, i, j, 0)` read signed and clamped into `[0, 15]`. -/
theorem gather_at {α : Type} (x : S8x16x512x512.Idx → α) (idx : IVec S8x1x512x512x1 32) (b : Fin 8) (i j : Fin 512)
    (q : Fin 16) (hq : q.val = min (idx (ix5 b (0 : Fin 1) i j (0 : Fin 1))).toInt.toNat 15) :
    Host.gather gd x idx (ix4 b (0 : Fin 1) i j) = x (ix4 b q i j) := by
  unfold Host.gather
  congr 1
  funext a
  refine Fin.ext ?_
  show gd.start (ix4 b (0 : Fin 1) i j) idx a + gd.batchCoord (ix4 b (0 : Fin 1) i j) a + gd.offCoord (ix4 b (0 : Fin 1) i j) a = _
  match a with
  | ⟨0, _⟩ =>
    have hb : (⟨0, by decide⟩ : Fin 4) ∈ gd.operandBatchingDims := by decide
    rw [GatherDims.start_batching _ _ _ _ hb,
      GatherDims.offCoord_eq_zero _ _ _ (fun h => ((GatherDims.mem_sKept _ _).mp h).2 hb)]
    simp only [Nat.add_zero, Nat.zero_add]
    unfold GatherDims.batchCoord
    rw [dif_pos hb]
    rfl
  | ⟨1, _⟩ =>
    have hb : (⟨1, by decide⟩ : Fin 4) ∉ gd.operandBatchingDims := by decide
    have hc : (⟨1, by decide⟩ : Fin 4) ∈ gd.collapsedSliceDims := by decide
    rw [GatherDims.batchCoord_eq_zero _ _ _ hb,
      GatherDims.offCoord_eq_zero _ _ _ (fun h => ((GatherDims.mem_sKept _ _).mp h).1 hc)]
    simp only [Nat.add_zero]
    unfold GatherDims.start
    have hm : (⟨1, by decide⟩ : Fin 4) ∈ gd.startIndexMap := by decide
    rw [dif_pos hm]
    have hsi : gd.siIdx (ix4 b (0 : Fin 1) i j) ⟨List.idxOf (⟨1, by decide⟩ : Fin 4) gd.startIndexMap,
        List.idxOf_lt_length_iff.2 hm⟩ = ix5 b (0 : Fin 1) i j (0 : Fin 1) := by
      funext c; refine Fin.ext ?_
      match c with
      | ⟨0, _⟩ => rfl
      | ⟨1, _⟩ => rfl
      | ⟨2, _⟩ => rfl
      | ⟨3, _⟩ => rfl
      | ⟨4, _⟩ => rfl
    rw [hsi]
    exact hq.symm
  | ⟨2, _⟩ =>
    have hb : (⟨2, by decide⟩ : Fin 4) ∈ gd.operandBatchingDims := by decide
    rw [GatherDims.start_batching _ _ _ _ hb,
      GatherDims.offCoord_eq_zero _ _ _ (fun h => ((GatherDims.mem_sKept _ _).mp h).2 hb)]
    simp only [Nat.add_zero, Nat.zero_add]
    unfold GatherDims.batchCoord
    rw [dif_pos hb]
    rfl
  | ⟨3, _⟩ =>
    have hb : (⟨3, by decide⟩ : Fin 4) ∈ gd.operandBatchingDims := by decide
    rw [GatherDims.start_batching _ _ _ _ hb,
      GatherDims.offCoord_eq_zero _ _ _ (fun h => ((GatherDims.mem_sKept _ _).mp h).2 hb)]
    simp only [Nat.add_zero, Nat.zero_add]
    unfold GatherDims.batchCoord
    rw [dif_pos hb]
    rfl

/-- A label that is a class index is not negative, so the normalised index is the label. -/
theorem v4_eq (hT : ∀ k, (T k).toNat < 16) (i4 : S8x1x512x512.Idx) :
    val_main_call1_v4 (F := Ideal) T i4 = T (idx_main_v15 i4) := by
  rw [val_main_call1_v4_apply, val_main_call1_v1_apply, val_main_v15_apply, val_main_call1_v0_apply, val_main_call1_c_apply]
  have h := hT (idx_main_v15 i4)
  have h0 : IntOp.cmpi .slt (T (idx_main_v15 i4)) 0#32 = 0#1 := by
    apply eq_zero_of_ne_one
    intro h1
    have h2 := (StableHlo.Predicate.slt_iff_toNat (by omega) (by decide)).1 h1
    exact absurd h2 (by simp)
  rw [h0, select_zero]

/-- Every element of the in-bounds mask is set: a class index is between 0 and 15. -/
theorem v11_eq_one (hT : ∀ k, (T k).toNat < 16) (i5 : S8x1x512x512x1.Idx) :
    val_main_call1_v11 (F := Ideal) T i5 = 1#1 := by
  rw [val_main_call1_v11_apply, val_main_call1_v7_apply, val_main_call1_v10_apply, val_main_call1_v5_apply, v4_eq T hT,
    val_main_call1_v6_apply, val_main_call1_c_2_apply, val_main_call1_v9_apply, val_main_call1_v8_apply, val_main_call1_c_1_apply]
  have h := hT (idx_main_v15 (idx_main_call1_v5 i5))
  rw [IntOp.andi_eq_one]
  refine ⟨(StableHlo.Predicate.sge_iff_toNat (by omega) (by decide)).2 ?_, (StableHlo.Predicate.sle_iff_toNat (by omega) (by decide)).2 ?_⟩
  · simp
  · have : (15#32 : BitVec 32).toNat = 15 := rfl
    omega

/-- So its conjunction over the trailing unit axis is set. -/
theorem v12_eq_one (hT : ∀ k, (T k).toNat < 16) (i4 : S8x1x512x512.Idx) :
    val_main_call1_v12 (F := Ideal) T i4 = 1#1 := by
  unfold val_main_call1_v12
  rw [Host.reduce_eq_foldl]
  have hl : ∀ (l : List S8x1x512x512x1.Idx),
      l.foldl (fun r i => IntOp.andi r (val_main_call1_v11 (F := Ideal) T i)) 1#1 = 1#1 := by
    intro l
    induction l with
    | nil => rfl
    | cons a l ih => rw [List.foldl_cons, v11_eq_one T hT a]; exact ih
  exact hl _

/-- THE GATHER: under the labels' bound the gathered value at `(b, 0, i, j)` is the clipped log-probability at the label's class. -/
theorem ref_gather (hT : ∀ k, (T k).toNat < 16) (b : Fin 8) (i j : Fin 512) :
    val_main_v16 (F := Ideal) X T (ix4 b (0 : Fin 1) i j)
      = val_main_v14 (F := Ideal) X (ix4 b (Cert.Spec.cls (T (ix3 b i j))) i j) := by
  rw [val_main_v16_apply, v12_eq_one T hT, select_one]
  unfold val_main_call1_v13
  refine gather_at _ _ b i j _ ?_
  rw [val_main_call1_v5_apply, v4_eq T hT]
  have hk : idx_main_v15 (idx_main_call1_v5 (ix5 b (0 : Fin 1) i j (0 : Fin 1))) = ix3 b i j := by
    have hb := b.isLt; have hi := i.isLt; have hj := j.isLt
    funext a
    match a with
    | ⟨0, _⟩ =>
      refine Fin.ext ?_
      show ((((b.val * 1 + (0 : Fin 1).val) * 512 + i.val) * 512 + j.val) * 1 + (0 : Fin 1).val) / 262144 = b.val
      simp only [Fin.val_zero]; omega
    | ⟨1, _⟩ =>
      refine Fin.ext ?_
      show ((((b.val * 1 + (0 : Fin 1).val) * 512 + i.val) * 512 + j.val) * 1 + (0 : Fin 1).val) / 512 % 512 = i.val
      simp only [Fin.val_zero]; omega
    | ⟨2, _⟩ =>
      refine Fin.ext ?_
      show ((((b.val * 1 + (0 : Fin 1).val) * 512 + i.val) * 512 + j.val) * 1 + (0 : Fin 1).val) % 512 = j.val
      simp only [Fin.val_zero]; omega
  rw [hk]
  have h := hT (ix3 b i j)
  rw [StableHlo.Predicate.toInt_eq_toNat_of_lt (by omega), Int.toNat_natCast]
  show (T (ix3 b i j)).toNat % 16 = _
  omega

/-! ## The valid bit -/

/-- The mask at a pixel is set exactly when the pixel is valid. -/
theorem v24_iff (b : Fin 8) (i j : Fin 512) :
    val_main_v24 (F := Ideal) T N (ix3 b i j) = 1#1 ↔ Cert.Spec.valid T N b i j := by
  rw [val_main_v24_apply, val_main_v21_apply, val_main_v23_apply, val_main_v20_apply, val_main_c_apply, val_main_v22_apply,
    val_main_v19_apply]
  have hk : idx_main_v19 (idx_main_v22 (ix3 b i j)) = ix1 b := by
    funext a
    match a with
    | ⟨0, _⟩ => rfl
  rw [hk, IntOp.andi_eq_one]
  unfold Cert.Spec.valid IntOp.cmpi
  simp only [StableHlo.Predicate.ofBool_eq_one_iff]

/-! ## A sum over a rank-3 index set is the triple sum over the coordinates -/

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The masked sum -/

/-- The summand at a pixel: minus the clipped log-probability at the label's class on a valid pixel, zero elsewhere. -/
theorem v27_at (hT : ∀ k, (T k).toNat < 16) (b : Fin 8) (i j : Fin 512) :
    val_main_v27 (F := Ideal) X T N (ix3 b i j)
      = if Cert.Spec.valid T N b i j then -(Cert.Spec.logp X b (Cert.Spec.cls (T (ix3 b i j))) i j) else 0 := by
  rw [val_main_v27_apply]
  by_cases hv : Cert.Spec.valid T N b i j
  · rw [if_pos hv, (v24_iff T N b i j).2 hv, select_one, val_main_v18_apply, val_main_v17_apply]
    have hk : idx_main_v17 (ix3 b i j) = ix4 b (0 : Fin 1) i j := by
      have hb := b.isLt; have hi := i.isLt; have hj := j.isLt
      funext a
      match a with
      | ⟨0, _⟩ =>
        refine Fin.ext ?_
        show ((b.val * 512 + i.val) * 512 + j.val) / 262144 = b.val
        omega
      | ⟨1, _⟩ => rfl
      | ⟨2, _⟩ =>
        refine Fin.ext ?_
        show ((b.val * 512 + i.val) * 512 + j.val) / 512 % 512 = i.val
        omega
      | ⟨3, _⟩ =>
        refine Fin.ext ?_
        show ((b.val * 512 + i.val) * 512 + j.val) % 512 = j.val
        omega
    rw [hk, ref_gather X T hT, ref_logp]
    rfl
  · have h0 : val_main_v24 (F := Ideal) T N (ix3 b i j) = 0#1 :=
      eq_zero_of_ne_one (fun h => hv ((v24_iff T N b i j).1 h))
    rw [if_neg hv, h0, select_zero, val_main_call2_v1_apply, val_main_call2_v0_apply, val_main_cst_6_apply]
    exact Ideal.ofBits_zero_f32

/-- The numerator: the sum over every pixel of the masked values is the specification's. -/
theorem sum_eq (hT : ∀ k, (T k).toNat < 16) (i0 : S_.Idx) :
    val_main_v28 (F := Ideal) X T N i0 = Cert.Spec.ceSum X T N := by
  rw [val_main_v28_apply, val_main_cst_7_apply, sum_idx3]
  unfold Cert.Spec.ceSum
  rw [show (FloatOps.ofBits .f32 0x00000000#32 : Ideal .f32) = (0 : EReal) from Ideal.ofBits_zero_f32, zero_add]
  refine Finset.sum_congr rfl fun b _ => Finset.sum_congr rfl fun i _ => Finset.sum_congr rfl fun j _ => ?_
  exact v27_at X T N hT b i j

/-! ## The count -/

/-- The widened mask bits add up to the number of valid pixels. -/
theorem sum_v25 : ∑ k : S8x512x512.Idx, (val_main_v25 (F := Ideal) T N k).toNat = Cert.Spec.count T N := by
  rw [sum_idx3]
  unfold Cert.Spec.count
  refine Finset.sum_congr rfl fun b _ => Finset.sum_congr rfl fun i _ => Finset.sum_congr rfl fun j _ => ?_
  rw [val_main_v25_apply, StableHlo.Predicate.toNat_setWidth_bit]
  by_cases hv : Cert.Spec.valid T N b i j
  · rw [if_pos hv, if_pos ((v24_iff T N b i j).2 hv)]
  · rw [if_neg hv, if_neg (fun h => hv ((v24_iff T N b i j).1 h))]

/-- The 32-bit count does not wrap: there are at most 2²¹ pixels. -/
theorem v26_toNat (i0 : S_.Idx) : (val_main_v26 (F := Ideal) T N i0).toNat = Cert.Spec.count T N := by
  unfold val_main_v26
  rw [Host.reduce_eq_fold]
  rw [Finset.filter_true_of_mem fun i _ => funext fun b => b.elim0]
  have hle := Cert.Spec.count_le T N
  have hs := sum_v25 T N
  show (Finset.fold IntOp.addi 0#32 (val_main_v25 (F := Ideal) T N) Finset.univ).toNat = _
  rw [StableHlo.Predicate.toNat_fold_addi _ _ (by rw [hs]; omega), hs]

/-- The denominator: the count plus one, read as a float, is the count plus one. -/
theorem den_eq (i0 : S_.Idx) :
    val_main_v30 (F := Ideal) T N i0 = (((Cert.Spec.count T N : ℕ) : ℝ) : EReal) + 1 := by
  rw [val_main_v30_apply, val_main_v29_apply, val_main_c_8_apply]
  have hle := Cert.Spec.count_le T N
  have hn : (IntOp.addi (val_main_v26 (F := Ideal) T N i0) 1#32).toNat = Cert.Spec.count T N + 1 := by
    show (val_main_v26 (F := Ideal) T N i0 + 1#32).toNat = _
    rw [BitVec.toNat_add, v26_toNat T N i0]
    show (Cert.Spec.count T N + 1) % 2 ^ 32 = _
    omega
  have hi : (IntOp.addi (val_main_v26 (F := Ideal) T N i0) 1#32).toInt = ((Cert.Spec.count T N + 1 : ℕ) : ℤ) := by
    rw [StableHlo.Predicate.toInt_eq_toNat_of_lt (by rw [hn]; omega), hn]
  show (((IntOp.addi (val_main_v26 (F := Ideal) T N i0) 1#32).toInt : ℝ) : EReal) = _
  rw [hi]
  push_cast
  rfl

end CE

/-! ## The cross-entropy term -/

theorem ref_ce (hT : ∀ k, (T k).toNat < 16) :
    val_main_v31 (F := Ideal) X T N = Cert.KernelIdeal.Hand.ceLossSpec X T N := by
  funext i0
  rw [val_main_v31_apply, CE.sum_eq X T N hT, CE.den_eq T N]
  rfl

end Cert.RefValue

end
-- ==== Proof.RefDice.lean ====
/-
  The reference's three per-(batch entry, class) sums over the pixels are the specification's: a host sum over the two pixel axes is the double sum over rows and columns.
-/
import proofs.«429240_j35107062677770_3_alg».proof.Proof.RefSoftmax
import proofs.«429240_j35107062677770_3_alg».proof.Proof.SpecArr
import Idealize.ShloMosaic.Lib.ValueIdx
import Idealize.ShloMosaic.Lib.Pipeline.Value
import Idealize.ShloMosaic.PureOps.Ideal.Laws
import Idealize.ShloMosaic.Lib.StableHlo.Predicate

set_option maxRecDepth 16384

noncomputable section

open scoped BigOperators

namespace Cert.RefValue

open Cert.ReferenceIdeal Cert.ReferenceIdeal.ReadP Cert.ReferenceIdeal.Gen
open Idealize.ShloMosaic Idealize.ShloMosaic.ValueIdx

variable [Cert.ReferenceIdeal.Facts]

variable [Cert.KernelIdeal.Facts]
variable (X : FVec Ideal S8x16x512x512 .f32) (T : IVec S8x512x512 32)

/-- A source index drops to (b, q) over the two pixel axes exactly when its first two coordinates are b and q. -/
theorem drop_pixels_iff (h' : (⟨4, ![8, 16, 512, 512]⟩ : Shape).ReducesTo [2, 3] ⟨2, ![8, 16]⟩)
    (idx : (⟨4, ![8, 16, 512, 512]⟩ : Shape).Idx) (b : Fin 8) (q : Fin 16) :
    h'.drop idx = ix2 b q ↔ idx 0 = b ∧ idx 1 = q := by
  have hv0 : (h'.drop idx 0 : Nat) = idx 0 := h'.drop_apply_val_of_eq idx 0 0
  have hv1 : (h'.drop idx 1 : Nat) = idx 1 := h'.drop_apply_val_of_eq idx 1 1
  constructor
  · intro e
    rw [e] at hv0 hv1
    exact ⟨Fin.ext hv0.symm, Fin.ext hv1.symm⟩
  · rintro ⟨e0, e1⟩
    funext a
    match a with
    | ⟨0, _⟩ => exact Fin.ext (hv0.trans (congrArg Fin.val e0))
    | ⟨1, _⟩ => exact Fin.ext (hv1.trans (congrArg Fin.val e1))

/-- A host sum over the two pixel axes, read at (b, q): the initial value plus the double sum over rows and
    columns.  The source indices that drop to (b, q) are exactly the (b, q, i, j), one for each pixel. -/
theorem hostSum_pixels (h' : (⟨4, ![8, 16, 512, 512]⟩ : Shape).ReducesTo [2, 3] ⟨2, ![8, 16]⟩)
    (x : (⟨4, ![8, 16, 512, 512]⟩ : Shape).Idx → EReal) (init : EReal) (b : Fin 8) (q : Fin 16) :
    Ideal.hostReduceAdd h' x init (ix2 b q) = init + ∑ i : Fin 512, ∑ j : Fin 512, x (ix4 b q i j) := by
  unfold Ideal.hostReduceAdd
  refine congrArg (init + ·) ?_
  refine Eq.trans ?_ (Fintype.sum_prod_type (fun p : Fin 512 × Fin 512 => x (ix4 b q p.1 p.2)))
  have hback : ∀ idx : (⟨4, ![8, 16, 512, 512]⟩ : Shape).Idx, idx 0 = b ∧ idx 1 = q →
      (ix4 b q (idx 2) (idx 3) : (⟨4, ![8, 16, 512, 512]⟩ : Shape).Idx) = idx := by
    rintro idx ⟨e0, e1⟩
    funext a
    match a with
    | ⟨0, _⟩ => exact e0.symm
    | ⟨1, _⟩ => exact e1.symm
    | ⟨2, _⟩ => rfl
    | ⟨3, _⟩ => rfl
  refine Finset.sum_bij' (fun idx _ => ((idx 2, idx 3) : Fin 512 × Fin 512)) (fun p _ => ix4 b q p.1 p.2)
    (fun _ _ => Finset.mem_univ _)
    (fun p _ => Finset.mem_filter.2 ⟨Finset.mem_univ _, (drop_pixels_iff h' _ b q).2 ⟨rfl, rfl⟩⟩)
    (fun idx hi => hback idx ((drop_pixels_iff h' idx b q).1 (Finset.mem_filter.1 hi).2))
    (fun _ _ => rfl) ?_
  intro idx hi
  exact (congrArg x (hback idx ((drop_pixels_iff h' idx b q).1 (Finset.mem_filter.1 hi).2))).symm

/-- The one-hot of the label: the comparison's bit, read as a number, is 1 where the label is the class and 0 elsewhere. -/
theorem ref_hot (b : Fin 8) (q : Fin 16) (i j : Fin 512) :
    val_main_v38 (F := Ideal) T (ix4 b q i j) = Cert.Spec.hot T b q i j := by
  rw [val_main_v38_apply, val_main_v37_apply, val_main_v35_apply, val_main_v32_apply, val_main_v36_apply,
    val_main_v34_apply, val_main_v33_apply]
  have h1 : idx_main_v32 (idx_main_v35 (ix4 b q i j)) = ix3 b i j := by
    funext a
    match a with
    | ⟨0, _⟩ => rfl
    | ⟨1, _⟩ => rfl
    | ⟨2, _⟩ => rfl
  rw [h1]
  show (((IntOp.cmpi .eq (T (ix3 b i j)) (BitVec.ofNat 32 q.val)).toNat : ℝ) : EReal)
    = if T (ix3 b i j) = BitVec.ofNat 32 q.val then 1 else 0
  by_cases h : T (ix3 b i j) = BitVec.ofNat 32 q.val
  · rw [if_pos h, StableHlo.Predicate.cmpi_eq_iff.2 h]
    simp
  · have h0 : IntOp.cmpi .eq (T (ix3 b i j)) (BitVec.ofNat 32 q.val) = 0#1 :=
      eq_zero_of_ne_one (fun e => h (StableHlo.Predicate.cmpi_eq_iff.1 e))
    rw [if_neg h, h0]
    simp

theorem ref_inter : val_main_v40 (F := Ideal) X T = Cert.KernelIdeal.Hand.interArr X T := by
  funext k
  obtain ⟨b, q, rfl⟩ : ∃ (b : Fin 8) (q : Fin 16), k = ix2 b q := ⟨k 0, k 1, eq_ix2 k⟩
  unfold val_main_v40
  simp only [Host.reduceAdd, Ideal.hostReduceAdd_def]
  rw [hostSum_pixels, val_main_cst_9_apply]
  simp only [Ideal.ofBits_def, Ideal.ofBits_zero_f32, zero_add]
  show _ = Cert.Spec.inter X T b q
  unfold Cert.Spec.inter
  refine Finset.sum_congr rfl fun i _ => Finset.sum_congr rfl fun j _ => ?_
  rw [val_main_v39_apply, ref_prob, ref_hot]
  rfl
theorem ref_psum : val_main_v41 (F := Ideal) X = Cert.KernelIdeal.Hand.psumArr X := by
  funext k
  obtain ⟨b, q, rfl⟩ : ∃ (b : Fin 8) (q : Fin 16), k = ix2 b q := ⟨k 0, k 1, eq_ix2 k⟩
  unfold val_main_v41
  simp only [Host.reduceAdd, Ideal.hostReduceAdd_def]
  rw [hostSum_pixels, val_main_cst_10_apply]
  simp only [Ideal.ofBits_def, Ideal.ofBits_zero_f32, zero_add]
  show _ = Cert.Spec.psum X b q
  unfold Cert.Spec.psum
  refine Finset.sum_congr rfl fun i _ => Finset.sum_congr rfl fun j _ => ?_
  rw [ref_prob]
theorem ref_tsum : val_main_v42 (F := Ideal) T = Cert.KernelIdeal.Hand.tsumArr T := by
  funext k
  obtain ⟨b, q, rfl⟩ : ∃ (b : Fin 8) (q : Fin 16), k = ix2 b q := ⟨k 0, k 1, eq_ix2 k⟩
  unfold val_main_v42
  simp only [Host.reduceAdd, Ideal.hostReduceAdd_def]
  rw [hostSum_pixels, val_main_cst_11_apply]
  simp only [Ideal.ofBits_def, Ideal.ofBits_zero_f32, zero_add]
  show _ = Cert.Spec.tsum T b q
  unfold Cert.Spec.tsum
  refine Finset.sum_congr rfl fun i _ => Finset.sum_congr rfl fun j _ => ?_
  rw [ref_hot]

end Cert.RefValue

end
-- ==== Proof.RefValue.lean ====
/-
  The reference's result is the specification's loss: its last operations are the shared tail applied to its five ingredients.
-/
import proofs.«429240_j35107062677770_3_alg».proof.Proof.RefCE
import proofs.«429240_j35107062677770_3_alg».proof.Proof.RefDice
import Idealize.ShloMosaic.Lib.ValueIdx
import Idealize.ShloMosaic.Lib.Pipeline.Value
import Idealize.ShloMosaic.PureOps.Ideal.Laws

set_option maxRecDepth 16384

noncomputable section

open scoped BigOperators

namespace Cert.RefValue

open Cert.ReferenceIdeal Cert.ReferenceIdeal.ReadP
open Idealize.ShloMosaic Idealize.ShloMosaic.ValueIdx

variable [Cert.ReferenceIdeal.Facts]

variable [Cert.KernelIdeal.Facts]
variable (X : FVec Ideal S8x16x512x512 .f32) (T : IVec S8x512x512 32) (N : IVec S8 32)

/-- The reference's result as the shared tail of its own stages. -/
theorem ref_tail :
    val_main_v71 (F := Ideal) X T N
      = Cert.KernelIdeal.Hand.diceTail (F := Ideal) (val_main_v40 (F := Ideal) X T) (val_main_v41 (F := Ideal) X) (val_main_v42 (F := Ideal) T)
          (val_main_v31 (F := Ideal) X T N) N := by
  unfold Cert.KernelIdeal.Hand.diceTail
  simp only [val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_cst_12, val_main_cst_13, val_main_cst_14, val_main_cst_15, val_main_c_16, val_main_cst_17, val_main_cst_18, val_main_cst_19, val_main_cst_20, val_main_cst_21, val_main_cst_22, val_main_call3_v0, val_main_call3_v1]

theorem ref_value (hT : ∀ k, (T k).toNat < 16) :
    val_main_v71 (F := Ideal) X T N = Cert.KernelIdeal.Hand.specResult X T N := by
  rw [ref_tail, ref_inter, ref_psum, ref_tsum, ref_ce X T N hT]
  rfl

end Cert.RefValue

end
-- ==== Proof.RefChunks.lean ====
/-
  The reference's 127 host operations cut into five stretches (the softmax and its clipped logarithm; the gather at the
  label, its reshape and negation; the validity mask, the valid-pixel count, the masked sum and their quotient; the
  one-hot and the three per-class sums; the shared tail), so that the program's result can be read stretch by stretch:
  each stretch's value is stated over an arbitrary valuation of the buffers, given only what the buffers it reads hold.
-/
import proofs.«429240_j35107062677770_3_alg».proof.Proof.RefRead

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- Operations 1–26: the softmax over the classes and its clipped logarithm. -/
abbrev opsA : List (HloOp τ sig (Elt F)) :=
  [ nullary main_cst (constant S_ .f32 0xFF800000#32),
    binary main_arg0 main_cst main_v0 ((fun x v => Host.reduce FloatOps.maximumf x v reducesTo_S8x16x512x512_S8x512x512_d1 h_S_) : (⟨S8x16x512x512, .f32⟩ : BufTy).Contents (Elt F) → (⟨S_, .f32⟩ : BufTy).Contents (Elt F) → (⟨S8x512x512, .f32⟩ : BufTy).Contents (Elt F)),
    nullary main_cst_0 (constant S_ .f32 0xFF800000#32),
    unary main_cst_0 main_v1 (broadcastInDim S8x512x512 ![] bcast_S_S8x512x512 : (⟨S_, .f32⟩ : BufTy).Contents (Elt F) → (⟨S8x512x512, .f32⟩ : BufTy).Contents (Elt F)),
    binary main_v1 main_v0 main_v2 (maximumf : (⟨S8x512x512, .f32⟩ : BufTy).Contents (Elt F) → (⟨S8x512x512, .f32⟩ : BufTy).Contents (Elt F) → (⟨S8x512x512, .f32⟩ : BufTy).Contents (Elt F)),
    unary main_v2 main_v3 (broadcastInDim S8x1x512x512 ![0, 2, 3] bcast_S8x512x512_S8x1x512x512_0_2_3 : (⟨S8x512x512, .f32⟩ : BufTy).Contents (Elt F) → (⟨S8x1x512x512, .f32⟩ : BufTy).Contents (Elt F)),
    unary main_v3 main_v4 (broadcastInDim S8x16x512x512 ![0, 1, 2, 3] bcast_S8x1x512x512_S8x16x512x512_0_1_2_3 : (⟨S8x1x512x512, .f32⟩ : BufTy).Contents (Elt F) → (⟨S8x16x512x512, .f32⟩ : BufTy).Contents (Elt F)),
    binary main_arg0 main_v4 main_v5 (subf : (⟨S8x16x512x512, .f32⟩ : BufTy).Contents (Elt F) → (⟨S8x16x512x512, .f32⟩ : BufTy).Contents (Elt F) → (⟨S8x16x512x512, .f32⟩ : BufTy).Contents (Elt F)),
    unary main_v5 main_v6 (Host.exp : (⟨S8x16x512x512, .f32⟩ : BufTy).Contents (Elt F) → (⟨S8x16x512x512, .f32⟩ : BufTy).Contents (Elt F)),
    nullary main_cst_1 (constant S_ .f32 0x00000000#32),
    binary main_v6 main_cst_1 main_v7 ((fun x v => Host.reduceAdd x v reducesTo_S8x16x512x512_S8x512x512_d1 h_S_) : (⟨S8x16x512x512, .f32⟩ : BufTy).Contents (Elt F) → (⟨S_, .f32⟩ : BufTy).Contents (Elt F) → (⟨S8x512x512, .f32⟩ : BufTy).Contents (Elt F)),
    unary main_v7 main_v8 (broadcastInDim S8x1x512x512 ![0, 2, 3] bcast_S8x512x512_S8x1x512x512_0_2_3 : (⟨S8x512x512, .f32⟩ : BufTy).Contents (Elt F) → (⟨S8x1x512x512, .f32⟩ : BufTy).Contents (Elt F)),
    unary main_v8 main_v9 (broadcastInDim S8x16x512x512 ![0, 1, 2, 3] bcast_S8x1x512x512_S8x16x512x512_0_1_2_3 : (⟨S8x1x512x512, .f32⟩ : BufTy).Contents (Elt F) → (⟨S8x16x512x512, .f32⟩ : BufTy).Contents (Elt F)),
    binary main_v6 main_v9 main_v10 (Host.divf : (⟨S8x16x512x512, .f32⟩ : BufTy).Contents (Elt F) → (⟨S8x16x512x512, .f32⟩ : BufTy).Contents (Elt F) → (⟨S8x16x512x512, .f32⟩ : BufTy).Contents (Elt F)),
    nullary main_cst_2 (constant S_ .f32 0x358637BD#32),
    unary main_cst_2 main_v11 (broadcastInDim S8x16x512x512 ![] bcast_S_S8x16x512x512 : (⟨S_, .f32⟩ : BufTy).Contents (Elt F) → (⟨S8x16x512x512, .f32⟩ : BufTy).Contents (Elt F)),
    binary main_v10 main_v11 main_v12 (addf : (⟨S8x16x512x512, .f32⟩ : BufTy).Contents (Elt F) → (⟨S8x16x512x512, .f32⟩ : BufTy).Contents (Elt F) → (⟨S8x16x512x512, .f32⟩ : BufTy).Contents (Elt F)),
    unary main_v12 main_v13 (Host.log : (⟨S8x16x512x512, .f32⟩ : BufTy).Contents (Elt F) → (⟨S8x16x512x512, .f32⟩ : BufTy).Contents (Elt F)),
    nullary main_cst_3 (constant S_ .f32 0xC1A00000#32),
    nullary main_cst_4 (constant S_ .f32 0xB58637BD#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S8x16x512x512, .f32⟩) main_call0_v1) (broadcastInDim S8x16x512x512 ![] bcast_S_S8x16x512x512),
    TRef.binary (TRef.of (T := ⟨S8x16x512x512, .f32⟩) main_call0_v1) (TRef.of (T := ⟨S8x16x512x512, .f32⟩) main_v13) (TRef.of (T := ⟨S8x16x512x512, .f32⟩) main_call0_v2) maximumf,
    TRef.unary (TRef.of (T := ⟨S_, .f32⟩) main_cst_4) (TRef.of (T := ⟨S_, .f32⟩) main_call0_v3) id,
    TRef.unary (TRef.of (T := ⟨S_, .f32⟩) main_call0_v3) (TRef.of (T := ⟨S8x16x512x512, .f32⟩) main_call0_v4) (broadcastInDim S8x16x512x512 ![] bcast_S_S8x16x512x512),
    TRef.binary (TRef.of (T := ⟨S8x16x512x512, .f32⟩) main_call0_v4) (TRef.of (T := ⟨S8x16x512x512, .f32⟩) main_call0_v2) (TRef.of (T := ⟨S8x16x512x512, .f32⟩) main_v14) minimumf ]
/-- Operations 27–51: the labels broadcast, the gather at the label with its range test and fill, the reshape, the negation. -/
abbrev opsB : List (HloOp τ sig (Elt F)) :=
  [ unary main_arg1 main_v15 (broadcastInDim S8x1x512x512 ![0, 2, 3] bcast_S8x512x512_S8x1x512x512_0_2_3 : (⟨S8x512x512, .i32⟩ : BufTy).Contents (Elt F) → (⟨S8x1x512x512, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S8x1x512x512, .i32⟩) main_call1_v0) (broadcastInDim S8x1x512x512 ![] bcast_S_S8x1x512x512),
    TRef.binary (TRef.of (T := ⟨S8x1x512x512, .i32⟩) main_v15) (TRef.of (T := ⟨S8x1x512x512, .i32⟩) main_call1_v0) (TRef.of (T := ⟨S8x1x512x512, .i1⟩) main_call1_v1) (cmpi .slt),
    TRef.nullary (TRef.of (T := ⟨S_, .i32⟩) main_call1_c_0) (constantI S_ 32 16#32),
    TRef.unary (TRef.of (T := ⟨S_, .i32⟩) main_call1_c_0) (TRef.of (T := ⟨S8x1x512x512, .i32⟩) main_call1_v2) (broadcastInDim S8x1x512x512 ![] bcast_S_S8x1x512x512),
    TRef.binary (TRef.of (T := ⟨S8x1x512x512, .i32⟩) main_v15) (TRef.of (T := ⟨S8x1x512x512, .i32⟩) main_call1_v2) (TRef.of (T := ⟨S8x1x512x512, .i32⟩) main_call1_v3) addi,
    TRef.ternary (TRef.of (T := ⟨S8x1x512x512, .i1⟩) main_call1_v1) (TRef.of (T := ⟨S8x1x512x512, .i32⟩) main_call1_v3) (TRef.of (T := ⟨S8x1x512x512, .i32⟩) main_v15) (TRef.of (T := ⟨S8x1x512x512, .i32⟩) main_call1_v4) select,
    TRef.reshape (TRef.of (T := ⟨S8x1x512x512, .i32⟩) main_call1_v4) (TRef.of (T := ⟨S8x1x512x512x1, .i32⟩) main_call1_v5) rfl shapeCasts_S8x1x512x512_S8x1x512x512x1,
    TRef.nullary (TRef.of (T := ⟨S1, .i32⟩) main_call1_c_1) (constantI S1 32 15#32),
    TRef.nullary (TRef.of (T := ⟨S_, .i32⟩) main_call1_c_2) (constantI S_ 32 0#32),
    TRef.unary (TRef.of (T := ⟨S_, .i32⟩) main_call1_c_2) (TRef.of (T := ⟨S8x1x512x512x1, .i32⟩) main_call1_v6) (broadcastInDim S8x1x512x512x1 ![] bcast_S_S8x1x512x512x1),
    TRef.binary (TRef.of (T := ⟨S8x1x512x512x1, .i32⟩) main_call1_v5) (TRef.of (T := ⟨S8x1x512x512x1, .i32⟩) main_call1_v6) (TRef.of (T := ⟨S8x1x512x512x1, .i1⟩) main_call1_v7) (cmpi .sge),
    TRef.unary (TRef.of (T := ⟨S1, .i32⟩) main_call1_c_1) (TRef.of (T := ⟨S1x1x1x1x1, .i32⟩) main_call1_v8) (broadcastInDim S1x1x1x1x1 ![4] bcast_S1_S1x1x1x1x1_4),
    TRef.unary (TRef.of (T := ⟨S1x1x1x1x1, .i32⟩) main_call1_v8) (TRef.of (T := ⟨S8x1x512x512x1, .i32⟩) main_call1_v9) (broadcastInDim S8x1x512x512x1 ![0, 1, 2, 3, 4] bcast_S1x1x1x1x1_S8x1x512x512x1_0_1_2_3_4),
    TRef.binary (TRef.of (T := ⟨S8x1x512x512x1, .i32⟩) main_call1_v5) (TRef.of (T := ⟨S8x1x512x512x1, .i32⟩) main_call1_v9) (TRef.of (T := ⟨S8x1x512x512x1, .i1⟩) main_call1_v10) (cmpi .sle),
    TRef.binary (TRef.of (T := ⟨S8x1x512x512x1, .i1⟩) main_call1_v7) (TRef.of (T := ⟨S8x1x512x512x1, .i1⟩) main_call1_v10) (TRef.of (T := ⟨S8x1x512x512x1, .i1⟩) main_call1_v11) andi,
    TRef.nullary (TRef.of (T := ⟨S_, .i1⟩) main_call1_c_3) (constantI S_ 1 1#1),
    TRef.binary (TRef.of (T := ⟨S8x1x512x512x1, .i1⟩) main_call1_v11) (TRef.of (T := ⟨S_, .i1⟩) main_call1_c_3) (TRef.of (T := ⟨S8x1x512x512, .i1⟩) main_call1_v12) (fun x v => Host.reduce IntOp.andi x v reducesTo_S8x1x512x512x1_S8x1x512x512_d4 h_S_),
    TRef.binary (TRef.of (T := ⟨S8x16x512x512, .f32⟩) main_v14) (TRef.of (T := ⟨S8x1x512x512x1, .i32⟩) main_call1_v5) (TRef.of (T := ⟨S8x1x512x512, .f32⟩) main_call1_v13) (fun x i => Host.gather gather_S8x16x512x512_S8x1x512x512x1_S8x1x512x512_n_1_023_023_1_4_1111 x i),
    TRef.nullary (TRef.of (T := ⟨S_, .f32⟩) main_call1_cst) (constant S_ .f32 0x7FC00000#32),
    TRef.unary (TRef.of (T := ⟨S_, .f32⟩) main_call1_cst) (TRef.of (T := ⟨S8x1x512x512, .f32⟩) main_call1_v14) (broadcastInDim S8x1x512x512 ![] bcast_S_S8x1x512x512),
    TRef.ternary (TRef.of (T := ⟨S8x1x512x512, .i1⟩) main_call1_v12) (TRef.of (T := ⟨S8x1x512x512, .f32⟩) main_call1_v13) (TRef.of (T := ⟨S8x1x512x512, .f32⟩) main_call1_v14) (TRef.of (T := ⟨S8x1x512x512, .f32⟩) main_v16) select,
    reshape main_v16 main_v17 rfl shapeCasts_S8x1x512x512_S8x512x512,
    unary main_v17 main_v18 (Host.negf : (⟨S8x512x512, .f32⟩ : BufTy).Contents (Elt F) → (⟨S8x512x512, .f32⟩ : BufTy).Contents (Elt F)) ]
/-- Operations 52–71: the validity mask, the count of valid pixels, the masked sum, the quotient. -/
abbrev opsC : List (HloOp τ sig (Elt F)) :=
  [ unary main_arg2 main_v19 (broadcastInDim S8x1x1 ![0] bcast_S8_S8x1x1_0 : (⟨S8, .i32⟩ : BufTy).Contents (Elt F) → (⟨S8x1x1, .i32⟩ : BufTy).Contents (Elt F)),
    nullary main_c (constantI S_ 32 0#32),
    unary main_c main_v20 (broadcastInDim S8x512x512 ![] bcast_S_S8x512x512 : (⟨S_, .i32⟩ : BufTy).Contents (Elt F) → (⟨S8x512x512, .i32⟩ : BufTy).Contents (Elt F)),
    binary main_arg1 main_v20 main_v21 (cmpi .sgt : (⟨S8x512x512, .i32⟩ : BufTy).Contents (Elt F) → (⟨S8x512x512, .i32⟩ : BufTy).Contents (Elt F) → (⟨S8x512x512, .i1⟩ : BufTy).Contents (Elt F)),
    unary main_v19 main_v22 (broadcastInDim S8x512x512 ![0, 1, 2] bcast_S8x1x1_S8x512x512_0_1_2 : (⟨S8x1x1, .i32⟩ : BufTy).Contents (Elt F) → (⟨S8x512x512, .i32⟩ : BufTy).Contents (Elt F)),
    binary main_arg1 main_v22 main_v23 (cmpi .sle : (⟨S8x512x512, .i32⟩ : BufTy).Contents (Elt F) → (⟨S8x512x512, .i32⟩ : BufTy).Contents (Elt F) → (⟨S8x512x512, .i1⟩ : BufTy).Contents (Elt F)),
    binary main_v21 main_v23 main_v24 (andi : (⟨S8x512x512, .i1⟩ : BufTy).Contents (Elt F) → (⟨S8x512x512, .i1⟩ : BufTy).Contents (Elt F) → (⟨S8x512x512, .i1⟩ : BufTy).Contents (Elt F)),
    unary main_v24 main_v25 ((extui 32 · natLt_1_32) : (⟨S8x512x512, .i1⟩ : BufTy).Contents (Elt F) → (⟨S8x512x512, .i32⟩ : BufTy).Contents (Elt F)),
    nullary main_c_5 (constantI S_ 32 0#32),
    binary main_v25 main_c_5 main_v26 ((fun x v => Host.reduce IntOp.addi x v reducesTo_S8x512x512_S_d0_1_2 h_S_) : (⟨S8x512x512, .i32⟩ : BufTy).Contents (Elt F) → (⟨S_, .i32⟩ : BufTy).Contents (Elt F) → (⟨S_, .i32⟩ : BufTy).Contents (Elt F)),
    nullary main_cst_6 (constant S_ .f32 0x00000000#32),
    TRef.unary (TRef.of (T := ⟨S_, .f32⟩) main_cst_6) (TRef.of (T := ⟨S_, .f32⟩) main_call2_v0) id,
    TRef.unary (TRef.of (T := ⟨S_, .f32⟩) main_call2_v0) (TRef.of (T := ⟨S8x512x512, .f32⟩) main_call2_v1) (broadcastInDim S8x512x512 ![] bcast_S_S8x512x512),
    TRef.ternary (TRef.of (T := ⟨S8x512x512, .i1⟩) main_v24) (TRef.of (T := ⟨S8x512x512, .f32⟩) main_v18) (TRef.of (T := ⟨S8x512x512, .f32⟩) main_call2_v1) (TRef.of (T := ⟨S8x512x512, .f32⟩) main_v27) select,
    nullary main_cst_7 (constant S_ .f32 0x00000000#32),
    binary main_v27 main_cst_7 main_v28 ((fun x v => Host.reduceAdd x v reducesTo_S8x512x512_S_d0_1_2 h_S_) : (⟨S8x512x512, .f32⟩ : BufTy).Contents (Elt F) → (⟨S_, .f32⟩ : BufTy).Contents (Elt F) → (⟨S_, .f32⟩ : BufTy).Contents (Elt F)),
    nullary main_c_8 (constantI S_ 32 1#32),
    binary main_v26 main_c_8 main_v29 (addi : (⟨S_, .i32⟩ : BufTy).Contents (Elt F) → (⟨S_, .i32⟩ : BufTy).Contents (Elt F) → (⟨S_, .i32⟩ : BufTy).Contents (Elt F)),
    unary main_v29 main_v30 (sitofp .f32 : (⟨S_, .i32⟩ : BufTy).Contents (Elt F) → (⟨S_, .f32⟩ : BufTy).Contents (Elt F)),
    binary main_v28 main_v30 main_v31 (Host.divf : (⟨S_, .f32⟩ : BufTy).Contents (Elt F) → (⟨S_, .f32⟩ : BufTy).Contents (Elt F) → (⟨S_, .f32⟩ : BufTy).Contents (Elt F)) ]
/-- Operations 72–88: the one-hot of the labels and the three per-(batch entry, class) sums. -/
abbrev opsD : List (HloOp τ sig (Elt F)) :=
  [ unary main_arg1 main_v32 (broadcastInDim S8x1x512x512 ![0, 2, 3] bcast_S8x512x512_S8x1x512x512_0_2_3 : (⟨S8x512x512, .i32⟩ : BufTy).Contents (Elt F) → (⟨S8x1x512x512, .i32⟩ : BufTy).Contents (Elt F)),
    nullary main_v33 (iotaInDim S16 32 0),
    unary main_v33 main_v34 (broadcastInDim S1x16x1x1 ![1] bcast_S16_S1x16x1x1_1 : (⟨S16, .i32⟩ : BufTy).Contents (Elt F) → (⟨S1x16x1x1, .i32⟩ : BufTy).Contents (Elt F)),
    unary main_v32 main_v35 (broadcastInDim S8x16x512x512 ![0, 1, 2, 3] bcast_S8x1x512x512_S8x16x512x512_0_1_2_3 : (⟨S8x1x512x512, .i32⟩ : BufTy).Contents (Elt F) → (⟨S8x16x512x512, .i32⟩ : BufTy).Contents (Elt F)),
    unary main_v34 main_v36 (broadcastInDim S8x16x512x512 ![0, 1, 2, 3] bcast_S1x16x1x1_S8x16x512x512_0_1_2_3 : (⟨S1x16x1x1, .i32⟩ : BufTy).Contents (Elt F) → (⟨S8x16x512x512, .i32⟩ : BufTy).Contents (Elt F)),
    binary main_v35 main_v36 main_v37 (cmpi .eq : (⟨S8x16x512x512, .i32⟩ : BufTy).Contents (Elt F) → (⟨S8x16x512x512, .i32⟩ : BufTy).Contents (Elt F) → (⟨S8x16x512x512, .i1⟩ : BufTy).Contents (Elt F)),
    unary main_v37 main_v38 (uitofp .f32 : (⟨S8x16x512x512, .i1⟩ : BufTy).Contents (Elt F) → (⟨S8x16x512x512, .f32⟩ : BufTy).Contents (Elt F)),
    binary main_v10 main_v38 main_v39 (mulf : (⟨S8x16x512x512, .f32⟩ : BufTy).Contents (Elt F) → (⟨S8x16x512x512, .f32⟩ : BufTy).Contents (Elt F) → (⟨S8x16x512x512, .f32⟩ : BufTy).Contents (Elt F)),
    nullary main_cst_9 (constant S_ .f32 0x00000000#32),
    binary main_v39 main_cst_9 main_v40 ((fun x v => Host.reduceAdd x v reducesTo_S8x16x512x512_S8x16_d2_3 h_S_) : (⟨S8x16x512x512, .f32⟩ : BufTy).Contents (Elt F) → (⟨S_, .f32⟩ : BufTy).Contents (Elt F) → (⟨S8x16, .f32⟩ : BufTy).Contents (Elt F)),
    nullary main_cst_10 (constant S_ .f32 0x00000000#32),
    binary main_v10 main_cst_10 main_v41 ((fun x v => Host.reduceAdd x v reducesTo_S8x16x512x512_S8x16_d2_3 h_S_) : (⟨S8x16x512x512, .f32⟩ : BufTy).Contents (Elt F) → (⟨S_, .f32⟩ : BufTy).Contents (Elt F) → (⟨S8x16, .f32⟩ : BufTy).Contents (Elt F)),
    nullary main_cst_11 (constant S_ .f32 0x00000000#32),
    binary main_v38 main_cst_11 main_v42 ((fun x v => Host.reduceAdd x v reducesTo_S8x16x512x512_S8x16_d2_3 h_S_) : (⟨S8x16x512x512, .f32⟩ : BufTy).Contents (Elt F) → (⟨S_, .f32⟩ : BufTy).Contents (Elt F) → (⟨S8x16, .f32⟩ : BufTy).Contents (Elt F)),
    nullary main_cst_12 (constant S_ .f32 0x40000000#32),
    unary main_cst_12 main_v43 (broadcastInDim S8x16 ![] bcast_S_S8x16 : (⟨S_, .f32⟩ : BufTy).Contents (Elt F) → (⟨S8x16, .f32⟩ : BufTy).Contents (Elt F)),
    binary main_v43 main_v40 main_v44 (mulf : (⟨S8x16, .f32⟩ : BufTy).Contents (Elt F) → (⟨S8x16, .f32⟩ : BufTy).Contents (Elt F) → (⟨S8x16, .f32⟩ : BufTy).Contents (Elt F)) ]
/-- Operations 89–127: the dice term and the final combination. -/
abbrev opsE : List (HloOp τ sig (Elt F)) :=
  [ nullary main_cst_13 (constant S_ .f32 0x38D1B717#32),
    unary main_cst_13 main_v45 (broadcastInDim S8x16 ![] bcast_S_S8x16 : (⟨S_, .f32⟩ : BufTy).Contents (Elt F) → (⟨S8x16, .f32⟩ : BufTy).Contents (Elt F)),
    binary main_v44 main_v45 main_v46 (addf : (⟨S8x16, .f32⟩ : BufTy).Contents (Elt F) → (⟨S8x16, .f32⟩ : BufTy).Contents (Elt F) → (⟨S8x16, .f32⟩ : BufTy).Contents (Elt F)),
    binary main_v41 main_v42 main_v47 (addf : (⟨S8x16, .f32⟩ : BufTy).Contents (Elt F) → (⟨S8x16, .f32⟩ : BufTy).Contents (Elt F) → (⟨S8x16, .f32⟩ : BufTy).Contents (Elt F)),
    nullary main_cst_14 (constant S_ .f32 0x38D1B717#32),
    unary main_cst_14 main_v48 (broadcastInDim S8x16 ![] bcast_S_S8x16 : (⟨S_, .f32⟩ : BufTy).Contents (Elt F) → (⟨S8x16, .f32⟩ : BufTy).Contents (Elt F)),
    binary main_v47 main_v48 main_v49 (addf : (⟨S8x16, .f32⟩ : BufTy).Contents (Elt F) → (⟨S8x16, .f32⟩ : BufTy).Contents (Elt F) → (⟨S8x16, .f32⟩ : BufTy).Contents (Elt F)),
    binary main_v46 main_v49 main_v50 (Host.divf : (⟨S8x16, .f32⟩ : BufTy).Contents (Elt F) → (⟨S8x16, .f32⟩ : BufTy).Contents (Elt F) → (⟨S8x16, .f32⟩ : BufTy).Contents (Elt F)),
    nullary main_cst_15 (constant S_ .f32 0x3F800000#32),
    unary main_cst_15 main_v51 (broadcastInDim S8x16 ![] bcast_S_S8x16 : (⟨S_, .f32⟩ : BufTy).Contents (Elt F) → (⟨S8x16, .f32⟩ : BufTy).Contents (Elt F)),
    binary main_v51 main_v50 main_v52 (subf : (⟨S8x16, .f32⟩ : BufTy).Contents (Elt F) → (⟨S8x16, .f32⟩ : BufTy).Contents (Elt F) → (⟨S8x16, .f32⟩ : BufTy).Contents (Elt F)),
    nullary main_v53 (iotaInDim S16 32 0),
    unary main_v53 main_v54 (broadcastInDim S1x16 ![1] bcast_S16_S1x16_1 : (⟨S16, .i32⟩ : BufTy).Contents (Elt F) → (⟨S1x16, .i32⟩ : BufTy).Contents (Elt F)),
    nullary main_c_16 (constantI S_ 32 1#32),
    unary main_c_16 main_v55 (broadcastInDim S1x16 ![] bcast_S_S1x16 : (⟨S_, .i32⟩ : BufTy).Contents (Elt F) → (⟨S1x16, .i32⟩ : BufTy).Contents (Elt F)),
    binary main_v54 main_v55 main_v56 (cmpi .sge : (⟨S1x16, .i32⟩ : BufTy).Contents (Elt F) → (⟨S1x16, .i32⟩ : BufTy).Contents (Elt F) → (⟨S1x16, .i1⟩ : BufTy).Contents (Elt F)),
    unary main_arg2 main_v57 (broadcastInDim S8x1 ![0] bcast_S8_S8x1_0 : (⟨S8, .i32⟩ : BufTy).Contents (Elt F) → (⟨S8x1, .i32⟩ : BufTy).Contents (Elt F)),
    unary main_v54 main_v58 (broadcastInDim S8x16 ![0, 1] bcast_S1x16_S8x16_0_1 : (⟨S1x16, .i32⟩ : BufTy).Contents (Elt F) → (⟨S8x16, .i32⟩ : BufTy).Contents (Elt F)),
    unary main_v57 main_v59 (broadcastInDim S8x16 ![0, 1] bcast_S8x1_S8x16_0_1 : (⟨S8x1, .i32⟩ : BufTy).Contents (Elt F) → (⟨S8x16, .i32⟩ : BufTy).Contents (Elt F)),
    binary main_v58 main_v59 main_v60 (cmpi .sle : (⟨S8x16, .i32⟩ : BufTy).Contents (Elt F) → (⟨S8x16, .i32⟩ : BufTy).Contents (Elt F) → (⟨S8x16, .i1⟩ : BufTy).Contents (Elt F)),
    unary main_v56 main_v61 (broadcastInDim S8x16 ![0, 1] bcast_S1x16_S8x16_0_1 : (⟨S1x16, .i1⟩ : BufTy).Contents (Elt F) → (⟨S8x16, .i1⟩ : BufTy).Contents (Elt F)),
    binary main_v61 main_v60 main_v62 (andi : (⟨S8x16, .i1⟩ : BufTy).Contents (Elt F) → (⟨S8x16, .i1⟩ : BufTy).Contents (Elt F) → (⟨S8x16, .i1⟩ : BufTy).Contents (Elt F)),
    nullary main_cst_17 (constant S_ .f32 0x00000000#32),
    TRef.unary (TRef.of (T := ⟨S_, .f32⟩) main_cst_17) (TRef.of (T := ⟨S_, .f32⟩) main_call3_v0) id,
    TRef.unary (TRef.of (T := ⟨S_, .f32⟩) main_call3_v0) (TRef.of (T := ⟨S8x16, .f32⟩) main_call3_v1) (broadcastInDim S8x16 ![] bcast_S_S8x16),
    TRef.ternary (TRef.of (T := ⟨S8x16, .i1⟩) main_v62) (TRef.of (T := ⟨S8x16, .f32⟩) main_v52) (TRef.of (T := ⟨S8x16, .f32⟩) main_call3_v1) (TRef.of (T := ⟨S8x16, .f32⟩) main_v63) select,
    nullary main_cst_18 (constant S_ .f32 0x00000000#32),
    binary main_v63 main_cst_18 main_v64 ((fun x v => Host.reduceAdd x v reducesTo_S8x16_S8_d1 h_S_) : (⟨S8x16, .f32⟩ : BufTy).Contents (Elt F) → (⟨S_, .f32⟩ : BufTy).Contents (Elt F) → (⟨S8, .f32⟩ : BufTy).Contents (Elt F)),
    unary main_arg2 main_v65 (sitofp .f32 : (⟨S8, .i32⟩ : BufTy).Contents (Elt F) → (⟨S8, .f32⟩ : BufTy).Contents (Elt F)),
    binary main_v64 main_v65 main_v66 (Host.divf : (⟨S8, .f32⟩ : BufTy).Contents (Elt F) → (⟨S8, .f32⟩ : BufTy).Contents (Elt F) → (⟨S8, .f32⟩ : BufTy).Contents (Elt F)),
    nullary main_cst_19 (constant S_ .f32 0x00000000#32),
    binary main_v66 main_cst_19 main_v67 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_20 (constant S_ .f32 0x41000000#32),
    binary main_v67 main_cst_20 main_v68 (Host.divf : (⟨S_, .f32⟩ : BufTy).Contents (Elt F) → (⟨S_, .f32⟩ : BufTy).Contents (Elt F) → (⟨S_, .f32⟩ : BufTy).Contents (Elt F)),
    nullary main_cst_21 (constant S_ .f32 0x3F800000#32),
    binary main_cst_21 main_v31 main_v69 (mulf : (⟨S_, .f32⟩ : BufTy).Contents (Elt F) → (⟨S_, .f32⟩ : BufTy).Contents (Elt F) → (⟨S_, .f32⟩ : BufTy).Contents (Elt F)),
    nullary main_cst_22 (constant S_ .f32 0x3F800000#32),
    binary main_cst_22 main_v68 main_v70 (mulf : (⟨S_, .f32⟩ : BufTy).Contents (Elt F) → (⟨S_, .f32⟩ : BufTy).Contents (Elt F) → (⟨S_, .f32⟩ : BufTy).Contents (Elt F)),
    binary main_v69 main_v70 main_v71 (addf : (⟨S_, .f32⟩ : BufTy).Contents (Elt F) → (⟨S_, .f32⟩ : BufTy).Contents (Elt F) → (⟨S_, .f32⟩ : BufTy).Contents (Elt F)) ]

/-- The five stretches in order are the program's operation list. -/
theorem ops_split : (Cert.ReferenceIdeal.ValueP.ops : List (HloOp τ sig (Elt F))) = opsA ++ (opsB ++ (opsC ++ (opsD ++ opsE))) := rfl

end Cert.ReferenceIdeal.Stages

end
-- ==== Proof.RefStageAB.lean ====
/-
  The first stretch of the reference read back: after it, the softmax and its clipped logarithm are the stage functions of the logits.
-/
import proofs.«429240_j35107062677770_3_alg».proof.Proof.RefChunks

set_option maxRecDepth 16384

noncomputable section

namespace Cert.ReferenceIdeal.Stages

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]
variable (W : Valuation τ sig (Elt F))

theorem stageA_v10 : after opsA W (Proc.devRef .tc main_v10) = val_main_v10 (F := F) (W (Proc.devRef .tc main_arg0)) := by
  -- each operation's value at its own buffer is its function of its operands' values; the later operations leave it
  after_results_simp
  -- the stage functions of this stretch, unfolded down to the logits, are the same composition
  simp only [val_main_v10, val_main_v9, val_main_v8, val_main_v7, val_main_cst_1, val_main_v6, val_main_v5, val_main_v4,
    val_main_v3, val_main_v2, val_main_v1, val_main_cst_0, val_main_v0, val_main_cst]
theorem stageA_v14 : after opsA W (Proc.devRef .tc main_v14) = val_main_v14 (F := F) (W (Proc.devRef .tc main_arg0)) := by
  after_results_simp
  -- the inlined clip's typed references carry their buffers' own types: the transports are identities
  simp only [TRef.ofBuf, TRef.toBuf, cast_eq]
  simp only [val_main_v14, val_main_call0_v4, val_main_call0_v3, val_main_call0_v2, val_main_call0_v1, val_main_call0_v0,
    val_main_cst_4, val_main_cst_3, val_main_v13, val_main_v12, val_main_v11, val_main_cst_2,
    val_main_v10, val_main_v9, val_main_v8, val_main_v7, val_main_cst_1, val_main_v6, val_main_v5, val_main_v4,
    val_main_v3, val_main_v2, val_main_v1, val_main_cst_0, val_main_v0, val_main_cst]

end Cert.ReferenceIdeal.Stages

end
-- ==== Proof.RefStageB.lean ====
/-
  The second stretch of the reference (the gather at the label, its reshape and negation) read back in five parts, so that each of its two reshapes is a single operation applied to an already named value: the labels' index normalisation; its reshape; the range test, the gather and the fill; the second reshape; the negation.
-/
import proofs.«429240_j35107062677770_3_alg».proof.Proof.RefChunks

set_option maxRecDepth 16384

noncomputable section

namespace Cert.ReferenceIdeal.Stages

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]
variable (W : Valuation τ sig (Elt F))

/-- Operations 27–34: the labels broadcast to [8,1,512,512] and negative labels wrapped by sixteen. -/
abbrev opsB1 : List (HloOp τ sig (Elt F)) :=
  [ unary main_arg1 main_v15 (broadcastInDim S8x1x512x512 ![0, 2, 3] bcast_S8x512x512_S8x1x512x512_0_2_3 : (⟨S8x512x512, .i32⟩ : BufTy).Contents (Elt F) → (⟨S8x1x512x512, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S8x1x512x512, .i32⟩) main_call1_v0) (broadcastInDim S8x1x512x512 ![] bcast_S_S8x1x512x512),
    TRef.binary (TRef.of (T := ⟨S8x1x512x512, .i32⟩) main_v15) (TRef.of (T := ⟨S8x1x512x512, .i32⟩) main_call1_v0) (TRef.of (T := ⟨S8x1x512x512, .i1⟩) main_call1_v1) (cmpi .slt),
    TRef.nullary (TRef.of (T := ⟨S_, .i32⟩) main_call1_c_0) (constantI S_ 32 16#32),
    TRef.unary (TRef.of (T := ⟨S_, .i32⟩) main_call1_c_0) (TRef.of (T := ⟨S8x1x512x512, .i32⟩) main_call1_v2) (broadcastInDim S8x1x512x512 ![] bcast_S_S8x1x512x512),
    TRef.binary (TRef.of (T := ⟨S8x1x512x512, .i32⟩) main_v15) (TRef.of (T := ⟨S8x1x512x512, .i32⟩) main_call1_v2) (TRef.of (T := ⟨S8x1x512x512, .i32⟩) main_call1_v3) addi,
    TRef.ternary (TRef.of (T := ⟨S8x1x512x512, .i1⟩) main_call1_v1) (TRef.of (T := ⟨S8x1x512x512, .i32⟩) main_call1_v3) (TRef.of (T := ⟨S8x1x512x512, .i32⟩) main_v15) (TRef.of (T := ⟨S8x1x512x512, .i32⟩) main_call1_v4) select ]
/-- Operation 35: the indices reshaped to [8,1,512,512,1]. -/
abbrev opsB2 : List (HloOp τ sig (Elt F)) :=
  [ TRef.reshape (TRef.of (T := ⟨S8x1x512x512, .i32⟩) main_call1_v4) (TRef.of (T := ⟨S8x1x512x512x1, .i32⟩) main_call1_v5) rfl shapeCasts_S8x1x512x512_S8x1x512x512x1 ]
/-- Operations 36–49: the range test 0 ≤ index ≤ 15, the gather along the class axis, the fill where the test fails. -/
abbrev opsB3 : List (HloOp τ sig (Elt F)) :=
  [ TRef.nullary (TRef.of (T := ⟨S1, .i32⟩) main_call1_c_1) (constantI S1 32 15#32),
    TRef.nullary (TRef.of (T := ⟨S_, .i32⟩) main_call1_c_2) (constantI S_ 32 0#32),
    TRef.unary (TRef.of (T := ⟨S_, .i32⟩) main_call1_c_2) (TRef.of (T := ⟨S8x1x512x512x1, .i32⟩) main_call1_v6) (broadcastInDim S8x1x512x512x1 ![] bcast_S_S8x1x512x512x1),
    TRef.binary (TRef.of (T := ⟨S8x1x512x512x1, .i32⟩) main_call1_v5) (TRef.of (T := ⟨S8x1x512x512x1, .i32⟩) main_call1_v6) (TRef.of (T := ⟨S8x1x512x512x1, .i1⟩) main_call1_v7) (cmpi .sge),
    TRef.unary (TRef.of (T := ⟨S1, .i32⟩) main_call1_c_1) (TRef.of (T := ⟨S1x1x1x1x1, .i32⟩) main_call1_v8) (broadcastInDim S1x1x1x1x1 ![4] bcast_S1_S1x1x1x1x1_4),
    TRef.unary (TRef.of (T := ⟨S1x1x1x1x1, .i32⟩) main_call1_v8) (TRef.of (T := ⟨S8x1x512x512x1, .i32⟩) main_call1_v9) (broadcastInDim S8x1x512x512x1 ![0, 1, 2, 3, 4] bcast_S1x1x1x1x1_S8x1x512x512x1_0_1_2_3_4),
    TRef.binary (TRef.of (T := ⟨S8x1x512x512x1, .i32⟩) main_call1_v5) (TRef.of (T := ⟨S8x1x512x512x1, .i32⟩) main_call1_v9) (TRef.of (T := ⟨S8x1x512x512x1, .i1⟩) main_call1_v10) (cmpi .sle),
    TRef.binary (TRef.of (T := ⟨S8x1x512x512x1, .i1⟩) main_call1_v7) (TRef.of (T := ⟨S8x1x512x512x1, .i1⟩) main_call1_v10) (TRef.of (T := ⟨S8x1x512x512x1, .i1⟩) main_call1_v11) andi,
    TRef.nullary (TRef.of (T := ⟨S_, .i1⟩) main_call1_c_3) (constantI S_ 1 1#1),
    TRef.binary (TRef.of (T := ⟨S8x1x512x512x1, .i1⟩) main_call1_v11) (TRef.of (T := ⟨S_, .i1⟩) main_call1_c_3) (TRef.of (T := ⟨S8x1x512x512, .i1⟩) main_call1_v12) (fun x v => Host.reduce IntOp.andi x v reducesTo_S8x1x512x512x1_S8x1x512x512_d4 h_S_),
    TRef.binary (TRef.of (T := ⟨S8x16x512x512, .f32⟩) main_v14) (TRef.of (T := ⟨S8x1x512x512x1, .i32⟩) main_call1_v5) (TRef.of (T := ⟨S8x1x512x512, .f32⟩) main_call1_v13) (fun x i => Host.gather gather_S8x16x512x512_S8x1x512x512x1_S8x1x512x512_n_1_023_023_1_4_1111 x i),
    TRef.nullary (TRef.of (T := ⟨S_, .f32⟩) main_call1_cst) (constant S_ .f32 0x7FC00000#32),
    TRef.unary (TRef.of (T := ⟨S_, .f32⟩) main_call1_cst) (TRef.of (T := ⟨S8x1x512x512, .f32⟩) main_call1_v14) (broadcastInDim S8x1x512x512 ![] bcast_S_S8x1x512x512),
    TRef.ternary (TRef.of (T := ⟨S8x1x512x512, .i1⟩) main_call1_v12) (TRef.of (T := ⟨S8x1x512x512, .f32⟩) main_call1_v13) (TRef.of (T := ⟨S8x1x512x512, .f32⟩) main_call1_v14) (TRef.of (T := ⟨S8x1x512x512, .f32⟩) main_v16) select ]
/-- Operation 50: the gathered values reshaped to [8,512,512]. -/
abbrev opsB4 : List (HloOp τ sig (Elt F)) :=
  [ reshape main_v16 main_v17 rfl shapeCasts_S8x1x512x512_S8x512x512 ]
/-- Operation 51: the negation. -/
abbrev opsB5 : List (HloOp τ sig (Elt F)) :=
  [ unary main_v17 main_v18 (Host.negf : (⟨S8x512x512, .f32⟩ : BufTy).Contents (Elt F) → (⟨S8x512x512, .f32⟩ : BufTy).Contents (Elt F)) ]

theorem opsB_split : (opsB : List (HloOp τ sig (Elt F))) = opsB1 ++ (opsB2 ++ (opsB3 ++ (opsB4 ++ opsB5))) := rfl

/-- Operations run one list after the other. -/
theorem after_app' (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A transport along an equation between a type and itself is the identity (stated as an equation to rewrite with). -/
theorem cast_id {α : Sort _} (h : α = α) (a : α) : cast h a = a := by rw [cast_eq]

/-- The normalised indices, from the labels. -/
theorem partB1 : after opsB1 W (Proc.devRef .tc main_call1_v4) = val_main_call1_v4 (F := F) (W (Proc.devRef .tc main_arg1)) := by
  after_results_simp
  simp only [TRef.ofBuf, TRef.toBuf, cast_eq]
  simp only [val_main_call1_v4, val_main_call1_v3, val_main_call1_v2, val_main_call1_c_0, val_main_call1_v1, val_main_call1_v0, val_main_call1_c, val_main_v15]

/-- Their reshape: one operation on a named value. -/
theorem partB2 (T : (⟨S8x512x512, .i32⟩ : BufTy).Contents (Elt F))
    (h4 : W (Proc.devRef .tc main_call1_v4) = val_main_call1_v4 (F := F) T) :
    after opsB2 W (Proc.devRef .tc main_call1_v5) = val_main_call1_v5 (F := F) T := by
  after_results_simp
  rw [h4]
  unfold val_main_call1_v5
  rfl

/-- The range test, the gather and the fill, from the reshaped indices and the clipped logarithm. -/
theorem partB3 (X : (⟨S8x16x512x512, .f32⟩ : BufTy).Contents (Elt F)) (T : (⟨S8x512x512, .i32⟩ : BufTy).Contents (Elt F))
    (h5 : W (Proc.devRef .tc main_call1_v5) = val_main_call1_v5 (F := F) T)
    (h14 : W (Proc.devRef .tc main_v14) = val_main_v14 (F := F) X) :
    after opsB3 W (Proc.devRef .tc main_v16) = val_main_v16 (F := F) X T := by
  after_results_simp
  rw [h5, h14]
  simp only [TRef.ofBuf, TRef.toBuf]
  simp only [cast_id]
  simp only [val_main_v16, val_main_call1_v14, val_main_call1_cst, val_main_call1_v13, val_main_call1_v12, val_main_call1_c_3, val_main_call1_v11, val_main_call1_v10, val_main_call1_v9, val_main_call1_v8, val_main_call1_v7, val_main_call1_v6, val_main_call1_c_2, val_main_call1_c_1]

/-- The second reshape: one operation on a named value. -/
theorem partB4 (X : (⟨S8x16x512x512, .f32⟩ : BufTy).Contents (Elt F)) (T : (⟨S8x512x512, .i32⟩ : BufTy).Contents (Elt F))
    (h16 : W (Proc.devRef .tc main_v16) = val_main_v16 (F := F) X T) :
    after opsB4 W (Proc.devRef .tc main_v17) = val_main_v17 (F := F) X T := by
  after_results_simp
  rw [h16]
  unfold val_main_v17
  rfl

/-- The negation. -/
theorem partB5 (X : (⟨S8x16x512x512, .f32⟩ : BufTy).Contents (Elt F)) (T : (⟨S8x512x512, .i32⟩ : BufTy).Contents (Elt F))
    (h17 : W (Proc.devRef .tc main_v17) = val_main_v17 (F := F) X T) :
    after opsB5 W (Proc.devRef .tc main_v18) = val_main_v18 (F := F) X T := by
  after_results_simp
  rw [h17]
  simp only [val_main_v18]

/-- The first two parts do not write the clipped logarithm's buffer. -/
theorem keepB1_v14 : after opsB1 W (Proc.devRef .tc main_v14) = W (Proc.devRef .tc main_v14) :=
  after_of_forall_not_mem _ _ (List.forall_iff_forall_mem.mp (by
    simp only [opsB1, List.Forall, TRef.nullary, TRef.unary, TRef.binary, TRef.ternary, TRef.reshape, nullary_writes, unary_writes, binary_writes,
      ternary_writes, reshape_writes, Finset.mem_singleton]
    repeat' apply And.intro
    all_goals exact devRef_ne_of_ne (by decide)))
theorem keepB2_v14 : after opsB2 W (Proc.devRef .tc main_v14) = W (Proc.devRef .tc main_v14) :=
  after_of_forall_not_mem _ _ (List.forall_iff_forall_mem.mp (by
    simp only [opsB2, List.Forall, TRef.nullary, TRef.unary, TRef.binary, TRef.ternary, TRef.reshape, nullary_writes, unary_writes, binary_writes,
      ternary_writes, reshape_writes, Finset.mem_singleton]
    exact devRef_ne_of_ne (by decide)))

/-- The whole second stretch: given the clipped logarithm, the negated gather is the stage function of the logits and
    the labels. -/
theorem stageB_v18 (X : (⟨S8x16x512x512, .f32⟩ : BufTy).Contents (Elt F))
    (h14 : W (Proc.devRef .tc main_v14) = val_main_v14 (F := F) X) :
    after opsB W (Proc.devRef .tc main_v18) = val_main_v18 (F := F) X (W (Proc.devRef .tc main_arg1)) := by
  rw [opsB_split, after_app', after_app', after_app', after_app']
  have h4 := partB1 W
  have h5 := partB2 (after opsB1 W) _ h4
  have h14' : after opsB2 (after opsB1 W) (Proc.devRef .tc main_v14) = val_main_v14 (F := F) X :=
    (keepB2_v14 (after opsB1 W)).trans ((keepB1_v14 W).trans h14)
  have h16 := partB3 (after opsB2 (after opsB1 W)) X _ h5 h14'
  have h17 := partB4 (after opsB3 (after opsB2 (after opsB1 W))) X _ h16
  exact partB5 (after opsB4 (after opsB3 (after opsB2 (after opsB1 W)))) X _ h17

end Cert.ReferenceIdeal.Stages

end
-- ==== Proof.RefStageCD.lean ====
/-
  The third and fourth stretches of the reference read back: given the negated gather, the cross-entropy quotient is the stage function of the three arguments; given the softmax, the three per-class sums (the overlap already doubled) are the stage functions of the logits and the labels.
-/
import proofs.«429240_j35107062677770_3_alg».proof.Proof.RefChunks

set_option maxRecDepth 16384

noncomputable section

namespace Cert.ReferenceIdeal.Stages

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]
variable (W : Valuation τ sig (Elt F))

theorem stageC_v31 (X : (⟨S8x16x512x512, .f32⟩ : BufTy).Contents (Elt F))
    (h18 : W (Proc.devRef .tc main_v18) = val_main_v18 (F := F) X (W (Proc.devRef .tc main_arg1))) :
    after opsC W (Proc.devRef .tc main_v31) = val_main_v31 (F := F) X (W (Proc.devRef .tc main_arg1)) (W (Proc.devRef .tc main_arg2)) := by
  unfold opsC
  after_results_simp
  simp only [StableHlo.TRef.ofBuf, StableHlo.TRef.toBuf, cast_eq]
  rw [h18]
  simp only [val_main_v31, val_main_v30, val_main_v29, val_main_v28, val_main_v27, val_main_v26, val_main_v25, val_main_v24,
    val_main_v23, val_main_v22, val_main_v21, val_main_v20, val_main_v19, val_main_c, val_main_c_5, val_main_c_8,
    val_main_cst_6, val_main_cst_7, val_main_call2_v0, val_main_call2_v1]

theorem stageD_v44 (X : (⟨S8x16x512x512, .f32⟩ : BufTy).Contents (Elt F))
    (h10 : W (Proc.devRef .tc main_v10) = val_main_v10 (F := F) X) :
    after opsD W (Proc.devRef .tc main_v44) = val_main_v44 (F := F) X (W (Proc.devRef .tc main_arg1)) := by
  unfold opsD
  after_results_simp
  rw [h10]
  simp only [val_main_v44, val_main_v43, val_main_cst_12, val_main_v40, val_main_cst_9, val_main_v39, val_main_v38,
    val_main_v37, val_main_v36, val_main_v35, val_main_v34, val_main_v33, val_main_v32]
theorem stageD_v41 (X : (⟨S8x16x512x512, .f32⟩ : BufTy).Contents (Elt F))
    (h10 : W (Proc.devRef .tc main_v10) = val_main_v10 (F := F) X) :
    after opsD W (Proc.devRef .tc main_v41) = val_main_v41 (F := F) X := by
  unfold opsD
  after_results_simp
  rw [h10]
  simp only [val_main_v41, val_main_cst_10]
theorem stageD_v42 : after opsD W (Proc.devRef .tc main_v42) = val_main_v42 (F := F) (W (Proc.devRef .tc main_arg1)) := by
  unfold opsD
  after_results_simp
  simp only [val_main_v42, val_main_v38, val_main_v37, val_main_v36, val_main_v35, val_main_v34, val_main_v33, val_main_v32, val_main_cst_11]

end Cert.ReferenceIdeal.Stages

end
-- ==== Proof.RefStageE.lean ====
/-
  The last stretch of the reference read back (given the doubled overlap, the two masses and the cross-entropy quotient, the result is the stage function of the three arguments), and which buffers each stretch leaves as it found them.
-/
import proofs.«429240_j35107062677770_3_alg».proof.Proof.RefChunks

set_option maxRecDepth 16384

noncomputable section

namespace Cert.ReferenceIdeal.Stages

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]
variable (W : Valuation τ sig (Elt F))

/-- A reference that is no operation's result buffer is in no operation's written set: the written sets are the
    singletons of the result buffers, and distinct references are distinct device buffers. -/
local macro "no_write" : tactic => `(tactic| (
  simp only [opsA, opsB, opsC, opsD, opsE, List.Forall, TRef.nullary, TRef.unary, TRef.binary, TRef.ternary, TRef.reshape,
    nullary_writes, unary_writes, binary_writes, ternary_writes, reshape_writes, Finset.mem_singleton]
  repeat' apply And.intro
  all_goals exact devRef_ne_of_ne (by decide)))

theorem stageE_v71 (X : (⟨S8x16x512x512, .f32⟩ : BufTy).Contents (Elt F)) (T : (⟨S8x512x512, .i32⟩ : BufTy).Contents (Elt F))
    (h44 : W (Proc.devRef .tc main_v44) = val_main_v44 (F := F) X T)
    (h41 : W (Proc.devRef .tc main_v41) = val_main_v41 (F := F) X)
    (h42 : W (Proc.devRef .tc main_v42) = val_main_v42 (F := F) T)
    (h31 : W (Proc.devRef .tc main_v31) = val_main_v31 (F := F) X T (W (Proc.devRef .tc main_arg2))) :
    after opsE W (Proc.devRef .tc main_v71) = val_main_v71 (F := F) X T (W (Proc.devRef .tc main_arg2)) := by
  unfold opsE
  after_results_simp
  simp only [TRef.ofBuf, TRef.toBuf, cast_eq]
  rw [h44, h41, h42, h31]
  simp only [val_main_v71, val_main_v70, val_main_cst_22, val_main_v69, val_main_cst_21, val_main_v68, val_main_cst_20,
    val_main_v67, val_main_cst_19, val_main_v66, val_main_v65, val_main_v64, val_main_cst_18, val_main_v63,
    val_main_call3_v1, val_main_call3_v0, val_main_cst_17, val_main_v62, val_main_v61, val_main_v60, val_main_v59,
    val_main_v58, val_main_v57, val_main_v56, val_main_v55, val_main_c_16, val_main_v54, val_main_v53, val_main_v52,
    val_main_v51, val_main_cst_15, val_main_v50, val_main_v49, val_main_v48, val_main_cst_14, val_main_v47,
    val_main_v46, val_main_v45, val_main_cst_13]

/-- No stretch writes an argument; the later stretches do not write the earlier stretches' results that they or the
    tail still read. -/
theorem keepA (r : Ref sig .tc) (h : r = main_arg0 ∨ r = main_arg1 ∨ r = main_arg2) :
    after opsA W (Proc.devRef .tc r) = W (Proc.devRef .tc r) := by
  rcases h with rfl | rfl | rfl <;>
    exact after_of_forall_not_mem _ _ (List.forall_iff_forall_mem.mp (by no_write))
theorem keepB (r : Ref sig .tc) (h : r = main_arg0 ∨ r = main_arg1 ∨ r = main_arg2 ∨ r = main_v10) :
    after opsB W (Proc.devRef .tc r) = W (Proc.devRef .tc r) := by
  rcases h with rfl | rfl | rfl | rfl <;>
    exact after_of_forall_not_mem _ _ (List.forall_iff_forall_mem.mp (by no_write))
theorem keepC (r : Ref sig .tc) (h : r = main_arg0 ∨ r = main_arg1 ∨ r = main_arg2 ∨ r = main_v10) :
    after opsC W (Proc.devRef .tc r) = W (Proc.devRef .tc r) := by
  rcases h with rfl | rfl | rfl | rfl <;>
    exact after_of_forall_not_mem _ _ (List.forall_iff_forall_mem.mp (by no_write))
theorem keepD (r : Ref sig .tc) (h : r = main_arg0 ∨ r = main_arg1 ∨ r = main_arg2 ∨ r = main_v31) :
    after opsD W (Proc.devRef .tc r) = W (Proc.devRef .tc r) := by
  rcases h with rfl | rfl | rfl | rfl <;>
    exact after_of_forall_not_mem _ _ (List.forall_iff_forall_mem.mp (by no_write))
theorem keepE (r : Ref sig .tc) (h : r = main_arg0 ∨ r = main_arg1 ∨ r = main_arg2) :
    after opsE W (Proc.devRef .tc r) = W (Proc.devRef .tc r) := by
  rcases h with rfl | rfl | rfl <;>
    exact after_of_forall_not_mem _ _ (List.forall_iff_forall_mem.mp (by no_write))

end Cert.ReferenceIdeal.Stages

end
-- ==== Proof.RefRunFinal.lean ====
/-
  The reference's result, read stretch by stretch: after all 127 host operations from the launch memory, the result
  buffer holds the last stage function of the three arguments. Each stretch is entered from the valuation the one
  before it left; what a stretch reads of an earlier stretch's results is carried across the stretches in between,
  which do not write it.
-/
import proofs.«429240_j35107062677770_3_alg».proof.Proof.RefStageAB
import proofs.«429240_j35107062677770_3_alg».proof.Proof.RefStageB
import proofs.«429240_j35107062677770_3_alg».proof.Proof.RefStageCD
import proofs.«429240_j35107062677770_3_alg».proof.Proof.RefStageE

set_option maxRecDepth 16384

noncomputable section

namespace Cert.ReferenceIdeal.Stages

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Operations run one list after the other. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- After the whole operation list the result buffer holds the last stage function of the arguments. -/
theorem result_eq (V : Valuation τ sig (Elt F)) :
    after (Cert.ReferenceIdeal.ValueP.ops (F := F)) V (Proc.devRef .tc main_v71)
      = val_main_v71 (F := F) (V (Proc.devRef .tc main_arg0)) (V (Proc.devRef .tc main_arg1)) (V (Proc.devRef .tc main_arg2)) := by
  rw [ops_split, after_app, after_app, after_app, after_app]
  -- the arguments, carried through the four first stretches
  have a0A := keepA V main_arg0 (.inl rfl)
  have a1A := keepA V main_arg1 (.inr (.inl rfl))
  have a2A := keepA V main_arg2 (.inr (.inr rfl))
  have a1B := (keepB (after opsA V) main_arg1 (.inr (.inl rfl))).trans a1A
  have a2B := (keepB (after opsA V) main_arg2 (.inr (.inr (.inl rfl)))).trans a2A
  have a1C := (keepC (after opsB (after opsA V)) main_arg1 (.inr (.inl rfl))).trans a1B
  have a2C := (keepC (after opsB (after opsA V)) main_arg2 (.inr (.inr (.inl rfl)))).trans a2B
  have a1D := (keepD (after opsC (after opsB (after opsA V))) main_arg1 (.inr (.inl rfl))).trans a1C
  have a2D := (keepD (after opsC (after opsB (after opsA V))) main_arg2 (.inr (.inr (.inl rfl)))).trans a2C
  -- the softmax, carried to the fourth stretch
  have h10A := stageA_v10 V
  have h14A := stageA_v14 V
  have h10B := (keepB (after opsA V) main_v10 (.inr (.inr (.inr rfl)))).trans h10A
  have h10C := (keepC (after opsB (after opsA V)) main_v10 (.inr (.inr (.inr rfl)))).trans h10B
  -- the negated gather, the quotient, the three sums
  have h18B := stageB_v18 (after opsA V) _ h14A
  have h31C := stageC_v31 (after opsB (after opsA V)) (V (Proc.devRef .tc main_arg0)) (by rw [h18B, a1B, a1A])
  have h31D := (keepD (after opsC (after opsB (after opsA V))) main_v31 (.inr (.inr (.inr rfl)))).trans h31C
  have h44D := stageD_v44 (after opsC (after opsB (after opsA V))) _ h10C
  have h41D := stageD_v41 (after opsC (after opsB (after opsA V))) _ h10C
  have h42D := stageD_v42 (after opsC (after opsB (after opsA V)))
  rw [a1C] at h44D h42D
  rw [a1B, a2B] at h31D
  have hE := stageE_v71 (after opsD (after opsC (after opsB (after opsA V)))) (V (Proc.devRef .tc main_arg0)) (V (Proc.devRef .tc main_arg1))
    h44D h41D h42D (by rw [h31D, a2D])
  rw [hE, a2D]

/-- The run's result in terms of the launch memory. -/
theorem result_of_launch (m : (ℓ : Loc nD τ sig) → Buf (Elt F) ℓ) (c : Dev nD) :
    after (Cert.ReferenceIdeal.ValueP.ops (F := F)) (launchContents m c) (Proc.devRef .tc main_v71)
      = val_main_v71 (F := F) (m ((c.tc : Thread nD τ).loc main_arg0)) (m ((c.tc : Thread nD τ).loc main_arg1)) (m ((c.tc : Thread nD τ).loc main_arg2)) :=
  result_eq (launchContents m c)

end Cert.ReferenceIdeal.Stages

end
-- ==== Proof.PreDecode.lean ====
/-
  What the precondition says of the labels: every label, read as an unsigned word, is below sixteen (it is at least
  zero and less than sixteen as a signed word).
-/
import proofs.«429240_j35107062677770_3_alg».proof.Pre_finite_inputs
import Idealize.ShloMosaic.Lib.ReduceAll
import Idealize.ShloMosaic.Lib.StableHlo.Predicate
import Idealize.ShloMosaic.Lib.ValueIdx

noncomputable section

namespace Cert.PreDecode

open Idealize.ShloMosaic Cert.Pre_finite_inputs

variable {F : FTy → Type} [FloatOps F] [Cert.Pre_finite_inputs.Facts]

/-- The scalar shape has one index. -/
instance : Subsingleton S_.Idx := ⟨fun a b => funext fun d => d.elim0⟩

/-- Under the precondition every label is a class index. -/
theorem labels_lt (X : FVec F S8x16x512x512 .f32) (T : IVec S8x512x512 32) (N : IVec S8 32)
    (h : Cert.Pre_finite_inputs.fn (F := F) X T N = fun _ => 1#1) : ∀ k : S8x512x512.Idx, (T k).toNat < 16 := by
  intro k
  have h0 := congrFun h ValueIdx.ix0
  unfold Cert.Pre_finite_inputs.fn at h0
  -- the second conjunct of the scalar and: the reduce-and over all pixels came out 1
  have h1 := (IntOp.andi_eq_one.1 h0).2
  -- so at the pixel k both comparisons came out 1
  have h2 := Host.reduce_andi_all _ _ _ _ _ h1 k
  obtain ⟨hge, hlt⟩ := IntOp.andi_eq_one.1 h2
  -- the broadcast constants read 0 and 16 at k
  have e0 : broadcastInDim S8x512x512 ![] Facts.bcast_S_S8x512x512 (constantI S_ 32 0#32) k = 0#32 :=
    StableHlo.Predicate.bcast_scalar _ Facts.h_S_ _ k
  have e16 : broadcastInDim S8x512x512 ![] Facts.bcast_S_S8x512x512 (constantI S_ 32 16#32) k = 16#32 :=
    StableHlo.Predicate.bcast_scalar _ Facts.h_S_ _ k
  -- as signed words: 0 ≤ T k < 16
  have hge' := IntOp.cmpi_sge.1 hge
  have hlt' := IntOp.cmpi_slt.1 hlt
  rw [e0, show (0#32 : BitVec 32).toInt = 0 from by decide] at hge'
  rw [e16, show (16#32 : BitVec 32).toInt = 16 from by decide] at hlt'
  -- a signed word that is at least 0 has its top bit clear, and then reads the same signed and unsigned
  have hsmall : 2 * (T k).toNat < 2 ^ 32 := BitVec.toInt_pos_iff.1 hge'
  have heq : (T k).toInt = ((T k).toNat : Int) := BitVec.toInt_eq_toNat_of_lt hsmall
  omega

end Cert.PreDecode

end
-- ==== Proof.lean ====
/-
  The kernel streams each batch entry's logits through four row tiles, forming per tile the softmax over the sixteen
  classes, its clipped logarithm, the one-hot of the labels and the validity mask 0 < label ≤ object count, and adds
  the tile's sums (class overlaps, probability and label masses, the valid pixels' cross-entropy and their number) to
  five small accumulators; a short host computation turns those into the loss. The reference computes the same loss
  with whole-array operations, taking the cross-entropy by a gather at the label. Over the extended reals the two
  agree whenever every label is a class index (the added precondition: 0 ≤ label < 16): finite sums may be regrouped
  and reordered freely, the one-hot sum over the classes picks the label's class, and the 32-bit count of at most 2^21
  valid pixels is exact.

  The three frames: the kernel program's run (the same text at both float instances) ends with every unscoped buffer at
  a named valuation, at which the three arguments are as launched; the reference's run is a straight line of host
  operations, whose result is read stretch by stretch. `preserves` is trivial (the idealization rewrote nothing). `algebraic`: both runs' results are the
  specification's loss.
-/
import proofs.«429240_j35107062677770_3_alg».proof.Defs
import proofs.«429240_j35107062677770_3_alg».proof.Proof.Gen.Kernel
import proofs.«429240_j35107062677770_3_alg».proof.Proof.Gen.KernelIdeal
import proofs.«429240_j35107062677770_3_alg».proof.Proof.Gen.ReferenceIdeal
import proofs.«429240_j35107062677770_3_alg».proof.Proof.Gen.Pre_finite_inputs
import proofs.«429240_j35107062677770_3_alg».proof.Proof.KBTailValue
import proofs.«429240_j35107062677770_3_alg».proof.Proof.KITailValue
import proofs.«429240_j35107062677770_3_alg».proof.Proof.KIResult
import proofs.«429240_j35107062677770_3_alg».proof.Proof.RefValue
import proofs.«429240_j35107062677770_3_alg».proof.Proof.RefRunFinal
import proofs.«429240_j35107062677770_3_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem

/-- The word-level program runs and leaves its three arguments as launched. -/
theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W4_arg0 m c),
     (h c _ (Cert.Kernel.Hand.mem_uc Cert.Kernel.main_arg1 (by decide))).trans (Cert.Kernel.Hand.W4_arg1 m c),
     (h c _ (Cert.Kernel.Hand.mem_uc Cert.Kernel.main_arg2 (by decide))).trans (Cert.Kernel.Hand.W4_arg2 m c)⟩)
    (Cert.Kernel.Hand.run_main (F := Bits) m ρ)

/-- The idealized program likewise. -/
theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W4_arg0 m c),
     (h c _ (Cert.KernelIdeal.Hand.mem_uc Cert.KernelIdeal.main_arg1 (by decide))).trans (Cert.KernelIdeal.Hand.W4_arg1 m c),
     (h c _ (Cert.KernelIdeal.Hand.mem_uc Cert.KernelIdeal.main_arg2 (by decide))).trans (Cert.KernelIdeal.Hand.W4_arg2 m c)⟩)
    (Cert.KernelIdeal.Hand.run_main (F := Ideal) m ρ)

/-- The reference's run with the result dropped. -/
theorem frame_r : Cert.frame_ReferenceIdeal := fun m ρ _ =>
  (θ_run (Cert.ReferenceIdeal.defs (F := Ideal)) _ _).mono (fun _ h c => (h c).2) (Cert.ReferenceIdeal.ValueP.run (F := Ideal) m ρ)

theorem preserves : Cert.preserves_Kernel_KernelIdeal := trivial

/-- Both programs end at the specification's loss of the (agreeing) arguments. -/
theorem algebraic : Cert.algebraic_KernelIdeal_ReferenceIdeal := by
  intro m ρ m' ρ' hpre hagree
  have hT : ∀ c : Dev Cert.KernelIdeal.nD, ∀ k, ((Cert.KernelIdeal.Hand.TofM m c) k).toNat < 16 := fun c =>
    Cert.PreDecode.labels_lt (F := Ideal) _ _ _ (hpre c)
  refine ⟨fun c => Cert.KernelIdeal.Hand.specResult (Cert.KernelIdeal.Hand.XofM m c) (Cert.KernelIdeal.Hand.TofM m c) (Cert.KernelIdeal.Hand.NofM m c), ?_, ?_⟩
  · refine (θ_run (Cert.KernelIdeal.defs (F := Ideal)) _ _).mono (fun r h c => ⟨?_,
      (h c _ (Cert.KernelIdeal.Hand.mem_uc Cert.KernelIdeal.main_arg0 (by decide))).trans (Cert.KernelIdeal.Hand.W4_arg0 m c),
      (h c _ (Cert.KernelIdeal.Hand.mem_uc Cert.KernelIdeal.main_arg1 (by decide))).trans (Cert.KernelIdeal.Hand.W4_arg1 m c),
      (h c _ (Cert.KernelIdeal.Hand.mem_uc Cert.KernelIdeal.main_arg2 (by decide))).trans (Cert.KernelIdeal.Hand.W4_arg2 m c)⟩)
      (Cert.KernelIdeal.Hand.run_main (F := Ideal) m ρ)
    refine (h c _ (Cert.KernelIdeal.Hand.mem_uc Cert.KernelIdeal.main_v38 (by decide))).trans ?_
    rw [Cert.KernelIdeal.Hand.W4_result m c]
    obtain ⟨e2, e3, e4, e5, e6⟩ := Cert.KernelIdeal.Hand.W1_out m c
    rw [e2, e3, e4, e5, e6]
    exact Cert.KernelIdeal.Hand.kernel_value m c (hT c)
  · refine (θ_run (Cert.ReferenceIdeal.defs (F := Ideal)) _ _).mono (fun r h c => ⟨?_, (h c).2⟩)
      (Cert.ReferenceIdeal.ValueP.run (F := Ideal) m' ρ')
    rw [(h c).1, Cert.ReferenceIdeal.Stages.result_of_launch, (hagree c).1, (hagree c).2.1, (hagree c).2.2]
    exact Cert.RefValue.ref_value _ _ _ (hT c)

theorem claim : Cert.Claim := ⟨Cert.Kernel.Gen.facts, Cert.KernelIdeal.Gen.facts, Cert.ReferenceIdeal.Gen.facts, Cert.Pre_finite_inputs.Gen.facts,
  frame_k, frame_ki, frame_r, preserves, algebraic⟩

end Cert.Proof

end
